-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v27_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v27_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000x128 : Shape := ⟨2, ![500000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x500000 : S_.BroadcastsInDim S2x500000 (![] : Fin 0 → Fin S2x500000.rank)
  reducesTo_S2x500000_S_d0_1 : S2x500000.ReducesTo [0, 1] S_

variable [Facts]

def fn_part6 {F : FTy → Type} [FloatOps F] (main_arg1 : IVec S2x500000 32) (main_arg22 : FVec F S1 .f32) (main_v98 : IVec S_ 1) (main_v101 : IVec S128x1 1) (main_c_39 : IVec S_ 1) : IVec S_ 1 :=
  let main_v102 : IVec S_ 1 := (fun x v => Host.reduce IntOp.andi x v reducesTo_S128x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_c_42 : IVec S_ 32 := constantI S_ 32 0#32
  let main_v109 : IVec S2x500000 32 := broadcastInDim S2x500000 ![] bcast_S_S2x500000 main_c_42
  let main_v110 : IVec S2x500000 1 := cmpi .sge main_arg1 main_v109
  let main_c_43 : IVec S_ 32 := constantI S_ 32 50000#32
  let main_v111 : IVec S2x500000 32 := broadcastInDim S2x500000 ![] bcast_S_S2x500000 main_c_43
  let main_v112 : IVec S2x500000 1 := cmpi .slt main_arg1 main_v111
  let main_v113 : IVec S2x500000 1 := andi main_v110 main_v112
  let main_c_44 : IVec S_ 1 := constantI S_ 1 1#1
  let main_v114 : IVec S_ 1 := (fun x v => Host.reduce IntOp.andi x v reducesTo_S2x500000_S_d0_1 h_S_) main_v113 main_c_44
  let main_v115 : IVec S_ 1 := andi main_v108 main_v114
  main_v115

def fn_part5 {F : FTy → Type} [FloatOps F] (main_arg1 : IVec S2x500000 32) (main_arg19 : FVec F S384x128 .f32) (main_arg20 : FVec F S128 .f32) (main_arg21 : FVec F S128x1 .f32) (main_arg22 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S384x128 .f32 := Host.absf main_arg19
  let main_cst_34 : FVec F S_ .f32 := constant S_ .f32 0x7F800000#32
  let main_v90 : FVec F S384x128 .f32 := broadcastInDim S384x128 ![] bcast_S_S384x128 main_cst_34
  let main_v91 : IVec S384x128 1 := cmpf .olt main_v89 main_v90
  let main_c_35 : IVec S_ 1 := constantI S_ 1 1#1
  let main_v92 : IVec S_ 1 := (fun x v => Host.reduce IntOp.andi x v reducesTo_S384x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x1 .f32 := Host.absf main_arg21
  let main_cst_38 : FVec F S_ .f32 := constant S_ .f32 0x7F800000#32
  let main_v100 : FVec F S128x1 .f32 := broadcastInDim S128x1 ![] bcast_S_S128x1 main_cst_38
  let main_v101 : IVec S128x1 1 := cmpf .olt main_v99 main_v100
  let main_c_39 : IVec S_ 1 := constantI S_ 1 1#1
  fn_part6 (F := F) main_arg1 main_arg22 main_v98 main_v101 main_c_39

def fn_part4 {F : FTy → Type} [FloatOps F] (main_arg1 : IVec S2x500000 32) (main_arg15 : FVec F S128x128 .f32) (main_arg16 : FVec F S128 .f32) (main_arg17 : FVec F S128 .f32) (main_arg18 : FVec F S128 .f32) (main_arg19 : FVec F S384x128 .f32) (main_arg20 : FVec F S128 .f32) (main_arg21 : FVec F S128x1 .f32) (main_arg22 : FVec F S1 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg1 main_arg19 main_arg20 main_arg21 main_arg22 main_v83 main_v84 main_cst_32

def fn_part3 {F : FTy → Type} [FloatOps F] (main_arg1 : IVec S2x500000 32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S384x128 .f32) (main_arg20 : FVec F S128 .f32) (main_arg21 : FVec F S128x1 .f32) (main_arg22 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_arg19 main_arg20 main_arg21 main_arg22 main_v63 main_v67

def fn_part2 {F : FTy → Type} [FloatOps F] (main_arg1 : IVec S2x500000 32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S384x128 .f32) (main_arg20 : FVec F S128 .f32) (main_arg21 : FVec F S128x1 .f32) (main_arg22 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg1 main_arg12 main_arg13 main_arg14 main_arg15 main_arg16 main_arg17 main_arg18 main_arg19 main_arg20 main_arg21 main_arg22 main_v48 main_v49 main_v50

def fn_part1 {F : FTy → Type} [FloatOps F] (main_arg1 : IVec S2x500000 32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S384x128 .f32) (main_arg20 : FVec F S128 .f32) (main_arg21 : FVec F S128x1 .f32) (main_arg22 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : IVec S2x500000 32) (main_arg2 : FVec F S500000x128 .f32) (main_arg3 : FVec F S384x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128 .f32) (main_arg19 : FVec F S384x128 .f32) (main_arg20 : FVec F S128 .f32) (main_arg21 : FVec F S128x1 .f32) (main_arg22 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg2
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S2x500000 : Shape := ⟨2, ![2, 500000]⟩
abbrev S500000x128 : Shape := ⟨2, ![500000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x1 : Shape := ⟨2, ![1, 1]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 101
  | .vmem => 41
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S384x128, .f32⟩
  | .hbm, ⟨20, _⟩ => ⟨S128, .f32⟩
  | .hbm, ⟨21, _⟩ => ⟨S128x1, .f32⟩
  | .hbm, ⟨22, _⟩ => ⟨S1, .f32⟩
  | .hbm, ⟨23, _⟩ => ⟨S1x500000, .i32⟩
  | .hbm, ⟨24, _⟩ => ⟨S500000, .i32⟩
  | .hbm, ⟨25, _⟩ => ⟨S1x500000, .i32⟩
  | .hbm, ⟨26, _⟩ => ⟨S500000, .i32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S1, .i32⟩
  | .hbm, ⟨36, _⟩ => ⟨S_, .i32⟩
  | .hbm, ⟨37, _⟩ => ⟨S500000x1, .i32⟩
  | .hbm, ⟨38, _⟩ => ⟨S500000x1, .i1⟩
  | .hbm, ⟨39, _⟩ => ⟨S1x1, .i32⟩
  | .hbm, ⟨40, _⟩ => ⟨S500000x1, .i32⟩
  | .hbm, ⟨41, _⟩ => ⟨S500000x1, .i1⟩
  | .hbm, ⟨42, _⟩ => ⟨S500000x1, .i1⟩
  | .hbm, ⟨43, _⟩ => ⟨S_, .i1⟩
  | .hbm, ⟨44, _⟩ => ⟨S500000, .i1⟩
  | .hbm, ⟨45, _⟩ => ⟨S500000x128, .f32⟩
  | .hbm, ⟨46, _⟩ => ⟨S500000x128, .i1⟩
  | .hbm, ⟨47, _⟩ => ⟨S_, .f32⟩
  | .hbm, ⟨48, _⟩ => ⟨S500000x128, .f32⟩
  | .hbm, ⟨49, _⟩ => ⟨S500000x128, .f32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S1, .i32⟩
  | .hbm, ⟨59, _⟩ => ⟨S_, .i32⟩
  | .hbm, ⟨60, _⟩ => ⟨S500000x1, .i32⟩
  | .hbm, ⟨61, _⟩ => ⟨S500000x1, .i1⟩
  | .hbm, ⟨62, _⟩ => ⟨S1x1, .i32⟩
  | .hbm, ⟨63, _⟩ => ⟨S500000x1, .i32⟩
  | .hbm, ⟨64, _⟩ => ⟨S500000x1, .i1⟩
  | .hbm, ⟨65, _⟩ => ⟨S500000x1, .i1⟩
  | .hbm, ⟨66, _⟩ => ⟨S_, .i1⟩
  | .hbm, ⟨67, _⟩ => ⟨S500000, .i1⟩
  | .hbm, ⟨68, _⟩ => ⟨S500000x128, .f32⟩
  | .hbm, ⟨69, _⟩ => ⟨S500000x128, .i1⟩
  | .hbm, ⟨70, _⟩ => ⟨S_, .f32⟩
  | .hbm, ⟨71, _⟩ => ⟨S500000x128, .f32⟩
  | .hbm, ⟨72, _⟩ => ⟨S500000x128, .f32⟩
  | .hbm, ⟨73, _⟩ => ⟨S128x128, .f32⟩
  | .hbm, ⟨74, _⟩ => ⟨S128x128, .f32⟩
  | .hbm, ⟨75, _⟩ => ⟨S128x128, .f32⟩
  | .hbm, ⟨76, _⟩ => ⟨S128x128, .f32⟩
  | .hbm, ⟨77, _⟩ => ⟨S128x128, .f32⟩
  | .hbm, ⟨78, _⟩ => ⟨S128x128, .f32⟩
  | .hbm, ⟨79, _⟩ => ⟨S128x128, .f32⟩
  | .hbm, ⟨80, _⟩ => ⟨S128x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x1, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S500000x128, .f32⟩
  | .hbm, ⟨95, _⟩ => ⟨S500000x128, .f32⟩
  | .hbm, ⟨96, _⟩ => ⟨S_, .f32⟩
  | .hbm, ⟨97, _⟩ => ⟨S50000x128, .f32⟩
  | .hbm, ⟨98, _⟩ => ⟨S500000x1, .i32⟩
  | .hbm, ⟨99, _⟩ => ⟨S50000x128, .f32⟩
  | .hbm, ⟨100, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x1, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S128x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S2000x128, .f32⟩
  | .local _ .vmem, ⟨40, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v4 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v5 : Ref sig .tc := ⟨.hbm, 72, rfl⟩
abbrev main_v6 : Ref sig .tc := ⟨.hbm, 73, rfl⟩
abbrev main_v7 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27_0 : Ref sig .tc := ⟨.hbm, 94, rfl⟩
abbrev main_v27_1 : Ref sig .tc := ⟨.hbm, 95, rfl⟩
abbrev main_cst : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg11_0 : Ref sig .tc := ⟨.vmem, 39, rfl⟩
abbrev cc1_stg11_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem3_0 : DmaSem sig := 31
abbrev cc1_sem4_0 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem9_0 : DmaSem sig := 37
abbrev cc1_sem10_0 : DmaSem sig := 38
abbrev cc1_sem11_0 : DmaSem sig := 39
abbrev cc1_sem11_1 : DmaSem sig := 40

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S2000x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2000x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  slices_S256x128_S128x128_0_0 : S256x128.Slices ![0, 0] S128x128
  slices_S256x128_S128x128_128_0 : S256x128.Slices ![128, 0] S128x128
  shapeCasts_S128_S1x128 : S128.ShapeCasts S1x128
  shapeCasts_S128x1_S1x128 : S128x1.ShapeCasts S1x128
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  bcast_S_S50000x128 : S_.BroadcastsInDim S50000x128 (![] : Fin 0 → Fin S50000x128.rank)
  gather_S50000x128_S500000x1_S500000x128_1_0_n_n_0_1_1128_wf : GatherDims.WF S50000x128 S500000x1 S500000x128 [1] [0] [] [0] [] 1 ![1, 128]
  dot_S2000x128_S128x128_S2000x128_1_0_0_1_n_n_wf : DotDims.WF S2000x128 S128x128 S2000x128 [1] [0] [0] [1] [] []
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .f32 = 32 ∨ (Rect.block (s := S500000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S500000x128.size a
  hwx0_1 : ∀ i : grid0.Coords, EltTy.bits .f32 = 32 ∨ (Rect.block (s := S500000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S500000x128.size a
  hwx0_2 : ∀ i : grid0.Coords, EltTy.bits .f32 = 32 ∨ (Rect.block (s := S500000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .f32 = 32 ∨ (Rect.block (s := S128x128) S128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1.size a ≤ S1x1.size a
  hwx0_18 : ∀ i : grid0.Coords, EltTy.bits .f32 = 32 ∨ (Rect.block (s := S1x1) S1x1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2000x128.size a ≤ S500000x128.size a
  hwx0_19 : ∀ i : grid0.Coords, EltTy.bits .f32 = 32 ∨ (Rect.block (s := S500000x128) S2000x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S2000x128.size a ≤ S500000x128.size a
  hwx0_20 : ∀ i : grid0.Coords, EltTy.bits .f32 = 32 ∨ (Rect.block (s := S500000x128) S2000x128.size (cc0_transform_20 i) (hinb0_20 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v11) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v19) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v20) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v21) S1x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v27_0) S2000x128.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v27_1) S2000x128.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v26) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v31) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000x128 : Shape := ⟨2, ![500000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x384 : Shape := ⟨2, ![500000, 384]⟩
abbrev S1x128 : Shape := ⟨2, ![1, 128]⟩
abbrev S1x1 : Shape := ⟨2, ![1, 1]⟩
abbrev S50000x256 : Shape := ⟨2, ![50000, 256]⟩
abbrev S50000 : Shape := ⟨1, ![50000]⟩
abbrev S50000x1 : Shape := ⟨2, ![50000, 1]⟩

abbrev nBuf : Space → Nat
  | .hbm => 168
  | .vmem => 0
  | .smem => 0
  | _ => 0

abbrev hbmTy0_0 (i : Nat) : BufTy := match i % 128 with
  | 0 => ⟨S50000x128, .f32⟩
  | 1 => ⟨S2x500000, .i32⟩
  | 2 => ⟨S500000x128, .f32⟩
  | 3 => ⟨S384x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S256x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128, .f32⟩
  | 19 => ⟨S384x128, .f32⟩
  | 20 => ⟨S128, .f32⟩
  | 21 => ⟨S128x1, .f32⟩
  | 22 => ⟨S1, .f32⟩
  | 23 => ⟨S1x500000, .i32⟩
  | 24 => ⟨S500000, .i32⟩
  | 25 => ⟨S1x500000, .i32⟩
  | 26 => ⟨S500000, .i32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x128, .f32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000x128, .f32⟩
  | 45 => ⟨S500000x384, .f32⟩
  | 46 => ⟨S500000x128, .f32⟩
  | 47 => ⟨S1x128, .f32⟩
  | 48 => ⟨S500000x128, .f32⟩
  | 49 => ⟨S500000x128, .f32⟩
  | 50 => ⟨S_, .f32⟩
  | 51 => ⟨S500000x128, .f32⟩
  | 52 => ⟨S500000x128, .f32⟩
  | 53 => ⟨S500000x128, .f32⟩
  | 54 => ⟨S1x128, .f32⟩
  | 55 => ⟨S500000x128, .f32⟩
  | 56 => ⟨S500000x128, .f32⟩
  | 57 => ⟨S_, .f32⟩
  | 58 => ⟨S500000x128, .f32⟩
  | 59 => ⟨S500000x128, .f32⟩
  | 60 => ⟨S500000x128, .f32⟩
  | 61 => ⟨S1x128, .f32⟩
  | 62 => ⟨S500000x128, .f32⟩
  | 63 => ⟨S500000x128, .f32⟩
  | 64 => ⟨S_, .f32⟩
  | 65 => ⟨S500000, .f32⟩
  | 66 => ⟨S500000x1, .f32⟩
  | 67 => ⟨S_, .f32⟩
  | 68 => ⟨S500000x1, .f32⟩
  | 69 => ⟨S500000x1, .f32⟩
  | 70 => ⟨S500000x128, .f32⟩
  | 71 => ⟨S500000x128, .f32⟩
  | 72 => ⟨S500000x128, .f32⟩
  | 73 => ⟨S_, .f32⟩
  | 74 => ⟨S500000, .f32⟩
  | 75 => ⟨S500000x1, .f32⟩
  | 76 => ⟨S_, .f32⟩
  | 77 => ⟨S500000x1, .f32⟩
  | 78 => ⟨S500000x1, .f32⟩
  | 79 => ⟨S500000x128, .f32⟩
  | 80 => ⟨S500000x128, .f32⟩
  | 81 => ⟨S_, .f32⟩
  | 82 => ⟨S500000x1, .f32⟩
  | 83 => ⟨S500000x1, .f32⟩
  | 84 => ⟨S500000x1, .f32⟩
  | 85 => ⟨S500000x128, .f32⟩
  | 86 => ⟨S500000x128, .f32⟩
  | 87 => ⟨S1x128, .f32⟩
  | 88 => ⟨S500000x128, .f32⟩
  | 89 => ⟨S500000x128, .f32⟩
  | 90 => ⟨S1x128, .f32⟩
  | 91 => ⟨S500000x128, .f32⟩
  | 92 => ⟨S500000x128, .f32⟩
  | 93 => ⟨S500000x128, .f32⟩
  | 94 => ⟨S1x128, .f32⟩
  | 95 => ⟨S500000x128, .f32⟩
  | 96 => ⟨S500000x128, .f32⟩
  | 97 => ⟨S_, .f32⟩
  | 98 => ⟨S500000x128, .f32⟩
  | 99 => ⟨S500000x128, .f32⟩
  | 100 => ⟨S500000x1, .f32⟩
  | 101 => ⟨S1x1, .f32⟩
  | 102 => ⟨S500000x1, .f32⟩
  | 103 => ⟨S500000x1, .f32⟩
  | 104 => ⟨S500000x1, .f32⟩
  | 105 => ⟨S500000x1, .f32⟩
  | 106 => ⟨S_, .f32⟩
  | 107 => ⟨S500000x1, .f32⟩
  | 108 => ⟨S500000x1, .f32⟩
  | 109 => ⟨S_, .f32⟩
  | 110 => ⟨S500000x1, .f32⟩
  | 111 => ⟨S500000x1, .f32⟩
  | 112 => ⟨S500000x128, .f32⟩
  | 113 => ⟨S500000x128, .f32⟩
  | 114 => ⟨S_, .f32⟩
  | 115 => ⟨S50000x128, .f32⟩
  | 116 => ⟨S500000x1, .i32⟩
  | 117 => ⟨S50000x128, .f32⟩
  | 118 => ⟨S50000x256, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000, .f32⟩
  | 11 => ⟨S50000x1, .f32⟩
  | 12 => ⟨S_, .f32⟩
  | 13 => ⟨S50000x1, .f32⟩
  | 14 => ⟨S50000x1, .f32⟩
  | 15 => ⟨S50000x128, .f32⟩
  | 16 => ⟨S50000x128, .f32⟩
  | 17 => ⟨S50000x128, .f32⟩
  | 18 => ⟨S_, .f32⟩
  | 19 => ⟨S50000, .f32⟩
  | 20 => ⟨S50000x1, .f32⟩
  | 21 => ⟨S_, .f32⟩
  | 22 => ⟨S50000x1, .f32⟩
  | 23 => ⟨S50000x1, .f32⟩
  | 24 => ⟨S50000x128, .f32⟩
  | 25 => ⟨S50000x128, .f32⟩
  | 26 => ⟨S_, .f32⟩
  | 27 => ⟨S50000x1, .f32⟩
  | 28 => ⟨S50000x1, .f32⟩
  | 29 => ⟨S50000x1, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S50000x128, .f32⟩
  | 39 => ⟨S500000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_call0_cst : Ref sig .tc := ⟨.hbm, 50, rfl⟩
abbrev main_call0_v0 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_call1_cst : Ref sig .tc := ⟨.hbm, 57, rfl⟩
abbrev main_call1_v0 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst : Ref sig .tc := ⟨.hbm, 64, rfl⟩
abbrev main_v33 : Ref sig .tc := ⟨.hbm, 65, rfl⟩
abbrev main_v34 : Ref sig .tc := ⟨.hbm, 66, rfl⟩
abbrev main_cst_3 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_4 : Ref sig .tc := ⟨.hbm, 73, rfl⟩
abbrev main_v40 : Ref sig .tc := ⟨.hbm, 74, rfl⟩
abbrev main_v41 : Ref sig .tc := ⟨.hbm, 75, rfl⟩
abbrev main_cst_5 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_6 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_call2_cst : Ref sig .tc := ⟨.hbm, 97, rfl⟩
abbrev main_call2_v0 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_7 : Ref sig .tc := ⟨.hbm, 106, rfl⟩
abbrev main_v68 : Ref sig .tc := ⟨.hbm, 107, rfl⟩
abbrev main_v69 : Ref sig .tc := ⟨.hbm, 108, rfl⟩
abbrev main_cst_8 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_9 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_call3_cst : Ref sig .tc := ⟨.hbm, 123, rfl⟩
abbrev main_call3_v0 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_call4_cst : Ref sig .tc := ⟨.hbm, 130, rfl⟩
abbrev main_call4_v0 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_10 : Ref sig .tc := ⟨.hbm, 137, rfl⟩
abbrev main_v92 : Ref sig .tc := ⟨.hbm, 138, rfl⟩
abbrev main_v93 : Ref sig .tc := ⟨.hbm, 139, rfl⟩
abbrev main_cst_11 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_12 : Ref sig .tc := ⟨.hbm, 146, rfl⟩
abbrev main_v99 : Ref sig .tc := ⟨.hbm, 147, rfl⟩
abbrev main_v100 : Ref sig .tc := ⟨.hbm, 148, rfl⟩
abbrev main_cst_13 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_14 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  reducesTo_S500000x128_S500000_d1 : S500000x128.ReducesTo [1] S500000
  h_S_ : 0 < S_.numel
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S500000x1_S500000x128_1_0_n_n_0_1_1128_wf : GatherDims.WF S50000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x128_S500000x128_1_0_0_1_n_n_wf : DotDims.WF S500000x128 S128x128 S500000x128 [1] [0] [0] [1] [] []
  dot_S500000x128_S128x1_S500000x1_1_0_0_1_n_n_wf : DotDims.WF S500000x128 S128x1 S500000x1 [1] [0] [0] [1] [] []
  scatter_S50000x128_S500000x1_S500000x128_1_0_0_1_wf : ScatterDims.WF S50000x128 S500000x1 S500000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.IndexRange.lean ====
/-
  The edge list holds node indices.

  The precondition is a conjunction, over all inputs, of "every entry is finite" and, last, "every entry of the
  edge list is at least 0 and below 50000". Read at its one index, the conjunction's last member is an all-reduction
  of an elementwise conjunction of two signed comparisons of the edge list with constants; so each entry, read as a
  signed integer, lies in [0, 50000).
-/
import proofs.«423889_j55173149884914_1_alg».proof.Pre_finite_inputs
import proofs.«423889_j55173149884914_1_alg».proof.Proof.Gen.Pre_finite_inputs
import Idealize.ShloMosaic.Lib.ReduceAll
import Idealize.ShloMosaic.Lib.Affine
import Idealize.ShloMosaic.Lib.ValueIdx

noncomputable section

namespace Cert.IndexRange

open Idealize.ShloMosaic Cert.Pre_finite_inputs Cert.Pre_finite_inputs.Gen

instance : Subsingleton S_.Idx := ⟨fun a b => funext fun d => d.elim0⟩

/-- Every entry of the edge list is a signed integer in [0, 50000). -/
theorem in_range (a0 : FVec Ideal S50000x128 .f32) (a1 : IVec S2x500000 32) (a2 : FVec Ideal S500000x128 .f32)
    (a3 : FVec Ideal S384x128 .f32) (a4 : FVec Ideal S128 .f32) (a5 : FVec Ideal S128x128 .f32) (a6 : FVec Ideal S128 .f32)
    (a7 : FVec Ideal S128x128 .f32) (a8 a9 a10 : FVec Ideal S128 .f32) (a11 : FVec Ideal S256x128 .f32) (a12 : FVec Ideal S128 .f32)
    (a13 : FVec Ideal S128x128 .f32) (a14 : FVec Ideal S128 .f32) (a15 : FVec Ideal S128x128 .f32) (a16 a17 a18 : FVec Ideal S128 .f32)
    (a19 : FVec Ideal S384x128 .f32) (a20 : FVec Ideal S128 .f32) (a21 : FVec Ideal S128x1 .f32) (a22 : FVec Ideal S1 .f32)
    (h : fn (F := Ideal) a0 a1 a2 a3 a4 a5 a6 a7 a8 a9 a10 a11 a12 a13 a14 a15 a16 a17 a18 a19 a20 a21 a22 = fun _ => 1#1) (i : S2x500000.Idx) :
    0 ≤ (a1 i).toInt ∧ (a1 i).toInt < 50000 := by
  have h0 := congrFun h ValueIdx.ix0
  dsimp only [fn, fn_part1, fn_part2, fn_part3, fn_part4, fn_part5, fn_part6] at h0
  have h1 := (IntOp.andi_eq_one.1 h0).2
  have h2 := Host.reduce_andi_all _ _ _ _ _ h1 i
  obtain ⟨hge, hlt⟩ := IntOp.andi_eq_one.1 h2
  have e0 := IntOp.cmpi_sge.1 hge
  have e1 := IntOp.cmpi_slt.1 hlt
  exact ⟨e0, e1⟩

end Cert.IndexRange

end
-- ==== Proof.HostEntry.lean ====
/-
  What the edge region finds in its arrays.

  Before the edge region the program only rearranges its inputs: it takes the receivers' and the senders' rows of the
  node features, cuts the two 384-row first-layer weight arrays into their three 128-row parts, and stores every bias as
  a [1,128] array (the gate's [128,1] output weights as [1,128], its [1] bias as [1,1]). So each array a window of the
  edge region reads is, at the region's entry, one of these terms of the launch memory; the edge features and the two
  second- and third-layer weight arrays are read as launched.
-/
import proofs.«423889_j55173149884914_1_alg».proof.Proof.Gen.KernelIdeal.Frame
import Idealize.ShloMosaic.Lib.StableHlo.Run
import Idealize.ShloMosaic.PureOps.Ideal

set_option maxRecDepth 16384

noncomputable section

namespace Cert.KernelIdeal.HostEntry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The receivers' row (row 1) and the senders' row (row 0) of the edge list, as [500000] arrays. -/
def recvRow (c : Dev nD) : IVec S500000 32 :=
  shapeCast S500000 (extractStridedSlice S1x500000 ![1, 0] (m ((c : Thread nD τ).loc main_arg1)) slices_S2x500000_S1x500000_1_0) shapeCasts_S1x500000_S500000
def sendRow (c : Dev nD) : IVec S500000 32 :=
  shapeCast S500000 (extractStridedSlice S1x500000 ![0, 0] (m ((c : Thread nD τ).loc main_arg1)) slices_S2x500000_S1x500000_0_0) shapeCasts_S1x500000_S500000

/-! ## The taken rows -/

/-- A row of the edge list as the index column the take gathers at: negative entries wrapped by 50000, as [500000,1]. -/
abbrev wrapped (d : IVec S500000 32) : IVec S500000x1 32 :=
  broadcastInDim S500000x1 ![0] bcast_S500000_S500000x1_0
    (select (cmpi .slt d (broadcastInDim S500000 ![] bcast_S_S500000 (constantI S_ 32 0#32)))
      (addi d (broadcastInDim S500000 ![] bcast_S_S500000 (constantI S_ 32 50000#32))) d)

/-- The guarded take of rows of `x` at the edge-list row `d`: the gather at the wrapped column where that column is in
    [0, 49999], a fill word elsewhere. -/
abbrev guardedTake (x : FVec Ideal S50000x128 .f32) (d : IVec S500000 32) : FVec Ideal S500000x128 .f32 :=
  select (broadcastInDim S500000x128 ![0] bcast_S500000_S500000x128_0
      (Host.reduce IntOp.andi
        (andi (cmpi .sge (wrapped d) (broadcastInDim S500000x1 ![] bcast_S_S500000x1 (constantI S_ 32 0#32)))
          (cmpi .sle (wrapped d) (broadcastInDim S500000x1 ![0, 1] bcast_S1x1_S500000x1_0_1
            (broadcastInDim S1x1 ![1] bcast_S1_S1x1_1 (constantI S1 32 49999#32)))))
        (constantI S_ 1 1#1) reducesTo_S500000x1_S500000_d1 h_S_))
    (Host.gather gather_S50000x128_S500000x1_S500000x128_1_0_n_n_0_1_1128 x (wrapped d))
    (broadcastInDim S500000x128 ![] bcast_S_S500000x128 (constant (F := Ideal) S_ .f32 0x7FC00000#32))

-- A buffer at the edge region's entry, read back through the four rearranging stretches to the launch memory: each
-- operation's result at its own buffer is its function's value, any other buffer keeps what it held; a typed
-- reference's transport along a reflexive equation of buffer types is the identity.
set_option hygiene false in
local macro "read_entry" b:term : tactic =>
  `(tactic| (show StableHlo.after (hostOps0_3 (F := Ideal)) (StableHlo.after (hostOps0_2 (F := Ideal)) (StableHlo.after (hostOps0_1 (F := Ideal)) (StableHlo.after (hostOps0 (F := Ideal)) (W0 m ρ c)))) (Proc.devRef .tc $b) = _
             after_results_simp <;> (try simp only [TRef.ofBuf, TRef.toBuf, cast_eq]) <;> rfl))

theorem entry_recvRows (c : Dev nD) : V4 m ρ c main_v4 = guardedTake (m ((c : Thread nD τ).loc main_arg0)) (recvRow m c) := by
  read_entry main_v4
theorem entry_sendRows (c : Dev nD) : V4 m ρ c main_v5 = guardedTake (m ((c : Thread nD τ).loc main_arg0)) (sendRow m c) := by
  read_entry main_v5

/-! ## Arrays read as launched -/

theorem entry_edgeAttr (c : Dev nD) : V4 m ρ c main_arg2 = (m ((c : Thread nD τ).loc main_arg2)) := by
  read_entry main_arg2
theorem entry_w1 (c : Dev nD) : V4 m ρ c main_arg5 = (m ((c : Thread nD τ).loc main_arg5)) := by
  read_entry main_arg5
theorem entry_w2 (c : Dev nD) : V4 m ρ c main_arg7 = (m ((c : Thread nD τ).loc main_arg7)) := by
  read_entry main_arg7

/-! ## The parts of the two first-layer weight arrays -/

theorem entry_w0a (c : Dev nD) : V4 m ρ c main_v6 = extractStridedSlice S128x128 ![0, 0] (m ((c : Thread nD τ).loc main_arg3)) slices_S384x128_S128x128_0_0 := by
  read_entry main_v6
theorem entry_w0b (c : Dev nD) : V4 m ρ c main_v7 = extractStridedSlice S128x128 ![128, 0] (m ((c : Thread nD τ).loc main_arg3)) slices_S384x128_S128x128_128_0 := by
  read_entry main_v7
theorem entry_w0c (c : Dev nD) : V4 m ρ c main_v8 = extractStridedSlice S128x128 ![256, 0] (m ((c : Thread nD τ).loc main_arg3)) slices_S384x128_S128x128_256_0 := by
  read_entry main_v8
theorem entry_g0a (c : Dev nD) : V4 m ρ c main_v9 = extractStridedSlice S128x128 ![0, 0] (m ((c : Thread nD τ).loc main_arg19)) slices_S384x128_S128x128_0_0 := by
  read_entry main_v9
theorem entry_g0b (c : Dev nD) : V4 m ρ c main_v10 = extractStridedSlice S128x128 ![128, 0] (m ((c : Thread nD τ).loc main_arg19)) slices_S384x128_S128x128_128_0 := by
  read_entry main_v10
theorem entry_g0c (c : Dev nD) : V4 m ρ c main_v11 = extractStridedSlice S128x128 ![256, 0] (m ((c : Thread nD τ).loc main_arg19)) slices_S384x128_S128x128_256_0 := by
  read_entry main_v11

/-! ## The biases, the normalisation's gain and offset, the gate's output weights and bias -/

theorem entry_b0 (c : Dev nD) : V4 m ρ c main_v14 = shapeCast S1x128 (m ((c : Thread nD τ).loc main_arg4)) shapeCasts_S128_S1x128 := by
  read_entry main_v14
theorem entry_b1 (c : Dev nD) : V4 m ρ c main_v15 = shapeCast S1x128 (m ((c : Thread nD τ).loc main_arg6)) shapeCasts_S128_S1x128 := by
  read_entry main_v15
theorem entry_b2 (c : Dev nD) : V4 m ρ c main_v16 = shapeCast S1x128 (m ((c : Thread nD τ).loc main_arg8)) shapeCasts_S128_S1x128 := by
  read_entry main_v16
theorem entry_gain (c : Dev nD) : V4 m ρ c main_v17 = shapeCast S1x128 (m ((c : Thread nD τ).loc main_arg9)) shapeCasts_S128_S1x128 := by
  read_entry main_v17
theorem entry_offset (c : Dev nD) : V4 m ρ c main_v18 = shapeCast S1x128 (m ((c : Thread nD τ).loc main_arg10)) shapeCasts_S128_S1x128 := by
  read_entry main_v18
theorem entry_d0 (c : Dev nD) : V4 m ρ c main_v19 = shapeCast S1x128 (m ((c : Thread nD τ).loc main_arg20)) shapeCasts_S128_S1x128 := by
  read_entry main_v19
theorem entry_gw1 (c : Dev nD) : V4 m ρ c main_v20 = shapeCast S1x128 (m ((c : Thread nD τ).loc main_arg21)) shapeCasts_S128x1_S1x128 := by
  read_entry main_v20
theorem entry_d1 (c : Dev nD) : V4 m ρ c main_v21 = shapeCast S1x1 (m ((c : Thread nD τ).loc main_arg22)) shapeCasts_S1_S1x1 := by
  read_entry main_v21

end Cert.KernelIdeal.HostEntry

end
-- ==== Proof.NodeEntry.lean ====
/-
  What the node region finds in its arrays, and where the program's two results are read.

  Between the regions the program sums the messages into their receivers' rows (a scatter-add into zeros at the
  receivers' row of the edge list) and nothing else; the node region's weight arrays were cut and reshaped before the
  edge region and are untouched since. The new edge features are the edge region's first output, untouched afterwards;
  the new node features are the node region's output.
-/
import proofs.«423889_j55173149884914_1_alg».proof.Proof.Gen.KernelIdeal.Frame
import Idealize.ShloMosaic.Lib.StableHlo.Run
import Idealize.ShloMosaic.PureOps.Ideal

set_option maxRecDepth 16384

noncomputable section

namespace Cert.KernelIdeal.NodeEntry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- Reads a buffer that neither the operations between the regions nor the edge region write back to the launch
    memory: through the operations between the regions, across the edge region, and through the four stretches of
    operations before it; what is left is the buffer's defining function of the launch memory on both sides. -/
local macro "read_back " r:term : tactic => `(tactic| (
  show StableHlo.after (hostOps1 (F := Ideal)) _ (Proc.devRef .tc $r) = _
  after_results
  refine (W5_of_ne _ _ _ $r (by decide)).trans ?_
  show StableHlo.after (hostOps0_3 (F := Ideal)) (StableHlo.after (hostOps0_2 (F := Ideal)) (StableHlo.after (hostOps0_1 (F := Ideal)) (StableHlo.after (hostOps0 (F := Ideal)) _))) (Proc.devRef .tc $r) = _
  after_results
  first | done | rfl))

/-! ## Arrays read as launched -/

theorem entry_x (c : Dev nD) : V6 m ρ c main_arg0 = (m ((c : Thread nD τ).loc main_arg0)) := by
  read_back main_arg0
theorem entry_w1 (c : Dev nD) : V6 m ρ c main_arg13 = (m ((c : Thread nD τ).loc main_arg13)) := by
  read_back main_arg13
theorem entry_w2 (c : Dev nD) : V6 m ρ c main_arg15 = (m ((c : Thread nD τ).loc main_arg15)) := by
  read_back main_arg15

/-! ## The two parts of the first-layer weight array -/

theorem entry_w0x (c : Dev nD) : V6 m ρ c main_v12 = extractStridedSlice S128x128 ![0, 0] (m ((c : Thread nD τ).loc main_arg11)) slices_S256x128_S128x128_0_0 := by
  read_back main_v12
theorem entry_w0a (c : Dev nD) : V6 m ρ c main_v13 = extractStridedSlice S128x128 ![128, 0] (m ((c : Thread nD τ).loc main_arg11)) slices_S256x128_S128x128_128_0 := by
  read_back main_v13

/-! ## The biases and the normalisation's gain and offset -/

theorem entry_b0 (c : Dev nD) : V6 m ρ c main_v22 = shapeCast S1x128 (m ((c : Thread nD τ).loc main_arg12)) shapeCasts_S128_S1x128 := by
  read_back main_v22
theorem entry_b1 (c : Dev nD) : V6 m ρ c main_v23 = shapeCast S1x128 (m ((c : Thread nD τ).loc main_arg14)) shapeCasts_S128_S1x128 := by
  read_back main_v23
theorem entry_b2 (c : Dev nD) : V6 m ρ c main_v24 = shapeCast S1x128 (m ((c : Thread nD τ).loc main_arg16)) shapeCasts_S128_S1x128 := by
  read_back main_v24
theorem entry_gain (c : Dev nD) : V6 m ρ c main_v25 = shapeCast S1x128 (m ((c : Thread nD τ).loc main_arg17)) shapeCasts_S128_S1x128 := by
  read_back main_v25
theorem entry_offset (c : Dev nD) : V6 m ρ c main_v26 = shapeCast S1x128 (m ((c : Thread nD τ).loc main_arg18)) shapeCasts_S128_S1x128 := by
  read_back main_v26

/-! ## The summed messages -/

/-- The messages (the edge region's second output) added into zeros at the receivers' row of the edge list. -/
theorem entry_aggr (c : Dev nD) :
    V6 m ρ c main_v30
      = Host.scatterAdd scatter_S50000x128_S500000x1_S500000x128_1_0_0_1
          (broadcastInDim S50000x128 ![] bcast_S_S50000x128 (constant (F := Ideal) S_ .f32 0x00000000#32))
          (broadcastInDim S500000x1 ![0] bcast_S500000_S500000x1_0
            (shapeCast S500000 (extractStridedSlice S1x500000 ![1, 0] (m ((c : Thread nD τ).loc main_arg1)) slices_S2x500000_S1x500000_1_0) shapeCasts_S1x500000_S500000))
          ((dat0 (V4 m ρ) c).arrAt 20 cfg0.N) := by
  -- the receivers' row: cut from the edge list and flattened before the edge region, untouched since
  have hrecv : W5 m ρ c (Proc.devRef .tc main_v3)
      = shapeCast S500000 (extractStridedSlice S1x500000 ![1, 0] (m ((c : Thread nD τ).loc main_arg1)) slices_S2x500000_S1x500000_1_0) shapeCasts_S1x500000_S500000 := by
    refine (W5_of_ne m ρ c main_v3 (by decide)).trans ?_
    show StableHlo.after (hostOps0_3 (F := Ideal)) (StableHlo.after (hostOps0_2 (F := Ideal)) (StableHlo.after (hostOps0_1 (F := Ideal)) (StableHlo.after (hostOps0 (F := Ideal)) (W0 m ρ c)))) (Proc.devRef .tc main_v3) = _
    after_results
    first | done | rfl
  -- the messages: the edge region's second output as that region leaves it
  have hmsg : W5 m ρ c (Proc.devRef .tc main_v27_1) = (dat0 (V4 m ρ) c).arrAt 20 cfg0.N := W5_arr m ρ c 20
  -- the last operation between the regions adds the messages into zeros at the receivers' row
  show StableHlo.after (hostOps1 (F := Ideal)) (W5 m ρ c) (Proc.devRef .tc main_v30) = _
  after_results
  rw [hrecv, hmsg]

/-! ## The results -/

theorem result_edges (c : Dev nD) : W7 m ρ c (Proc.devRef .tc main_v27_0) = (dat0 (V4 m ρ) c).arrAt 19 cfg0.N := by
  -- the node region does not write the new edge features, nor do the operations between the regions
  refine (W7_of_ne m ρ c main_v27_0 (by decide)).trans ?_
  show StableHlo.after (hostOps1 (F := Ideal)) (W5 m ρ c) (Proc.devRef .tc main_v27_0) = _
  after_results
  exact W5_arr m ρ c 19
theorem result_nodes (c : Dev nD) : W7 m ρ c (Proc.devRef .tc main_v31) = (dat1 (V6 m ρ) c).arrAt 11 cfg1.N := by
  exact W7_arr m ρ c 11

end Cert.KernelIdeal.NodeEntry

end
-- ==== Proof.BlockOps.lean ====
/-
  The block's vector operations read at one index, at the extended reals.

  A grid point of either kernel works on a block of 2000 rows by 128 features. Every operation of its body is local to a
  row: a product with a 128 × 128 matrix, a sum along the row, a broadcast of a per-row scalar or of a per-feature row
  over the block. Read at row `p`, feature `q`:

    * the product of a block `x` with a matrix `w` into a zero accumulator is `Σ k, x[p,k] · w[k,q]`;
    * the lane sum, kept as a column, is `Σ k, v[p,k]`;
    * a [1,128] row broadcast over the block is the row at `q`; a [2000,1] column broadcast is the column at `p`;
      a [1,1] scalar broadcast down a column is the scalar.
-/
import proofs.«423889_j55173149884914_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockOps

open Cert.KernelIdeal Cert.KernelIdeal.Gen Idealize.ShloMosaic Idealize.ShloMosaic.ValueIdx

/-! ## The product with a 128 × 128 matrix -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Row `p` of the block times column `q` of the matrix. -/
theorem matmul_at {φ₁ φ₂ : FTy} (x : FVec Ideal S2000x128 φ₁) (w : FVec Ideal S128x128 φ₂) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The sum along a row, kept as a column -/

/-- The row's sum. The reduction's accumulator word is the zero word, as printed. -/
theorem laneSum_at (v : FVec Ideal S2000x128 .f32) (hφ : FKind.Formats .f32)
    (hacc : (0x00000000#32 : BitVec 32) = FKind.add.neutral .f32 hφ) (p : Fin 2000) :
    shapeCast S2000x1 (multiReduction .add [1] S2000 v 0x00000000#32 reduces_S2000x128_S2000 hφ hacc) shapeCasts_S2000_S2000x1 (ix2 p (0 : Fin 1))
      = ∑ k : Fin 128, v (ix2 p k) := by
  refine (shapeCast_apply _ shapeCasts_S2000_S2000x1 (ix2 p (0 : Fin 1)) (ix1 p) (by
    rw [Shape.rowMajor_val_one, Shape.rowMajor_val_two]; show p.val = p.val * 1 + 0; omega)).trans ?_
  refine (Ideal.multiReduction_add_single v 0x00000000#32 reduces_S2000x128_S2000 hφ hacc (ix1 p)).trans ?_
  refine Finset.sum_congr rfl fun k _ => congrArg v ?_
  funext a
  match a with
  | ⟨0, _⟩ => rfl
  | ⟨1, _⟩ => rfl

/-! ## Broadcasts -/

/-- A per-feature row over the block. -/
theorem bcastRow_at {α : Type} (v : S1x128.Idx → α) (p : Fin 2000) (q : Fin 128) :
    broadcastTo S2000x128 v broadcasts_S1x128_S2000x128 (ix2 p q) = v (ix2 (0 : Fin 1) q) :=
  broadcastTo_apply v broadcasts_S1x128_S2000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- A per-row column over the block. -/
theorem bcastCol_at {α : Type} (v : S2000x1.Idx → α) (p : Fin 2000) (q : Fin 128) :
    broadcastTo S2000x128 v broadcasts_S2000x1_S2000x128 (ix2 p q) = v (ix2 p (0 : Fin 1)) :=
  broadcastTo_apply v broadcasts_S2000x1_S2000x128 (ix2 p q) (ix2 p (0 : Fin 1)) (fun a => by
    match a with
    | ⟨0, _⟩ => show p.val = if (2000 : Nat) = 1 then 0 else p.val; rw [if_neg (by decide)]
    | ⟨1, _⟩ => show (0 : Nat) = if (1 : Nat) = 1 then 0 else _; rw [if_pos rfl])

/-- One scalar down a column. -/
theorem bcastOne_at {α : Type} (v : S1x1.Idx → α) (p : Fin 2000) :
    broadcastTo S2000x1 v broadcasts_S1x1_S2000x1 (ix2 p (0 : Fin 1)) = v (ix2 (0 : Fin 1) (0 : Fin 1)) :=
  broadcastTo_apply v broadcasts_S1x1_S2000x1 (ix2 p (0 : Fin 1)) (ix2 (0 : Fin 1) (0 : Fin 1)) (fun a => by
    match a with
    | ⟨0, _⟩ => show (0 : Nat) = if (1 : Nat) = 1 then 0 else _; rw [if_pos rfl]
    | ⟨1, _⟩ => show (0 : Nat) = if (1 : Nat) = 1 then 0 else _; rw [if_pos rfl])

end Cert.KernelIdeal.BlockOps

end
-- ==== Proof.Spec.lean ====
/-
  The mathematics of one message-passing block, row by row, on the extended reals.

  A graph has 50000 nodes with 128 features each and 500000 directed edges with 128 features each. For an edge
  with receiver row `a`, sender row `b` and its own feature row `c`:

    * the edge update `eNew` is a three-layer perceptron of the concatenation (a, b, c) — 384 inputs — followed by a
      layer normalisation: with h = W₂ᵀ relu(W₁ᵀ relu(W₀ᵀ(a,b,c) + b₀) + b₁) + b₂, mean μ = (Σ h)/128 and variance
      σ² = (Σ (h − μ)²)/128, it is (h − μ) · (σ² + ε)^(−1/2) · g + β;
    * the gate is the logistic function of a two-layer perceptron of the same concatenation with ONE output;
    * the edge's new features are c + eNew, its message is gate · eNew.

  A node's update is the same perceptron-and-normalisation of the concatenation (x, A) — 256 inputs — of its features
  and the sum A of the messages it receives, added to x.

  The first layer is written here as the SUM of one 128-input product per concatenated part
  (`pre3`, `pre2`). That a product over the concatenation is this sum is `sum_concat3` / `sum_concat2`: a finite sum
  over `Fin (128 + 128 + 128)` split at its two seams, which holds in every commutative additive monoid, the extended
  reals included — no finiteness of the summands is used.
-/
import Idealize.ShloMosaic.PureOps.Ideal
import Idealize.ShloMosaic.PureOps.Ideal.Laws
import Idealize.ShloMosaic.Lib.IdealHost
import Idealize.ShloMosaic.Lib.ValueIdx

noncomputable section

namespace Cert.MessagePassing

open Idealize.ShloMosaic

/-- A row of 128 features. -/
abbrev Row := Fin 128 → EReal
/-- A 128 × 128 weight matrix, input coordinate first. -/
abbrev Mat := Fin 128 → Fin 128 → EReal

/-- The three literals of the block, as the words both programs carry: 0, 128 and the normalisation's ε. -/
abbrev zeroLit : EReal := Ideal.ofBits .f32 0x00000000#32
abbrev widthLit : EReal := Ideal.ofBits .f32 0x43000000#32
abbrev epsLit : EReal := Ideal.ofBits .f32 0x3727C5AC#32

/-- Coordinate `j` of the product of a row with a matrix. -/
def dot (v : Row) (W : Mat) (j : Fin 128) : EReal := ∑ k : Fin 128, v k * W k j

/-- The rectifier. -/
def relu (x : EReal) : EReal := max x zeroLit

/-- The mean of a row: its sum divided by 128. -/
def mean (h : Row) : EReal := Ideal.div (∑ k : Fin 128, h k) widthLit

/-- Layer normalisation of a row `h` with gain `g` and offset `β`, at coordinate `j`. -/
def lnorm (h g β : Row) (j : Fin 128) : EReal :=
  (h j - mean h) * Ideal.rsqrt (Ideal.div (∑ k : Fin 128, (h k - mean h) * (h k - mean h)) widthLit + epsLit) * g j + β j

/-- The layers after the first: rectify the first layer's output `p`, a second affine layer, rectify, a third affine
    layer, normalise. -/
def tail (p : Row) (W₁ : Mat) (b₁ : Row) (W₂ : Mat) (b₂ g β : Row) : Row :=
  lnorm (fun j => dot (fun k => relu (dot (fun k' => relu (p k')) W₁ k + b₁ k)) W₂ j + b₂ j) g β

/-- The first layer over a concatenation of three rows, one product per part. -/
def pre3 (a b c : Row) (Wa Wb Wc : Mat) (b₀ : Row) (j : Fin 128) : EReal :=
  dot a Wa j + dot b Wb j + dot c Wc j + b₀ j

/-- The first layer over a concatenation of two rows. -/
def pre2 (a b : Row) (Wa Wb : Mat) (b₀ : Row) (j : Fin 128) : EReal :=
  dot a Wa j + dot b Wb j + b₀ j

/-- The edge update. -/
def eNew (a b c : Row) (Wa Wb Wc : Mat) (b₀ : Row) (W₁ : Mat) (b₁ : Row) (W₂ : Mat) (b₂ g β : Row) : Row :=
  tail (pre3 a b c Wa Wb Wc b₀) W₁ b₁ W₂ b₂ g β

/-- The gate of an edge: the logistic function of `Σ relu(first layer) · w + d`. -/
def gate (a b c : Row) (Ga Gb Gc : Mat) (d₀ w : Row) (d₁ : EReal) : EReal :=
  Ideal.logistic ((∑ k : Fin 128, relu (pre3 a b c Ga Gb Gc d₀ k) * w k) + d₁)

/-- The node update before the residual connection. -/
def nUpd (x A : Row) (Wx WA : Mat) (b₀ : Row) (W₁ : Mat) (b₁ : Row) (W₂ : Mat) (b₂ g β : Row) : Row :=
  tail (pre2 x A Wx WA b₀) W₁ b₁ W₂ b₂ g β

/-! ## A sum over a concatenation is the sum of the parts' sums -/

/-- Three 128-blocks. -/
theorem sum_concat3 {M : Type*} [AddCommMonoid M] (f : Fin 384 → M) :
    ∑ k : Fin 384, f k
      = (∑ k : Fin 128, f ⟨k.val, by omega⟩) + (∑ k : Fin 128, f ⟨128 + k.val, by omega⟩)
        + ∑ k : Fin 128, f ⟨256 + k.val, by omega⟩ := by
  have h1 := Fin.sum_univ_add (a := 256) (b := 128) (fun i : Fin (256 + 128) => f ⟨i.val, by omega⟩)
  have h2 := Fin.sum_univ_add (a := 128) (b := 128) (fun i : Fin (128 + 128) => f ⟨i.val, by omega⟩)
  have e : (∑ k : Fin 384, f k) = ∑ i : Fin (256 + 128), f ⟨i.val, by omega⟩ := rfl
  rw [e, h1]
  have e2 : (∑ i : Fin 256, f ⟨(Fin.castAdd 128 i).val, by omega⟩) = ∑ i : Fin (128 + 128), f ⟨i.val, by omega⟩ := rfl
  rw [e2, h2]
  rfl

/-- Two 128-blocks. -/
theorem sum_concat2 {M : Type*} [AddCommMonoid M] (f : Fin 256 → M) :
    ∑ k : Fin 256, f k = (∑ k : Fin 128, f ⟨k.val, by omega⟩) + ∑ k : Fin 128, f ⟨128 + k.val, by omega⟩ := by
  have h2 := Fin.sum_univ_add (a := 128) (b := 128) (fun i : Fin (128 + 128) => f ⟨i.val, by omega⟩)
  have e : (∑ k : Fin 256, f k) = ∑ i : Fin (128 + 128), f ⟨i.val, by omega⟩ := rfl
  rw [e, h2]
  rfl

/-- The logistic function spelt with the word for 1: `1 / (1 + e^(−x))`. -/
theorem logistic_spelt (x : EReal) :
    Ideal.div (Ideal.ofBits .f32 0x3F800000#32) (Ideal.ofBits .f32 0x3F800000#32 + Ideal.exp (-x)) = Ideal.logistic x := by
  rw [Ideal.ofBits_one_f32]; rfl

end Cert.MessagePassing

end
-- ==== Proof.Arrays.lean ====
/-
  Rows, matrices and whole arrays: how the block's row-level mathematics (Spec) is read out of arrays.

  An array of `n` rows by 128 features gives a row per row index; a 128 × 128 weight array is a matrix; 128 consecutive
  rows of a taller weight array (the part of a first layer that multiplies one part of a concatenation) are a matrix; a
  bias is a row whether it is stored as [128], as [1,128] or — the gate's output weights — as [128,1].

  Over these, the three results of the block at one coordinate: an edge's new features, its message, a node's new
  features.
-/
import proofs.«423889_j55173149884914_1_alg».proof.Proof.Spec

noncomputable section

namespace Cert.MessagePassing

open Idealize.ShloMosaic Idealize.ShloMosaic.ValueIdx

/-- Row `r` of an array of `n` rows of 128 features. -/
def rowOf {n : Nat} (X : (⟨2, ![n, 128]⟩ : Shape).Idx → EReal) (r : Fin n) : Row := fun k => X (ix2 r k)
/-- A 128 × 128 array as a matrix. -/
def matAll (W : (⟨2, ![128, 128]⟩ : Shape).Idx → EReal) : Mat := fun k j => W (ix2 k j)
/-- Rows `o, …, o + 127` of a taller weight array as a matrix. -/
def matAt {n : Nat} (W : (⟨2, ![n, 128]⟩ : Shape).Idx → EReal) (o : Nat) (h : o + 128 ≤ n) : Mat :=
  fun k j => W (ix2 ⟨o + k.val, by omega⟩ j)
/-- A [1,128] array as a row. -/
def row1 (b : (⟨2, ![1, 128]⟩ : Shape).Idx → EReal) : Row := fun k => b (ix2 (0 : Fin 1) k)
/-- A [128] array as a row. -/
def vecOf (b : (⟨1, ![128]⟩ : Shape).Idx → EReal) : Row := fun k => b (ix1 k)
/-- A [128,1] array as a row. -/
def colOf (w : (⟨2, ![128, 1]⟩ : Shape).Idx → EReal) : Row := fun k => w (ix2 k (0 : Fin 1))

/-- Edge `e`'s new features at `q`: its features plus the edge update of (receiver row, sender row, its own row). -/
def edgeOutAt (XI XJ EA : (⟨2, ![500000, 128]⟩ : Shape).Idx → EReal) (Wa Wb Wc : Mat) (b₀ : Row) (W₁ : Mat) (b₁ : Row)
    (W₂ : Mat) (b₂ g β : Row) (e : Fin 500000) (q : Fin 128) : EReal :=
  EA (ix2 e q) + eNew (rowOf XI e) (rowOf XJ e) (rowOf EA e) Wa Wb Wc b₀ W₁ b₁ W₂ b₂ g β q

/-- Edge `e`'s message at `q`: its gate times its edge update. -/
def messageAt (XI XJ EA : (⟨2, ![500000, 128]⟩ : Shape).Idx → EReal) (Wa Wb Wc : Mat) (b₀ : Row) (W₁ : Mat) (b₁ : Row)
    (W₂ : Mat) (b₂ g β : Row) (Ga Gb Gc : Mat) (d₀ w : Row) (d₁ : EReal) (e : Fin 500000) (q : Fin 128) : EReal :=
  gate (rowOf XI e) (rowOf XJ e) (rowOf EA e) Ga Gb Gc d₀ w d₁
    * eNew (rowOf XI e) (rowOf XJ e) (rowOf EA e) Wa Wb Wc b₀ W₁ b₁ W₂ b₂ g β q

/-- Node `r`'s new features at `q`: its features plus the node update of (its row, its row of summed messages). -/
def nodeOutAt (X AG : (⟨2, ![50000, 128]⟩ : Shape).Idx → EReal) (Wx WA : Mat) (b₀ : Row) (W₁ : Mat) (b₁ : Row)
    (W₂ : Mat) (b₂ g β : Row) (r : Fin 50000) (q : Fin 128) : EReal :=
  X (ix2 r q) + nUpd (rowOf X r) (rowOf AG r) Wx WA b₀ W₁ b₁ W₂ b₂ g β q

/-- The same three as whole arrays. -/
def edgeOutF (XI XJ EA : (⟨2, ![500000, 128]⟩ : Shape).Idx → EReal) (Wa Wb Wc : Mat) (b₀ : Row) (W₁ : Mat) (b₁ : Row)
    (W₂ : Mat) (b₂ g β : Row) : (⟨2, ![500000, 128]⟩ : Shape).Idx → EReal :=
  fun i => edgeOutAt XI XJ EA Wa Wb Wc b₀ W₁ b₁ W₂ b₂ g β ⟨(i 0).val, idx2_lt0 i⟩ ⟨(i 1).val, idx2_lt1 i⟩
def messageF (XI XJ EA : (⟨2, ![500000, 128]⟩ : Shape).Idx → EReal) (Wa Wb Wc : Mat) (b₀ : Row) (W₁ : Mat) (b₁ : Row)
    (W₂ : Mat) (b₂ g β : Row) (Ga Gb Gc : Mat) (d₀ w : Row) (d₁ : EReal) : (⟨2, ![500000, 128]⟩ : Shape).Idx → EReal :=
  fun i => messageAt XI XJ EA Wa Wb Wc b₀ W₁ b₁ W₂ b₂ g β Ga Gb Gc d₀ w d₁ ⟨(i 0).val, idx2_lt0 i⟩ ⟨(i 1).val, idx2_lt1 i⟩
def nodeOutF (X AG : (⟨2, ![50000, 128]⟩ : Shape).Idx → EReal) (Wx WA : Mat) (b₀ : Row) (W₁ : Mat) (b₁ : Row)
    (W₂ : Mat) (b₂ g β : Row) : (⟨2, ![50000, 128]⟩ : Shape).Idx → EReal :=
  fun i => nodeOutAt X AG Wx WA b₀ W₁ b₁ W₂ b₂ g β ⟨(i 0).val, idx2_lt0 i⟩ ⟨(i 1).val, idx2_lt1 i⟩

theorem edgeOutF_ix2 (XI XJ EA : (⟨2, ![500000, 128]⟩ : Shape).Idx → EReal) (Wa Wb Wc : Mat) (b₀ : Row) (W₁ : Mat) (b₁ : Row)
    (W₂ : Mat) (b₂ g β : Row) (e : Fin 500000) (q : Fin 128) :
    edgeOutF XI XJ EA Wa Wb Wc b₀ W₁ b₁ W₂ b₂ g β (ix2 e q) = edgeOutAt XI XJ EA Wa Wb Wc b₀ W₁ b₁ W₂ b₂ g β e q := rfl
theorem messageF_ix2 (XI XJ EA : (⟨2, ![500000, 128]⟩ : Shape).Idx → EReal) (Wa Wb Wc : Mat) (b₀ : Row) (W₁ : Mat) (b₁ : Row)
    (W₂ : Mat) (b₂ g β : Row) (Ga Gb Gc : Mat) (d₀ w : Row) (d₁ : EReal) (e : Fin 500000) (q : Fin 128) :
    messageF XI XJ EA Wa Wb Wc b₀ W₁ b₁ W₂ b₂ g β Ga Gb Gc d₀ w d₁ (ix2 e q)
      = messageAt XI XJ EA Wa Wb Wc b₀ W₁ b₁ W₂ b₂ g β Ga Gb Gc d₀ w d₁ e q := rfl
theorem nodeOutF_ix2 (X AG : (⟨2, ![50000, 128]⟩ : Shape).Idx → EReal) (Wx WA : Mat) (b₀ : Row) (W₁ : Mat) (b₁ : Row)
    (W₂ : Mat) (b₂ g β : Row) (r : Fin 50000) (q : Fin 128) :
    nodeOutF X AG Wx WA b₀ W₁ b₁ W₂ b₂ g β (ix2 r q) = nodeOutAt X AG Wx WA b₀ W₁ b₁ W₂ b₂ g β r q := rfl

/-- Two arrays of rank 2 that agree at every pair of coordinates are equal. -/
theorem ext_ix2 {n m : Nat} {α : Type} (A B : (⟨2, ![n, m]⟩ : Shape).Idx → α) (h : ∀ (a : Fin n) (b : Fin m), A (ix2 a b) = B (ix2 a b)) :
    A = B := by
  funext i
  rw [eq_ix2 i]
  exact h _ _

end Cert.MessagePassing

end
-- ==== Proof.EdgeBlock.lean ====
/-
  One grid point of the edge kernel, read at row `p`, feature `q` of its block of 2000 edges.

  The body's stores are three pure terms of the loaded blocks (receiver rows `x0`, sender rows `x1`, edge rows `x2`,
  the edge perceptron's weights `x3 … x12`, the gate's `x13 … x18`). Each, at (p, q), is the row-level mathematics of
  row `p` of the three feature blocks: the edge update, the new edge features, the message.
-/
import proofs.«423889_j55173149884914_1_alg».proof.Proof.Gen.KernelIdeal.Skeleton
import proofs.«423889_j55173149884914_1_alg».proof.Proof.BlockOps
import proofs.«423889_j55173149884914_1_alg».proof.Proof.Arrays

noncomputable section

namespace Cert.KernelIdeal.EdgeBlock

open Cert.KernelIdeal Cert.KernelIdeal.Gen Cert.KernelIdeal.BlockOps Cert.MessagePassing Idealize.ShloMosaic Idealize.ShloMosaic.ValueIdx

/-- The inverse square root of a block, read at one index. -/
private theorem rsqrt_at {s : Shape} (v : FVec Ideal s .f32) (i : s.Idx) : rsqrt v i = Ideal.rsqrt (v i) := rfl
/-- The logistic function of a block, read at one index. -/
private theorem logistic_at {s : Shape} (v : FVec Ideal s .f32) (i : s.Idx) : logistic v i = Ideal.logistic (v i) := rfl

/-- The normalisation stage at row `p`, feature `q`, over any block `v35` in place of the second layer's output:
    rectify, third affine layer, then centre by the row mean, scale by the inverse root of the row variance plus ε,
    gain and offset. -/
private theorem pay6_at (v35 : FVec Ideal S2000x128 .f32) (x9 : Vec Ideal S128x128 .f32) (x10 x11 x12 : Vec Ideal S1x128 .f32)
    (p : Fin 2000) (q : Fin 128) :
    k0_pay6 (F := Ideal) v35 x9 x10 x11 x12 (ix2 p q)
      = lnorm (fun j => dot (fun k => relu (v35 (ix2 p k))) (matAll x9) j + row1 x10 j) (row1 x11) (row1 x12) q := by
  unfold k0_pay6
  dsimp only
  generalize hH : addf (matmul dot_S2000x128_S128x128_S2000x128_1_0_0_1_n_n none (truncf .bf16 (maximumf v35 (broadcast S2000x128 (FloatOps.ofBits .f32 0x00000000#32))) bitsLt_bf16_f32) (truncf .bf16 x9 bitsLt_bf16_f32) (constant S2000x128 .f32 0x00000000#32)) (broadcastTo S2000x128 (shapeCast S1x128 x10 shapeCasts_S1x128_S1x128) broadcasts_S1x128_S2000x128) = H
  have hrow : ∀ j : Fin 128, H (ix2 p j) = dot (fun k => relu (v35 (ix2 p k))) (matAll x9) j + row1 x10 j := fun j => by
    rw [← hH]
    simp only [addf_apply, matmul_at, bcastRow_at, shapeCast_self, maximumf_apply, truncf_apply, broadcast_apply]
    rfl
  simp only [addf_apply, mulf_apply, subf_apply, divf_apply, broadcast_apply, shapeCast_self, bcastRow_at, bcastCol_at, rsqrt_at, Ideal.ofBits_def]
  rw [laneSum_at _ (.inl rfl) rfl p, laneSum_at _ (.inl rfl) rfl p]
  simp only [mulf_apply, subf_apply, divf_apply, broadcast_apply, bcastCol_at]
  rw [laneSum_at _ (.inl rfl) rfl p]
  simp only [hrow]
  rfl

/-- The first two layers at row `p`, coordinate `j`: the second layer's pre-activation over the rectified first layer,
    the first layer being the sum of one product per part of the concatenation plus its bias. -/
private theorem pay5_at (x0 x1 x2 : Vec Ideal S2000x128 .f32) (x3 x4 x5 : Vec Ideal S128x128 .f32) (x6 : Vec Ideal S1x128 .f32)
    (x7 : Vec Ideal S128x128 .f32) (x8 : Vec Ideal S1x128 .f32) (p : Fin 2000) (j : Fin 128) :
    k0_pay5 (F := Ideal) x0 x1 x2 x3 x4 x5 x6 x7 x8 (ix2 p j)
      = dot (fun k => relu (pre3 (rowOf x0 p) (rowOf x1 p) (rowOf x2 p) (matAll x3) (matAll x4) (matAll x5) (row1 x6) k))
          (matAll x7) j + row1 x8 j := by
  unfold k0_pay5 k0_pay3 k0_pay4
  dsimp only
  simp only [addf_apply, matmul_at, bcastRow_at, shapeCast_self, maximumf_apply, truncf_apply, broadcast_apply]
  rfl

/-- The edge update of row `p`. -/
theorem eNew_at (x0 x1 x2 : Vec Ideal S2000x128 .f32) (x3 x4 x5 : Vec Ideal S128x128 .f32) (x6 : Vec Ideal S1x128 .f32)
    (x7 : Vec Ideal S128x128 .f32) (x8 : Vec Ideal S1x128 .f32) (x9 : Vec Ideal S128x128 .f32) (x10 x11 x12 : Vec Ideal S1x128 .f32)
    (p : Fin 2000) (q : Fin 128) :
    k0_pay6 (F := Ideal) (k0_pay5 (F := Ideal) x0 x1 x2 x3 x4 x5 x6 x7 x8) x9 x10 x11 x12 (ix2 p q)
      = eNew (rowOf x0 p) (rowOf x1 p) (rowOf x2 p) (matAll x3) (matAll x4) (matAll x5) (row1 x6) (matAll x7) (row1 x8)
          (matAll x9) (row1 x10) (row1 x11) (row1 x12) q := by
  refine (pay6_at _ x9 x10 x11 x12 p q).trans ?_
  simp only [pay5_at]
  rfl

/-- The new edge features of row `p`: the edge's features plus its update. -/
theorem edgeOut_at (x0 x1 x2 : Vec Ideal S2000x128 .f32) (x3 x4 x5 : Vec Ideal S128x128 .f32) (x6 : Vec Ideal S1x128 .f32)
    (x7 : Vec Ideal S128x128 .f32) (x8 : Vec Ideal S1x128 .f32) (x9 : Vec Ideal S128x128 .f32) (x10 x11 x12 : Vec Ideal S1x128 .f32)
    (p : Fin 2000) (q : Fin 128) :
    k0_pay1 (F := Ideal) x2 (k0_pay6 (F := Ideal) (k0_pay5 (F := Ideal) x0 x1 x2 x3 x4 x5 x6 x7 x8) x9 x10 x11 x12) (ix2 p q)
      = x2 (ix2 p q) + eNew (rowOf x0 p) (rowOf x1 p) (rowOf x2 p) (matAll x3) (matAll x4) (matAll x5) (row1 x6) (matAll x7) (row1 x8)
          (matAll x9) (row1 x10) (row1 x11) (row1 x12) q :=
  congrArg (fun t => x2 (ix2 p q) + t) (eNew_at x0 x1 x2 x3 x4 x5 x6 x7 x8 x9 x10 x11 x12 p q)

/-- The gate's first product at row `p`, coordinate `k`: the receiver row against its part of the gate's first layer. -/
private theorem pay7_at (x0 : Vec Ideal S2000x128 .f32) (x13 : Vec Ideal S128x128 .f32) (p : Fin 2000) (k : Fin 128) :
    k0_pay7 (F := Ideal) (k0_pay3 (F := Ideal) x0) x13 (ix2 p k) = dot (rowOf x0 p) (matAll x13) k := by
  unfold k0_pay7 k0_pay3
  dsimp only
  simp only [matmul_at, shapeCast_self, truncf_apply]
  rfl

/-- The message stage at row `p`, feature `q`, over any blocks `v71` (the update) and `v76` (the gate's first
    product): the logistic function of the rectified first layer against the output weights plus the output bias, times
    the update. -/
private theorem pay2_at (v3 : FVec Ideal S2000x128 .f32) (v4 : Vec Ideal S2000x128 .f32) (v71 v76 : FVec Ideal S2000x128 .f32)
    (x14 x15 : Vec Ideal S128x128 .f32) (x16 x17 : Vec Ideal S1x128 .f32) (x18 : Vec Ideal S1x1 .f32)
    (p : Fin 2000) (q : Fin 128) :
    k0_pay2 (F := Ideal) v3 v4 v71 v76 x14 x15 x16 x17 x18 (ix2 p q)
      = Ideal.logistic ((∑ k : Fin 128,
            relu (v76 (ix2 p k) + dot (rowOf v3 p) (matAll x14) k + dot (rowOf v4 p) (matAll x15) k + row1 x16 k) * row1 x17 k)
          + x18 (ix2 (0 : Fin 1) (0 : Fin 1))) * v71 (ix2 p q) := by
  unfold k0_pay2
  dsimp only
  simp only [mulf_apply, addf_apply, bcastCol_at, bcastOne_at, logistic_at, shapeCast_self]
  rw [laneSum_at _ (.inl rfl) rfl p]
  simp only [mulf_apply, addf_apply, maximumf_apply, matmul_at, bcastRow_at, truncf_apply, broadcast_apply]
  rfl

/-- The message of row `p`: its gate times its update. -/
theorem message_at (x0 x1 x2 : Vec Ideal S2000x128 .f32) (x3 x4 x5 : Vec Ideal S128x128 .f32) (x6 : Vec Ideal S1x128 .f32)
    (x7 : Vec Ideal S128x128 .f32) (x8 : Vec Ideal S1x128 .f32) (x9 : Vec Ideal S128x128 .f32) (x10 x11 x12 : Vec Ideal S1x128 .f32)
    (x13 x14 x15 : Vec Ideal S128x128 .f32) (x16 x17 : Vec Ideal S1x128 .f32) (x18 : Vec Ideal S1x1 .f32)
    (p : Fin 2000) (q : Fin 128) :
    k0_pay2 (F := Ideal) (k0_pay4 (F := Ideal) x1) x2 (k0_pay6 (F := Ideal) (k0_pay5 (F := Ideal) x0 x1 x2 x3 x4 x5 x6 x7 x8) x9 x10 x11 x12)
        (k0_pay7 (F := Ideal) (k0_pay3 (F := Ideal) x0) x13) x14 x15 x16 x17 x18 (ix2 p q)
      = gate (rowOf x0 p) (rowOf x1 p) (rowOf x2 p) (matAll x13) (matAll x14) (matAll x15) (row1 x16) (row1 x17)
            (x18 (ix2 (0 : Fin 1) (0 : Fin 1)))
          * eNew (rowOf x0 p) (rowOf x1 p) (rowOf x2 p) (matAll x3) (matAll x4) (matAll x5) (row1 x6) (matAll x7) (row1 x8)
              (matAll x9) (row1 x10) (row1 x11) (row1 x12) q := by
  refine (pay2_at _ x2 _ _ x14 x15 x16 x17 x18 p q).trans ?_
  rw [eNew_at]
  simp only [pay7_at]
  have e4 : k0_pay4 (F := Ideal) x1 = x1 := shapeCast_self x1 _
  rw [e4]
  rfl

end Cert.KernelIdeal.EdgeBlock

end
-- ==== Proof.NodeBlock.lean ====
/-
  One grid point of the node kernel, read at row `p`, feature `q` of its block of 2000 nodes.

  The body's one store is a pure term of the loaded blocks (node rows `x0`, summed-message rows `x1`, the node
  perceptron's weights `x2 … x10`); at (p, q) it is the node's features plus the node update of row `p`.
-/
import proofs.«423889_j55173149884914_1_alg».proof.Proof.Gen.KernelIdeal.Skeleton
import proofs.«423889_j55173149884914_1_alg».proof.Proof.BlockOps
import proofs.«423889_j55173149884914_1_alg».proof.Proof.Arrays

noncomputable section

namespace Cert.KernelIdeal.NodeBlock

open Cert.KernelIdeal Cert.KernelIdeal.Gen Cert.KernelIdeal.BlockOps Cert.MessagePassing Idealize.ShloMosaic Idealize.ShloMosaic.ValueIdx

/-- The reciprocal square root of a block at an index is the extended reals' reciprocal square root of the element. -/
private theorem rsqrt_at {s : Shape} {φ : FTy} (a : FVec Ideal s φ) (i : s.Idx) : rsqrt a i = Ideal.rsqrt (a i) := rfl

/-- The perceptron before its last bias, at row `p`, coordinate `j`: every product of the block with a 128 × 128 matrix is
    a row-by-column sum, the narrowing of a product's operands is the identity on extended reals, a bias row is the same
    on every row of the block, and the rectifier is the maximum with the zero word. The first layer is the sum of the two
    products (the node's row with its matrix, the row of summed messages with its matrix) plus the first bias. -/
private theorem preNorm_at (x0 x1 : Vec Ideal S2000x128 .f32) (x2 x3 : Vec Ideal S128x128 .f32) (x4 : Vec Ideal S1x128 .f32)
    (x5 : Vec Ideal S128x128 .f32) (x6 : Vec Ideal S1x128 .f32) (x7 : Vec Ideal S128x128 .f32)
    (p : Fin 2000) (j : Fin 128) :
    k1_pay2 (F := Ideal) x0 x1 x2 x3 x4 x5 x6 x7 (ix2 p j)
      = dot (fun k => relu (dot (fun k' => relu (pre2 (rowOf x0 p) (rowOf x1 p) (matAll x2) (matAll x3) (row1 x4) k'))
          (matAll x5) k + row1 x6 k)) (matAll x7) j := by
  unfold k1_pay2
  simp only [matmul_at, truncf_apply, maximumf_apply, addf_apply, bcastRow_at, broadcast_apply, shapeCast_self]
  rfl

/-- The last bias, the normalisation and the residual connection, at row `p`, feature `q`, of ANY block `v` in place of the
    perceptron's last product: with `h = v[p, ·] + b₂`, the two lane sums are the sums over the row of `h` and of
    `(h − mean h)²`, each divided by the word for 128; the per-row mean and the per-row reciprocal square root are the
    same along the row; gain and offset are the same on every row. -/
private theorem norm_at (x0 : Vec Ideal S2000x128 .f32) (v : FVec Ideal S2000x128 .f32) (x8 x9 x10 : Vec Ideal S1x128 .f32)
    (p : Fin 2000) (q : Fin 128) :
    k1_pay1 (F := Ideal) x0 v x8 x9 x10 (ix2 p q)
      = x0 (ix2 p q) + lnorm (fun j => v (ix2 p j) + row1 x8 j) (row1 x9) (row1 x10) q := by
  unfold k1_pay1
  have hsum : ∀ (h : FVec Ideal S2000x128 .f32),
      shapeCast S2000x1 (multiReduction .add [1] S2000 h 0x00000000#32 reduces_S2000x128_S2000 (.inl rfl) rfl)
          shapeCasts_S2000_S2000x1 (ix2 p (0 : Fin 1))
        = ∑ k : Fin 128, h (ix2 p k) := fun h => laneSum_at h (.inl rfl) rfl p
  simp only [addf_apply, mulf_apply, subf_apply, divf_apply, rsqrt_at, broadcast_apply, bcastRow_at, bcastCol_at,
    shapeCast_self, hsum]
  rfl

/-- The new node features of row `p`. -/
theorem nodeOut_at (x0 x1 : Vec Ideal S2000x128 .f32) (x2 x3 : Vec Ideal S128x128 .f32) (x4 : Vec Ideal S1x128 .f32)
    (x5 : Vec Ideal S128x128 .f32) (x6 : Vec Ideal S1x128 .f32) (x7 : Vec Ideal S128x128 .f32) (x8 x9 x10 : Vec Ideal S1x128 .f32)
    (p : Fin 2000) (q : Fin 128) :
    k1_pay1 (F := Ideal) x0 (k1_pay2 (F := Ideal) x0 x1 x2 x3 x4 x5 x6 x7) x8 x9 x10 (ix2 p q)
      = x0 (ix2 p q) + nUpd (rowOf x0 p) (rowOf x1 p) (matAll x2) (matAll x3) (row1 x4) (matAll x5) (row1 x6) (matAll x7)
          (row1 x8) (row1 x9) (row1 x10) q := by
  refine (norm_at x0 _ x8 x9 x10 p q).trans ?_
  unfold nUpd tail
  refine congrArg (fun t => x0 (ix2 p q) + t) ?_
  refine congrArg (fun h => lnorm h (row1 x9) (row1 x10) q) (funext fun j => ?_)
  exact congrArg (fun t => t + row1 x8 j) (preNorm_at x0 x1 x2 x3 x4 x5 x6 x7 p j)

end Cert.KernelIdeal.NodeBlock

end
-- ==== Proof.RegionValues.lean ====
/-
  What each region leaves in its output arrays, as whole arrays.

  The edge region runs the edge kernel at 250 grid points; point `t` reads rows 2000·t … 2000·t + 1999 of the three
  [500000,128] feature arrays and every weight array whole, and writes the same rows of its two outputs. The node region
  does the same at 25 points over [50000,128] arrays. The blocks tile the arrays, and each block's entry at (p, q) is the
  row-level mathematics of row `p` of its input blocks (EdgeBlock, NodeBlock), which is row 2000·t + p of the arrays: so
  each output array is, at every (row, feature), that mathematics of the corresponding rows of the arrays as the
  region finds them (`V`).
-/
import proofs.«423889_j55173149884914_1_alg».proof.Proof.Gen.KernelIdeal.Frame
import proofs.«423889_j55173149884914_1_alg».proof.Proof.EdgeBlock
import proofs.«423889_j55173149884914_1_alg».proof.Proof.NodeBlock

set_option maxRecDepth 16384

noncomputable section

namespace Cert.KernelIdeal.RegionValues

open Cert.KernelIdeal Cert.KernelIdeal.Gen Cert.MessagePassing Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset of a rank-2 block, as the constant function. -/
private theorem zeroOff : (![0, 0] : Fin 2 → Nat) = fun _ => 0 := funext fun a => by fin_cases a <;> rfl

/-! ## The edge region: 250 points, point `t` at rows 2000·t … 2000·t + 1999 -/

/-- At every point `t` of the grid each feature block and each output block is block (t, 0) of its array. -/
private theorem edgeRowIdx : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_19.index t (0 : Fin 2) = t.val
    ∧ win0_19.index t (1 : Fin 2) = 0
    ∧ win0_20.index t (0 : Fin 2) = t.val
    ∧ win0_20.index t (1 : Fin 2) = 0 :=
  (by decide +kernel : ∀ t : Fin grid0.N, _)

/-- The grid has 250 points. -/
private theorem edgePts (t : Fin cfg0.N) : t.val < 250 := by
  have h : t.val < grid0.N := t.isLt
  have e := N_0
  omega

private abbrev recvBlk (c : Dev nD) (t : Fin cfg0.N) : Vec Ideal S2000x128 .f32 := iblk0 V c 0 t
/-- Row `p` of the block at point `t` is row 2000·t + p of the array. -/
private theorem recvBlk_apply (c : Dev nD) (t : Fin cfg0.N) (p : Fin 2000) (k : Fin 128) (h : 2000 * t.val + p.val < 500000) :
    recvBlk V c t (ix2 p k) = (V c main_v4 : S500000x128.Idx → EReal) (ix2 ⟨2000 * t.val + p.val, h⟩ k) := by
  have e0 : win0_0.index t (0 : Fin 2) = t.val := (edgeRowIdx t).1
  have e1 : win0_0.index t (1 : Fin 2) = 0 := (edgeRowIdx t).2.1
  show V c main_v4 (((cfg0.win 0).blk t).view.emb (ix2 p k)) = _
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * k.val = k.val; omega
private abbrev sendBlk (c : Dev nD) (t : Fin cfg0.N) : Vec Ideal S2000x128 .f32 := iblk0 V c 1 t
/-- Row `p` of the block at point `t` is row 2000·t + p of the array. -/
private theorem sendBlk_apply (c : Dev nD) (t : Fin cfg0.N) (p : Fin 2000) (k : Fin 128) (h : 2000 * t.val + p.val < 500000) :
    sendBlk V c t (ix2 p k) = (V c main_v5 : S500000x128.Idx → EReal) (ix2 ⟨2000 * t.val + p.val, h⟩ k) := by
  have e0 : win0_1.index t (0 : Fin 2) = t.val := (edgeRowIdx t).2.2.1
  have e1 : win0_1.index t (1 : Fin 2) = 0 := (edgeRowIdx t).2.2.2.1
  show V c main_v5 (((cfg0.win 1).blk t).view.emb (ix2 p k)) = _
  refine congrArg _ (funext fun a => Fin.ext ?_)
  match a with
  | ⟨0, _⟩ => show win0_1.index t (0 : Fin 2) * 2000 + 1 * p.val = 2000 * t.val + p.val; omega
  | ⟨1, _⟩ => show win0_1.index t (1 : Fin 2) * 128 + 1 * k.val = k.val; omega
private abbrev edgeBlk (c : Dev nD) (t : Fin cfg0.N) : Vec Ideal S2000x128 .f32 := iblk0 V c 2 t
/-- Row `p` of the block at point `t` is row 2000·t + p of the array. -/
private theorem edgeBlk_apply (c : Dev nD) (t : Fin cfg0.N) (p : Fin 2000) (k : Fin 128) (h : 2000 * t.val + p.val < 500000) :
    edgeBlk V c t (ix2 p k) = (V c main_arg2 : S500000x128.Idx → EReal) (ix2 ⟨2000 * t.val + p.val, h⟩ k) := by
  have e0 : win0_2.index t (0 : Fin 2) = t.val := (edgeRowIdx t).2.2.2.2.1
  have e1 : win0_2.index t (1 : Fin 2) = 0 := (edgeRowIdx t).2.2.2.2.2.1
  show V c main_arg2 (((cfg0.win 2).blk t).view.emb (ix2 p k)) = _
  refine congrArg _ (funext fun a => Fin.ext ?_)
  match a with
  | ⟨0, _⟩ => show win0_2.index t (0 : Fin 2) * 2000 + 1 * p.val = 2000 * t.val + p.val; omega
  | ⟨1, _⟩ => show win0_2.index t (1 : Fin 2) * 128 + 1 * k.val = k.val; omega
private abbrev eWaBlk (c : Dev nD) (t : Fin cfg0.N) : Vec Ideal S128x128 .f32 := iblk0 V c 3 t
/-- A weight's block is its whole array at every point. -/
private theorem eWaBlk_eq (c : Dev nD) (t : Fin cfg0.N) : eWaBlk V c t = (V c main_v6 : S128x128.Idx → EReal) := by
  have e : win0_3.index t (0 : Fin 2) = 0 ∧ win0_3.index t (1 : Fin 2) = 0 :=
    (by decide +kernel : ∀ t : Fin grid0.N, win0_3.index t (0 : Fin 2) = 0 ∧ win0_3.index t (1 : Fin 2) = 0) t
  funext j
  show V c main_v6 (((cfg0.win 3).blk t).view.emb j) = _
  refine congrArg _ (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega
private abbrev eWbBlk (c : Dev nD) (t : Fin cfg0.N) : Vec Ideal S128x128 .f32 := iblk0 V c 4 t
/-- A weight's block is its whole array at every point. -/
private theorem eWbBlk_eq (c : Dev nD) (t : Fin cfg0.N) : eWbBlk V c t = (V c main_v7 : S128x128.Idx → EReal) := by
  have e : win0_4.index t (0 : Fin 2) = 0 ∧ win0_4.index t (1 : Fin 2) = 0 :=
    (by decide +kernel : ∀ t : Fin grid0.N, win0_4.index t (0 : Fin 2) = 0 ∧ win0_4.index t (1 : Fin 2) = 0) t
  funext j
  show V c main_v7 (((cfg0.win 4).blk t).view.emb j) = _
  refine congrArg _ (funext fun a => Fin.ext ?_)
  match a with
  | ⟨0, _⟩ => show win0_4.index t (0 : Fin 2) * 128 + 1 * (j 0).val = (j 0).val; omega
  | ⟨1, _⟩ => show win0_4.index t (1 : Fin 2) * 128 + 1 * (j 1).val = (j 1).val; omega
private abbrev eWcBlk (c : Dev nD) (t : Fin cfg0.N) : Vec Ideal S128x128 .f32 := iblk0 V c 5 t
/-- A weight's block is its whole array at every point. -/
private theorem eWcBlk_eq (c : Dev nD) (t : Fin cfg0.N) : eWcBlk V c t = (V c main_v8 : S128x128.Idx → EReal) := by
  have e : win0_5.index t (0 : Fin 2) = 0 ∧ win0_5.index t (1 : Fin 2) = 0 :=
    (by decide +kernel : ∀ t : Fin grid0.N, win0_5.index t (0 : Fin 2) = 0 ∧ win0_5.index t (1 : Fin 2) = 0) t
  funext j
  show V c main_v8 (((cfg0.win 5).blk t).view.emb j) = _
  refine congrArg _ (funext fun a => Fin.ext ?_)
  match a with
  | ⟨0, _⟩ => show win0_5.index t (0 : Fin 2) * 128 + 1 * (j 0).val = (j 0).val; omega
  | ⟨1, _⟩ => show win0_5.index t (1 : Fin 2) * 128 + 1 * (j 1).val = (j 1).val; omega
private abbrev eB0Blk (c : Dev nD) (t : Fin cfg0.N) : Vec Ideal S1x128 .f32 := iblk0 V c 6 t
/-- A weight's block is its whole array at every point. -/
private theorem eB0Blk_eq (c : Dev nD) (t : Fin cfg0.N) : eB0Blk V c t = (V c main_v14 : S1x128.Idx → EReal) := by
  have e : win0_6.index t (0 : Fin 2) = 0 ∧ win0_6.index t (1 : Fin 2) = 0 :=
    (by decide +kernel : ∀ t : Fin grid0.N, win0_6.index t (0 : Fin 2) = 0 ∧ win0_6.index t (1 : Fin 2) = 0) t
  funext j
  show V c main_v14 (((cfg0.win 6).blk t).view.emb j) = _
  refine congrArg _ (funext fun a => Fin.ext ?_)
  match a with
  | ⟨0, _⟩ => show win0_6.index t (0 : Fin 2) * 1 + 1 * (j 0).val = (j 0).val; omega
  | ⟨1, _⟩ => show win0_6.index t (1 : Fin 2) * 128 + 1 * (j 1).val = (j 1).val; omega
private abbrev eW1Blk (c : Dev nD) (t : Fin cfg0.N) : Vec Ideal S128x128 .f32 := iblk0 V c 7 t
/-- A weight's block is its whole array at every point. -/
private theorem eW1Blk_eq (c : Dev nD) (t : Fin cfg0.N) : eW1Blk V c t = (V c main_arg5 : S128x128.Idx → EReal) := by
  have e : win0_7.index t (0 : Fin 2) = 0 ∧ win0_7.index t (1 : Fin 2) = 0 :=
    (by decide +kernel : ∀ t : Fin grid0.N, win0_7.index t (0 : Fin 2) = 0 ∧ win0_7.index t (1 : Fin 2) = 0) t
  funext j
  show V c main_arg5 (((cfg0.win 7).blk t).view.emb j) = _
  refine congrArg _ (funext fun a => Fin.ext ?_)
  match a with
  | ⟨0, _⟩ => show win0_7.index t (0 : Fin 2) * 128 + 1 * (j 0).val = (j 0).val; omega
  | ⟨1, _⟩ => show win0_7.index t (1 : Fin 2) * 128 + 1 * (j 1).val = (j 1).val; omega
private abbrev eB1Blk (c : Dev nD) (t : Fin cfg0.N) : Vec Ideal S1x128 .f32 := iblk0 V c 8 t
/-- A weight's block is its whole array at every point. -/
private theorem eB1Blk_eq (c : Dev nD) (t : Fin cfg0.N) : eB1Blk V c t = (V c main_v15 : S1x128.Idx → EReal) := by
  have e : win0_8.index t (0 : Fin 2) = 0 ∧ win0_8.index t (1 : Fin 2) = 0 :=
    (by decide +kernel : ∀ t : Fin grid0.N, win0_8.index t (0 : Fin 2) = 0 ∧ win0_8.index t (1 : Fin 2) = 0) t
  funext j
  show V c main_v15 (((cfg0.win 8).blk t).view.emb j) = _
  refine congrArg _ (funext fun a => Fin.ext ?_)
  match a with
  | ⟨0, _⟩ => show win0_8.index t (0 : Fin 2) * 1 + 1 * (j 0).val = (j 0).val; omega
  | ⟨1, _⟩ => show win0_8.index t (1 : Fin 2) * 128 + 1 * (j 1).val = (j 1).val; omega
private abbrev eW2Blk (c : Dev nD) (t : Fin cfg0.N) : Vec Ideal S128x128 .f32 := iblk0 V c 9 t
/-- A weight's block is its whole array at every point. -/
private theorem eW2Blk_eq (c : Dev nD) (t : Fin cfg0.N) : eW2Blk V c t = (V c main_arg7 : S128x128.Idx → EReal) := by
  have e : win0_9.index t (0 : Fin 2) = 0 ∧ win0_9.index t (1 : Fin 2) = 0 :=
    (by decide +kernel : ∀ t : Fin grid0.N, win0_9.index t (0 : Fin 2) = 0 ∧ win0_9.index t (1 : Fin 2) = 0) t
  funext j
  show V c main_arg7 (((cfg0.win 9).blk t).view.emb j) = _
  refine congrArg _ (funext fun a => Fin.ext ?_)
  match a with
  | ⟨0, _⟩ => show win0_9.index t (0 : Fin 2) * 128 + 1 * (j 0).val = (j 0).val; omega
  | ⟨1, _⟩ => show win0_9.index t (1 : Fin 2) * 128 + 1 * (j 1).val = (j 1).val; omega
private abbrev eB2Blk (c : Dev nD) (t : Fin cfg0.N) : Vec Ideal S1x128 .f32 := iblk0 V c 10 t
/-- A weight's block is its whole array at every point. -/
private theorem eB2Blk_eq (c : Dev nD) (t : Fin cfg0.N) : eB2Blk V c t = (V c main_v16 : S1x128.Idx → EReal) := by
  have e : win0_10.index t (0 : Fin 2) = 0 ∧ win0_10.index t (1 : Fin 2) = 0 :=
    (by decide +kernel : ∀ t : Fin grid0.N, win0_10.index t (0 : Fin 2) = 0 ∧ win0_10.index t (1 : Fin 2) = 0) t
  funext j
  show V c main_v16 (((cfg0.win 10).blk t).view.emb j) = _
  refine congrArg _ (funext fun a => Fin.ext ?_)
  match a with
  | ⟨0, _⟩ => show win0_10.index t (0 : Fin 2) * 1 + 1 * (j 0).val = (j 0).val; omega
  | ⟨1, _⟩ => show win0_10.index t (1 : Fin 2) * 128 + 1 * (j 1).val = (j 1).val; omega
private abbrev eGainBlk (c : Dev nD) (t : Fin cfg0.N) : Vec Ideal S1x128 .f32 := iblk0 V c 11 t
/-- A weight's block is its whole array at every point. -/
private theorem eGainBlk_eq (c : Dev nD) (t : Fin cfg0.N) : eGainBlk V c t = (V c main_v17 : S1x128.Idx → EReal) := by
  have e : win0_11.index t (0 : Fin 2) = 0 ∧ win0_11.index t (1 : Fin 2) = 0 :=
    (by decide +kernel : ∀ t : Fin grid0.N, win0_11.index t (0 : Fin 2) = 0 ∧ win0_11.index t (1 : Fin 2) = 0) t
  funext j
  show V c main_v17 (((cfg0.win 11).blk t).view.emb j) = _
  refine congrArg _ (funext fun a => Fin.ext ?_)
  match a with
  | ⟨0, _⟩ => show win0_11.index t (0 : Fin 2) * 1 + 1 * (j 0).val = (j 0).val; omega
  | ⟨1, _⟩ => show win0_11.index t (1 : Fin 2) * 128 + 1 * (j 1).val = (j 1).val; omega
private abbrev eShiftBlk (c : Dev nD) (t : Fin cfg0.N) : Vec Ideal S1x128 .f32 := iblk0 V c 12 t
/-- A weight's block is its whole array at every point. -/
private theorem eShiftBlk_eq (c : Dev nD) (t : Fin cfg0.N) : eShiftBlk V c t = (V c main_v18 : S1x128.Idx → EReal) := by
  have e : win0_12.index t (0 : Fin 2) = 0 ∧ win0_12.index t (1 : Fin 2) = 0 :=
    (by decide +kernel : ∀ t : Fin grid0.N, win0_12.index t (0 : Fin 2) = 0 ∧ win0_12.index t (1 : Fin 2) = 0) t
  funext j
  show V c main_v18 (((cfg0.win 12).blk t).view.emb j) = _
  refine congrArg _ (funext fun a => Fin.ext ?_)
  match a with
  | ⟨0, _⟩ => show win0_12.index t (0 : Fin 2) * 1 + 1 * (j 0).val = (j 0).val; omega
  | ⟨1, _⟩ => show win0_12.index t (1 : Fin 2) * 128 + 1 * (j 1).val = (j 1).val; omega
private abbrev gWaBlk (c : Dev nD) (t : Fin cfg0.N) : Vec Ideal S128x128 .f32 := iblk0 V c 13 t
/-- A weight's block is its whole array at every point. -/
private theorem gWaBlk_eq (c : Dev nD) (t : Fin cfg0.N) : gWaBlk V c t = (V c main_v9 : S128x128.Idx → EReal) := by
  have e : win0_13.index t (0 : Fin 2) = 0 ∧ win0_13.index t (1 : Fin 2) = 0 :=
    (by decide +kernel : ∀ t : Fin grid0.N, win0_13.index t (0 : Fin 2) = 0 ∧ win0_13.index t (1 : Fin 2) = 0) t
  funext j
  show V c main_v9 (((cfg0.win 13).blk t).view.emb j) = _
  refine congrArg _ (funext fun a => Fin.ext ?_)
  match a with
  | ⟨0, _⟩ => show win0_13.index t (0 : Fin 2) * 128 + 1 * (j 0).val = (j 0).val; omega
  | ⟨1, _⟩ => show win0_13.index t (1 : Fin 2) * 128 + 1 * (j 1).val = (j 1).val; omega
private abbrev gWbBlk (c : Dev nD) (t : Fin cfg0.N) : Vec Ideal S128x128 .f32 := iblk0 V c 14 t
/-- A weight's block is its whole array at every point. -/
private theorem gWbBlk_eq (c : Dev nD) (t : Fin cfg0.N) : gWbBlk V c t = (V c main_v10 : S128x128.Idx → EReal) := by
  have e : win0_14.index t (0 : Fin 2) = 0 ∧ win0_14.index t (1 : Fin 2) = 0 :=
    (by decide +kernel : ∀ t : Fin grid0.N, win0_14.index t (0 : Fin 2) = 0 ∧ win0_14.index t (1 : Fin 2) = 0) t
  funext j
  show V c main_v10 (((cfg0.win 14).blk t).view.emb j) = _
  refine congrArg _ (funext fun a => Fin.ext ?_)
  match a with
  | ⟨0, _⟩ => show win0_14.index t (0 : Fin 2) * 128 + 1 * (j 0).val = (j 0).val; omega
  | ⟨1, _⟩ => show win0_14.index t (1 : Fin 2) * 128 + 1 * (j 1).val = (j 1).val; omega
private abbrev gWcBlk (c : Dev nD) (t : Fin cfg0.N) : Vec Ideal S128x128 .f32 := iblk0 V c 15 t
/-- A weight's block is its whole array at every point. -/
private theorem gWcBlk_eq (c : Dev nD) (t : Fin cfg0.N) : gWcBlk V c t = (V c main_v11 : S128x128.Idx → EReal) := by
  have e : win0_15.index t (0 : Fin 2) = 0 ∧ win0_15.index t (1 : Fin 2) = 0 :=
    (by decide +kernel : ∀ t : Fin grid0.N, win0_15.index t (0 : Fin 2) = 0 ∧ win0_15.index t (1 : Fin 2) = 0) t
  funext j
  show V c main_v11 (((cfg0.win 15).blk t).view.emb j) = _
  refine congrArg _ (funext fun a => Fin.ext ?_)
  match a with
  | ⟨0, _⟩ => show win0_15.index t (0 : Fin 2) * 128 + 1 * (j 0).val = (j 0).val; omega
  | ⟨1, _⟩ => show win0_15.index t (1 : Fin 2) * 128 + 1 * (j 1).val = (j 1).val; omega
private abbrev gB0Blk (c : Dev nD) (t : Fin cfg0.N) : Vec Ideal S1x128 .f32 := iblk0 V c 16 t
/-- A weight's block is its whole array at every point. -/
private theorem gB0Blk_eq (c : Dev nD) (t : Fin cfg0.N) : gB0Blk V c t = (V c main_v19 : S1x128.Idx → EReal) := by
  have e : win0_16.index t (0 : Fin 2) = 0 ∧ win0_16.index t (1 : Fin 2) = 0 :=
    (by decide +kernel : ∀ t : Fin grid0.N, win0_16.index t (0 : Fin 2) = 0 ∧ win0_16.index t (1 : Fin 2) = 0) t
  funext j
  show V c main_v19 (((cfg0.win 16).blk t).view.emb j) = _
  refine congrArg _ (funext fun a => Fin.ext ?_)
  match a with
  | ⟨0, _⟩ => show win0_16.index t (0 : Fin 2) * 1 + 1 * (j 0).val = (j 0).val; omega
  | ⟨1, _⟩ => show win0_16.index t (1 : Fin 2) * 128 + 1 * (j 1).val = (j 1).val; omega
private abbrev gOutBlk (c : Dev nD) (t : Fin cfg0.N) : Vec Ideal S1x128 .f32 := iblk0 V c 17 t
/-- A weight's block is its whole array at every point. -/
private theorem gOutBlk_eq (c : Dev nD) (t : Fin cfg0.N) : gOutBlk V c t = (V c main_v20 : S1x128.Idx → EReal) := by
  have e : win0_17.index t (0 : Fin 2) = 0 ∧ win0_17.index t (1 : Fin 2) = 0 :=
    (by decide +kernel : ∀ t : Fin grid0.N, win0_17.index t (0 : Fin 2) = 0 ∧ win0_17.index t (1 : Fin 2) = 0) t
  funext j
  show V c main_v20 (((cfg0.win 17).blk t).view.emb j) = _
  refine congrArg _ (funext fun a => Fin.ext ?_)
  match a with
  | ⟨0, _⟩ => show win0_17.index t (0 : Fin 2) * 1 + 1 * (j 0).val = (j 0).val; omega
  | ⟨1, _⟩ => show win0_17.index t (1 : Fin 2) * 128 + 1 * (j 1).val = (j 1).val; omega
private abbrev gB1Blk (c : Dev nD) (t : Fin cfg0.N) : Vec Ideal S1x1 .f32 := iblk0 V c 18 t
/-- A weight's block is its whole array at every point. -/
private theorem gB1Blk_eq (c : Dev nD) (t : Fin cfg0.N) : gB1Blk V c t = (V c main_v21 : S1x1.Idx → EReal) := by
  have e : win0_18.index t (0 : Fin 2) = 0 ∧ win0_18.index t (1 : Fin 2) = 0 :=
    (by decide +kernel : ∀ t : Fin grid0.N, win0_18.index t (0 : Fin 2) = 0 ∧ win0_18.index t (1 : Fin 2) = 0) t
  funext j
  show V c main_v21 (((cfg0.win 18).blk t).view.emb j) = _
  refine congrArg _ (funext fun a => Fin.ext ?_)
  match a with
  | ⟨0, _⟩ => show win0_18.index t (0 : Fin 2) * 1 + 1 * (j 0).val = (j 0).val; omega
  | ⟨1, _⟩ => show win0_18.index t (1 : Fin 2) * 1 + 1 * (j 1).val = (j 1).val; omega
/-- Entry (p, q) of output 19's block at point `t` sits at (2000·t + p, q) of its array. -/
private theorem out0_19_emb (t : Fin cfg0.N) (p : Fin 2000) (q : Fin 128) (h : 2000 * t.val + p.val < 500000) :
    ((cfg0.win 19).blk t).view.emb (ix2 p q) = (ix2 ⟨2000 * t.val + p.val, h⟩ q : S500000x128.Idx) := by
  have e0 : win0_19.index t (0 : Fin 2) = t.val := (edgeRowIdx t).2.2.2.2.2.2.1
  have e1 : win0_19.index t (1 : Fin 2) = 0 := (edgeRowIdx t).2.2.2.2.2.2.2.1
  refine funext fun a => Fin.ext ?_
  match a with
  | ⟨0, _⟩ => show win0_19.index t (0 : Fin 2) * 2000 + 1 * p.val = 2000 * t.val + p.val; omega
  | ⟨1, _⟩ => show win0_19.index t (1 : Fin 2) * 128 + 1 * q.val = q.val; omega
/-- Entry (p, q) of output 20's block at point `t` sits at (2000·t + p, q) of its array. -/
private theorem out0_20_emb (t : Fin cfg0.N) (p : Fin 2000) (q : Fin 128) (h : 2000 * t.val + p.val < 500000) :
    ((cfg0.win 20).blk t).view.emb (ix2 p q) = (ix2 ⟨2000 * t.val + p.val, h⟩ q : S500000x128.Idx) := by
  have e0 : win0_20.index t (0 : Fin 2) = t.val := (edgeRowIdx t).2.2.2.2.2.2.2.2.1
  have e1 : win0_20.index t (1 : Fin 2) = 0 := (edgeRowIdx t).2.2.2.2.2.2.2.2.2
  refine funext fun a => Fin.ext ?_
  match a with
  | ⟨0, _⟩ => show win0_20.index t (0 : Fin 2) * 2000 + 1 * p.val = 2000 * t.val + p.val; omega
  | ⟨1, _⟩ => show win0_20.index t (1 : Fin 2) * 128 + 1 * q.val = q.val; omega

/-- Over any arrays: when row `p` of the three feature blocks is row `r` of the feature arrays and each weight block is its
    weight array, the first output block's entry (p, q) is the edge's new features at (r, q). -/
private theorem edgeOut_of_rows (XI XJ EA : S500000x128.Idx → EReal) (x0 x1 x2 : Vec Ideal S2000x128 .f32) (x3 x4 x5 : Vec Ideal S128x128 .f32) (x6 : Vec Ideal S1x128 .f32) (x7 : Vec Ideal S128x128 .f32) (x8 : Vec Ideal S1x128 .f32) (x9 : Vec Ideal S128x128 .f32) (x10 x11 x12 : Vec Ideal S1x128 .f32)
    (W3 W4 W5 : S128x128.Idx → EReal) (W6 : S1x128.Idx → EReal) (W7 : S128x128.Idx → EReal) (W8 : S1x128.Idx → EReal) (W9 : S128x128.Idx → EReal) (W10 W11 W12 : S1x128.Idx → EReal)
    (p : Fin 2000) (q : Fin 128) (r : Fin 500000)
    (h0 : ∀ k, x0 (ix2 p k) = XI (ix2 r k)) (h1 : ∀ k, x1 (ix2 p k) = XJ (ix2 r k)) (h2 : ∀ k, x2 (ix2 p k) = EA (ix2 r k))
    (h3 : x3 = W3) (h4 : x4 = W4) (h5 : x5 = W5) (h6 : x6 = W6) (h7 : x7 = W7) (h8 : x8 = W8) (h9 : x9 = W9) (h10 : x10 = W10) (h11 : x11 = W11) (h12 : x12 = W12) :
    k0_pay1 (F := Ideal) x2 (k0_pay6 (F := Ideal) (k0_pay5 (F := Ideal) x0 x1 x2 x3 x4 x5 x6 x7 x8) x9 x10 x11 x12) (ix2 p q)
      = edgeOutF XI XJ EA (matAll W3) (matAll W4) (matAll W5) (row1 W6) (matAll W7) (row1 W8) (matAll W9) (row1 W10) (row1 W11) (row1 W12) (ix2 r q) := by
  subst h3; subst h4; subst h5; subst h6; subst h7; subst h8; subst h9; subst h10; subst h11; subst h12
  refine (EdgeBlock.edgeOut_at x0 x1 x2 x3 x4 x5 x6 x7 x8 x9 x10 x11 x12 p q).trans ?_
  have r0 : rowOf x0 p = rowOf XI r := funext h0
  have r1 : rowOf x1 p = rowOf XJ r := funext h1
  have r2 : rowOf x2 p = rowOf EA r := funext h2
  rw [edgeOutF_ix2, r0, r1, r2, h2 q]
  rfl

/-- The same for the second output block: its entry (p, q) is the edge's message at (r, q). -/
private theorem message_of_rows (XI XJ EA : S500000x128.Idx → EReal) (x0 x1 x2 : Vec Ideal S2000x128 .f32) (x3 x4 x5 : Vec Ideal S128x128 .f32) (x6 : Vec Ideal S1x128 .f32) (x7 : Vec Ideal S128x128 .f32) (x8 : Vec Ideal S1x128 .f32) (x9 : Vec Ideal S128x128 .f32) (x10 x11 x12 : Vec Ideal S1x128 .f32) (x13 x14 x15 : Vec Ideal S128x128 .f32) (x16 x17 : Vec Ideal S1x128 .f32) (x18 : Vec Ideal S1x1 .f32)
    (W3 W4 W5 : S128x128.Idx → EReal) (W6 : S1x128.Idx → EReal) (W7 : S128x128.Idx → EReal) (W8 : S1x128.Idx → EReal) (W9 : S128x128.Idx → EReal) (W10 W11 W12 : S1x128.Idx → EReal) (W13 W14 W15 : S128x128.Idx → EReal) (W16 W17 : S1x128.Idx → EReal) (W18 : S1x1.Idx → EReal)
    (p : Fin 2000) (q : Fin 128) (r : Fin 500000)
    (h0 : ∀ k, x0 (ix2 p k) = XI (ix2 r k)) (h1 : ∀ k, x1 (ix2 p k) = XJ (ix2 r k)) (h2 : ∀ k, x2 (ix2 p k) = EA (ix2 r k))
    (h3 : x3 = W3) (h4 : x4 = W4) (h5 : x5 = W5) (h6 : x6 = W6) (h7 : x7 = W7) (h8 : x8 = W8) (h9 : x9 = W9) (h10 : x10 = W10) (h11 : x11 = W11) (h12 : x12 = W12) (h13 : x13 = W13) (h14 : x14 = W14) (h15 : x15 = W15) (h16 : x16 = W16) (h17 : x17 = W17) (h18 : x18 = W18) :
    k0_pay2 (F := Ideal) (k0_pay4 (F := Ideal) x1) x2 (k0_pay6 (F := Ideal) (k0_pay5 (F := Ideal) x0 x1 x2 x3 x4 x5 x6 x7 x8) x9 x10 x11 x12) (k0_pay7 (F := Ideal) (k0_pay3 (F := Ideal) x0) x13) x14 x15 x16 x17 x18 (ix2 p q)
      = messageF XI XJ EA (matAll W3) (matAll W4) (matAll W5) (row1 W6) (matAll W7) (row1 W8) (matAll W9) (row1 W10) (row1 W11) (row1 W12)
          (matAll W13) (matAll W14) (matAll W15) (row1 W16) (row1 W17) (W18 (ix2 (0 : Fin 1) (0 : Fin 1))) (ix2 r q) := by
  subst h3; subst h4; subst h5; subst h6; subst h7; subst h8; subst h9; subst h10; subst h11; subst h12; subst h13; subst h14; subst h15; subst h16; subst h17; subst h18
  refine (EdgeBlock.message_at x0 x1 x2 x3 x4 x5 x6 x7 x8 x9 x10 x11 x12 x13 x14 x15 x16 x17 x18 p q).trans ?_
  have r0 : rowOf x0 p = rowOf XI r := funext h0
  have r1 : rowOf x1 p = rowOf XJ r := funext h1
  have r2 : rowOf x2 p = rowOf EA r := funext h2
  rw [messageF_ix2, r0, r1, r2]
  rfl

/-- What point `t` writes back to the first output is block `t` of the edges' new features of the arrays as the region finds them. -/
private theorem edgeOut_flushed (c : Dev nD) (t : Fin cfg0.N) :
    (dat0 (F := Ideal) V c).flushed 19 t = ((cfg0.win 19).blk t).view.read (Elt Ideal) (edgeOutF (V c main_v4) (V c main_v5) (V c main_arg2) (matAll (V c main_v6)) (matAll (V c main_v7)) (matAll (V c main_v8))
          (row1 (V c main_v14)) (matAll (V c main_arg5)) (row1 (V c main_v15)) (matAll (V c main_arg7)) (row1 (V c main_v16))
          (row1 (V c main_v17)) (row1 (V c main_v18))) := by
  show (cfg0.win 19).cut (grid0.coords t) ((dat0 (F := Ideal) V c).after 19 t) = _
  rw [after0_19]
  unfold out0_19
  rw [View.canon_unit_zero zeroOff]
  simp only [View.ld_unit_zero (S := S2000x128) zeroOff, View.ld_unit_zero (S := S128x128) zeroOff, View.ld_unit_zero (S := S1x128) zeroOff]
  refine ext_ix2 (n := 2000) (m := 128) _ _ fun p q => ?_
  have hp : 2000 * t.val + p.val < 500000 := by have := edgePts t; have := p.isLt; omega
  refine (edgeOut_of_rows (V c main_v4) (V c main_v5) (V c main_arg2) (recvBlk V c t) (sendBlk V c t) (edgeBlk V c t) (eWaBlk V c t) (eWbBlk V c t) (eWcBlk V c t) (eB0Blk V c t) (eW1Blk V c t) (eB1Blk V c t) (eW2Blk V c t) (eB2Blk V c t) (eGainBlk V c t) (eShiftBlk V c t) (V c main_v6) (V c main_v7) (V c main_v8) (V c main_v14) (V c main_arg5) (V c main_v15) (V c main_arg7) (V c main_v16) (V c main_v17) (V c main_v18) p q ⟨2000 * t.val + p.val, hp⟩
    (fun k => recvBlk_apply V c t p k hp) (fun k => sendBlk_apply V c t p k hp) (fun k => edgeBlk_apply V c t p k hp) (eWaBlk_eq V c t) (eWbBlk_eq V c t) (eWcBlk_eq V c t) (eB0Blk_eq V c t) (eW1Blk_eq V c t) (eB1Blk_eq V c t) (eW2Blk_eq V c t) (eB2Blk_eq V c t) (eGainBlk_eq V c t) (eShiftBlk_eq V c t)).trans ?_
  exact (congrArg (edgeOutF (V c main_v4) (V c main_v5) (V c main_arg2) (matAll (V c main_v6)) (matAll (V c main_v7)) (matAll (V c main_v8))
          (row1 (V c main_v14)) (matAll (V c main_arg5)) (row1 (V c main_v15)) (matAll (V c main_arg7)) (row1 (V c main_v16))
          (row1 (V c main_v17)) (row1 (V c main_v18))) (out0_19_emb t p q hp)).symm

/-- What point `t` writes back to the second output is block `t` of the edges' messages of the arrays as the region finds them. -/
private theorem message_flushed (c : Dev nD) (t : Fin cfg0.N) :
    (dat0 (F := Ideal) V c).flushed 20 t = ((cfg0.win 20).blk t).view.read (Elt Ideal) (messageF (V c main_v4) (V c main_v5) (V c main_arg2) (matAll (V c main_v6)) (matAll (V c main_v7)) (matAll (V c main_v8))
          (row1 (V c main_v14)) (matAll (V c main_arg5)) (row1 (V c main_v15)) (matAll (V c main_arg7)) (row1 (V c main_v16))
          (row1 (V c main_v17)) (row1 (V c main_v18))
          (matAll (V c main_v9)) (matAll (V c main_v10)) (matAll (V c main_v11)) (row1 (V c main_v19)) (row1 (V c main_v20))
          (V c main_v21 (ix2 (0 : Fin 1) (0 : Fin 1)))) := by
  show (cfg0.win 20).cut (grid0.coords t) ((dat0 (F := Ideal) V c).after 20 t) = _
  rw [after0_20]
  unfold out0_20
  rw [View.canon_unit_zero zeroOff]
  simp only [View.ld_unit_zero (S := S2000x128) zeroOff, View.ld_unit_zero (S := S128x128) zeroOff, View.ld_unit_zero (S := S1x128) zeroOff,
    View.ld_unit_zero (S := S1x1) zeroOff]
  refine ext_ix2 (n := 2000) (m := 128) _ _ fun p q => ?_
  have hp : 2000 * t.val + p.val < 500000 := by have := edgePts t; have := p.isLt; omega
  refine (message_of_rows (V c main_v4) (V c main_v5) (V c main_arg2) (recvBlk V c t) (sendBlk V c t) (edgeBlk V c t) (eWaBlk V c t) (eWbBlk V c t) (eWcBlk V c t) (eB0Blk V c t) (eW1Blk V c t) (eB1Blk V c t) (eW2Blk V c t) (eB2Blk V c t) (eGainBlk V c t) (eShiftBlk V c t) (gWaBlk V c t) (gWbBlk V c t) (gWcBlk V c t) (gB0Blk V c t) (gOutBlk V c t) (gB1Blk V c t) (V c main_v6) (V c main_v7) (V c main_v8) (V c main_v14) (V c main_arg5) (V c main_v15) (V c main_arg7) (V c main_v16) (V c main_v17) (V c main_v18) (V c main_v9) (V c main_v10) (V c main_v11) (V c main_v19) (V c main_v20) (V c main_v21) p q ⟨2000 * t.val + p.val, hp⟩
    (fun k => recvBlk_apply V c t p k hp) (fun k => sendBlk_apply V c t p k hp) (fun k => edgeBlk_apply V c t p k hp) (eWaBlk_eq V c t) (eWbBlk_eq V c t) (eWcBlk_eq V c t) (eB0Blk_eq V c t) (eW1Blk_eq V c t) (eB1Blk_eq V c t) (eW2Blk_eq V c t) (eB2Blk_eq V c t) (eGainBlk_eq V c t) (eShiftBlk_eq V c t) (gWaBlk_eq V c t) (gWbBlk_eq V c t) (gWcBlk_eq V c t) (gB0Blk_eq V c t) (gOutBlk_eq V c t) (gB1Blk_eq V c t)).trans ?_
  exact (congrArg (messageF (V c main_v4) (V c main_v5) (V c main_arg2) (matAll (V c main_v6)) (matAll (V c main_v7)) (matAll (V c main_v8))
          (row1 (V c main_v14)) (matAll (V c main_arg5)) (row1 (V c main_v15)) (matAll (V c main_arg7)) (row1 (V c main_v16))
          (row1 (V c main_v17)) (row1 (V c main_v18))
          (matAll (V c main_v9)) (matAll (V c main_v10)) (matAll (V c main_v11)) (row1 (V c main_v19)) (row1 (V c main_v20))
          (V c main_v21 (ix2 (0 : Fin 1) (0 : Fin 1)))) (out0_20_emb t p q hp)).symm

/-- An index of the array is in point `t`'s block of output 19 iff each coordinate is in the block's range on its axis. -/
private theorem edgeOut_mem (t : Fin cfg0.N) (i : S500000x128.Idx) :
    i ∈ ((cfg0.win 19).blk t).view.set ↔ ∀ a : Fin 2, win0_19.index t a * S2000x128.size a ≤ (i a).val ∧ (i a).val < win0_19.index t a * S2000x128.size a + S2000x128.size a := by
  show i ∈ ((View.whole main_v27_0).slice (win0_19.rect t)).set ↔ _
  rw [View.set_slice_whole, Rect.mem_set_unit]
  exact Iff.rfl

/-- The blocks tile the array: row `r` is in the block of point `r / 2000`, and every point writes back. -/
private theorem edgeOut_cover (i : S500000x128.Idx) :
    ∃ t : Fin cfg0.N, (cfg0.win 19).flush t = true ∧ i ∈ ((cfg0.win 19).blk t).view.set := by
  have hi0 : (i 0).val < 500000 := idx2_lt0 i
  have hi1 : (i 1).val < 128 := idx2_lt1 i
  have hN : grid0.N = 250 := N_0
  have ht : (i 0).val / 2000 < grid0.N := by omega
  have e0 : win0_19.index ⟨(i 0).val / 2000, ht⟩ (0 : Fin 2) = (i 0).val / 2000 := (edgeRowIdx ⟨(i 0).val / 2000, ht⟩).2.2.2.2.2.2.1
  have e1 : win0_19.index ⟨(i 0).val / 2000, ht⟩ (1 : Fin 2) = 0 := (edgeRowIdx ⟨(i 0).val / 2000, ht⟩).2.2.2.2.2.2.2.1
  refine ⟨⟨(i 0).val / 2000, ht⟩, flush0_19 _, ?_⟩
  rw [edgeOut_mem]
  intro a
  match a with
  | ⟨0, _⟩ => show win0_19.index ⟨(i 0).val / 2000, ht⟩ (0 : Fin 2) * 2000 ≤ (i 0).val ∧ (i 0).val < win0_19.index ⟨(i 0).val / 2000, ht⟩ (0 : Fin 2) * 2000 + 2000; omega
  | ⟨1, _⟩ => show win0_19.index ⟨(i 0).val / 2000, ht⟩ (1 : Fin 2) * 128 ≤ (i 1).val ∧ (i 1).val < win0_19.index ⟨(i 0).val / 2000, ht⟩ (1 : Fin 2) * 128 + 128; omega

/-- An index of the array is in point `t`'s block of output 20 iff each coordinate is in the block's range on its axis. -/
private theorem message_mem (t : Fin cfg0.N) (i : S500000x128.Idx) :
    i ∈ ((cfg0.win 20).blk t).view.set ↔ ∀ a : Fin 2, win0_20.index t a * S2000x128.size a ≤ (i a).val ∧ (i a).val < win0_20.index t a * S2000x128.size a + S2000x128.size a := by
  show i ∈ ((View.whole main_v27_1).slice (win0_20.rect t)).set ↔ _
  rw [View.set_slice_whole, Rect.mem_set_unit]
  exact Iff.rfl

/-- The blocks tile the array: row `r` is in the block of point `r / 2000`, and every point writes back. -/
private theorem message_cover (i : S500000x128.Idx) :
    ∃ t : Fin cfg0.N, (cfg0.win 20).flush t = true ∧ i ∈ ((cfg0.win 20).blk t).view.set := by
  have hi0 : (i 0).val < 500000 := idx2_lt0 i
  have hi1 : (i 1).val < 128 := idx2_lt1 i
  have hN : grid0.N = 250 := N_0
  have ht : (i 0).val / 2000 < grid0.N := by omega
  have e0 : win0_20.index ⟨(i 0).val / 2000, ht⟩ (0 : Fin 2) = (i 0).val / 2000 := (edgeRowIdx ⟨(i 0).val / 2000, ht⟩).2.2.2.2.2.2.2.2.1
  have e1 : win0_20.index ⟨(i 0).val / 2000, ht⟩ (1 : Fin 2) = 0 := (edgeRowIdx ⟨(i 0).val / 2000, ht⟩).2.2.2.2.2.2.2.2.2
  refine ⟨⟨(i 0).val / 2000, ht⟩, flush0_20 _, ?_⟩
  rw [message_mem]
  intro a
  match a with
  | ⟨0, _⟩ => show win0_20.index ⟨(i 0).val / 2000, ht⟩ (0 : Fin 2) * 2000 ≤ (i 0).val ∧ (i 0).val < win0_20.index ⟨(i 0).val / 2000, ht⟩ (0 : Fin 2) * 2000 + 2000; omega
  | ⟨1, _⟩ => show win0_20.index ⟨(i 0).val / 2000, ht⟩ (1 : Fin 2) * 128 ≤ (i 1).val ∧ (i 1).val < win0_20.index ⟨(i 0).val / 2000, ht⟩ (1 : Fin 2) * 128 + 128; omega

/-! ## The node region: 25 points, point `t` at rows 2000·t … 2000·t + 1999 -/

/-- At every point `t` of the grid each feature block and the output block is block (t, 0) of its array. -/
private theorem nodeRowIdx : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_11.index t (0 : Fin 2) = t.val
    ∧ win1_11.index t (1 : Fin 2) = 0 :=
  (by decide +kernel : ∀ t : Fin grid1.N, _)

/-- The grid has 25 points. -/
private theorem nodePts (t : Fin cfg1.N) : t.val < 25 := by
  have h : t.val < grid1.N := t.isLt
  have e := N_1
  omega

private abbrev nodeBlk (c : Dev nD) (t : Fin cfg1.N) : Vec Ideal S2000x128 .f32 := iblk1 V c 0 t
/-- Row `p` of the block at point `t` is row 2000·t + p of the array. -/
private theorem nodeBlk_apply (c : Dev nD) (t : Fin cfg1.N) (p : Fin 2000) (k : Fin 128) (h : 2000 * t.val + p.val < 50000) :
    nodeBlk V c t (ix2 p k) = (V c main_arg0 : S50000x128.Idx → EReal) (ix2 ⟨2000 * t.val + p.val, h⟩ k) := by
  have e0 : win1_0.index t (0 : Fin 2) = t.val := (nodeRowIdx t).1
  have e1 : win1_0.index t (1 : Fin 2) = 0 := (nodeRowIdx t).2.1
  show V c main_arg0 (((cfg1.win 0).blk t).view.emb (ix2 p k)) = _
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * k.val = k.val; omega
private abbrev aggBlk (c : Dev nD) (t : Fin cfg1.N) : Vec Ideal S2000x128 .f32 := iblk1 V c 1 t
/-- Row `p` of the block at point `t` is row 2000·t + p of the array. -/
private theorem aggBlk_apply (c : Dev nD) (t : Fin cfg1.N) (p : Fin 2000) (k : Fin 128) (h : 2000 * t.val + p.val < 50000) :
    aggBlk V c t (ix2 p k) = (V c main_v30 : S50000x128.Idx → EReal) (ix2 ⟨2000 * t.val + p.val, h⟩ k) := by
  have e0 : win1_1.index t (0 : Fin 2) = t.val := (nodeRowIdx t).2.2.1
  have e1 : win1_1.index t (1 : Fin 2) = 0 := (nodeRowIdx t).2.2.2.1
  show V c main_v30 (((cfg1.win 1).blk t).view.emb (ix2 p k)) = _
  refine congrArg _ (funext fun a => Fin.ext ?_)
  match a with
  | ⟨0, _⟩ => show win1_1.index t (0 : Fin 2) * 2000 + 1 * p.val = 2000 * t.val + p.val; omega
  | ⟨1, _⟩ => show win1_1.index t (1 : Fin 2) * 128 + 1 * k.val = k.val; omega
private abbrev nWxBlk (c : Dev nD) (t : Fin cfg1.N) : Vec Ideal S128x128 .f32 := iblk1 V c 2 t
/-- A weight's block is its whole array at every point. -/
private theorem nWxBlk_eq (c : Dev nD) (t : Fin cfg1.N) : nWxBlk V c t = (V c main_v12 : S128x128.Idx → EReal) := by
  have e : win1_2.index t (0 : Fin 2) = 0 ∧ win1_2.index t (1 : Fin 2) = 0 :=
    (by decide +kernel : ∀ t : Fin grid1.N, win1_2.index t (0 : Fin 2) = 0 ∧ win1_2.index t (1 : Fin 2) = 0) t
  funext j
  show V c main_v12 (((cfg1.win 2).blk t).view.emb j) = _
  refine congrArg _ (funext fun a => Fin.ext ?_)
  match a with
  | ⟨0, _⟩ => show win1_2.index t (0 : Fin 2) * 128 + 1 * (j 0).val = (j 0).val; omega
  | ⟨1, _⟩ => show win1_2.index t (1 : Fin 2) * 128 + 1 * (j 1).val = (j 1).val; omega
private abbrev nWaBlk (c : Dev nD) (t : Fin cfg1.N) : Vec Ideal S128x128 .f32 := iblk1 V c 3 t
/-- A weight's block is its whole array at every point. -/
private theorem nWaBlk_eq (c : Dev nD) (t : Fin cfg1.N) : nWaBlk V c t = (V c main_v13 : S128x128.Idx → EReal) := by
  have e : win1_3.index t (0 : Fin 2) = 0 ∧ win1_3.index t (1 : Fin 2) = 0 :=
    (by decide +kernel : ∀ t : Fin grid1.N, win1_3.index t (0 : Fin 2) = 0 ∧ win1_3.index t (1 : Fin 2) = 0) t
  funext j
  show V c main_v13 (((cfg1.win 3).blk t).view.emb j) = _
  refine congrArg _ (funext fun a => Fin.ext ?_)
  match a with
  | ⟨0, _⟩ => show win1_3.index t (0 : Fin 2) * 128 + 1 * (j 0).val = (j 0).val; omega
  | ⟨1, _⟩ => show win1_3.index t (1 : Fin 2) * 128 + 1 * (j 1).val = (j 1).val; omega
private abbrev nB0Blk (c : Dev nD) (t : Fin cfg1.N) : Vec Ideal S1x128 .f32 := iblk1 V c 4 t
/-- A weight's block is its whole array at every point. -/
private theorem nB0Blk_eq (c : Dev nD) (t : Fin cfg1.N) : nB0Blk V c t = (V c main_v22 : S1x128.Idx → EReal) := by
  have e : win1_4.index t (0 : Fin 2) = 0 ∧ win1_4.index t (1 : Fin 2) = 0 :=
    (by decide +kernel : ∀ t : Fin grid1.N, win1_4.index t (0 : Fin 2) = 0 ∧ win1_4.index t (1 : Fin 2) = 0) t
  funext j
  show V c main_v22 (((cfg1.win 4).blk t).view.emb j) = _
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 128 + 1 * (j 1).val = (j 1).val; omega
private abbrev nW1Blk (c : Dev nD) (t : Fin cfg1.N) : Vec Ideal S128x128 .f32 := iblk1 V c 5 t
/-- A weight's block is its whole array at every point. -/
private theorem nW1Blk_eq (c : Dev nD) (t : Fin cfg1.N) : nW1Blk V c t = (V c main_arg13 : S128x128.Idx → EReal) := by
  have e : win1_5.index t (0 : Fin 2) = 0 ∧ win1_5.index t (1 : Fin 2) = 0 :=
    (by decide +kernel : ∀ t : Fin grid1.N, win1_5.index t (0 : Fin 2) = 0 ∧ win1_5.index t (1 : Fin 2) = 0) t
  funext j
  show V c main_arg13 (((cfg1.win 5).blk t).view.emb j) = _
  refine congrArg _ (funext fun a => Fin.ext ?_)
  match a with
  | ⟨0, _⟩ => show win1_5.index t (0 : Fin 2) * 128 + 1 * (j 0).val = (j 0).val; omega
  | ⟨1, _⟩ => show win1_5.index t (1 : Fin 2) * 128 + 1 * (j 1).val = (j 1).val; omega
private abbrev nB1Blk (c : Dev nD) (t : Fin cfg1.N) : Vec Ideal S1x128 .f32 := iblk1 V c 6 t
/-- A weight's block is its whole array at every point. -/
private theorem nB1Blk_eq (c : Dev nD) (t : Fin cfg1.N) : nB1Blk V c t = (V c main_v23 : S1x128.Idx → EReal) := by
  have e : win1_6.index t (0 : Fin 2) = 0 ∧ win1_6.index t (1 : Fin 2) = 0 :=
    (by decide +kernel : ∀ t : Fin grid1.N, win1_6.index t (0 : Fin 2) = 0 ∧ win1_6.index t (1 : Fin 2) = 0) t
  funext j
  show V c main_v23 (((cfg1.win 6).blk t).view.emb j) = _
  refine congrArg _ (funext fun a => Fin.ext ?_)
  match a with
  | ⟨0, _⟩ => show win1_6.index t (0 : Fin 2) * 1 + 1 * (j 0).val = (j 0).val; omega
  | ⟨1, _⟩ => show win1_6.index t (1 : Fin 2) * 128 + 1 * (j 1).val = (j 1).val; omega
private abbrev nW2Blk (c : Dev nD) (t : Fin cfg1.N) : Vec Ideal S128x128 .f32 := iblk1 V c 7 t
/-- A weight's block is its whole array at every point. -/
private theorem nW2Blk_eq (c : Dev nD) (t : Fin cfg1.N) : nW2Blk V c t = (V c main_arg15 : S128x128.Idx → EReal) := by
  have e : win1_7.index t (0 : Fin 2) = 0 ∧ win1_7.index t (1 : Fin 2) = 0 :=
    (by decide +kernel : ∀ t : Fin grid1.N, win1_7.index t (0 : Fin 2) = 0 ∧ win1_7.index t (1 : Fin 2) = 0) t
  funext j
  show V c main_arg15 (((cfg1.win 7).blk t).view.emb j) = _
  refine congrArg _ (funext fun a => Fin.ext ?_)
  match a with
  | ⟨0, _⟩ => show win1_7.index t (0 : Fin 2) * 128 + 1 * (j 0).val = (j 0).val; omega
  | ⟨1, _⟩ => show win1_7.index t (1 : Fin 2) * 128 + 1 * (j 1).val = (j 1).val; omega
private abbrev nB2Blk (c : Dev nD) (t : Fin cfg1.N) : Vec Ideal S1x128 .f32 := iblk1 V c 8 t
/-- A weight's block is its whole array at every point. -/
private theorem nB2Blk_eq (c : Dev nD) (t : Fin cfg1.N) : nB2Blk V c t = (V c main_v24 : S1x128.Idx → EReal) := by
  have e : win1_8.index t (0 : Fin 2) = 0 ∧ win1_8.index t (1 : Fin 2) = 0 :=
    (by decide +kernel : ∀ t : Fin grid1.N, win1_8.index t (0 : Fin 2) = 0 ∧ win1_8.index t (1 : Fin 2) = 0) t
  funext j
  show V c main_v24 (((cfg1.win 8).blk t).view.emb j) = _
  refine congrArg _ (funext fun a => Fin.ext ?_)
  match a with
  | ⟨0, _⟩ => show win1_8.index t (0 : Fin 2) * 1 + 1 * (j 0).val = (j 0).val; omega
  | ⟨1, _⟩ => show win1_8.index t (1 : Fin 2) * 128 + 1 * (j 1).val = (j 1).val; omega
private abbrev nGainBlk (c : Dev nD) (t : Fin cfg1.N) : Vec Ideal S1x128 .f32 := iblk1 V c 9 t
/-- A weight's block is its whole array at every point. -/
private theorem nGainBlk_eq (c : Dev nD) (t : Fin cfg1.N) : nGainBlk V c t = (V c main_v25 : S1x128.Idx → EReal) := by
  have e : win1_9.index t (0 : Fin 2) = 0 ∧ win1_9.index t (1 : Fin 2) = 0 :=
    (by decide +kernel : ∀ t : Fin grid1.N, win1_9.index t (0 : Fin 2) = 0 ∧ win1_9.index t (1 : Fin 2) = 0) t
  funext j
  show V c main_v25 (((cfg1.win 9).blk t).view.emb j) = _
  refine congrArg _ (funext fun a => Fin.ext ?_)
  match a with
  | ⟨0, _⟩ => show win1_9.index t (0 : Fin 2) * 1 + 1 * (j 0).val = (j 0).val; omega
  | ⟨1, _⟩ => show win1_9.index t (1 : Fin 2) * 128 + 1 * (j 1).val = (j 1).val; omega
private abbrev nShiftBlk (c : Dev nD) (t : Fin cfg1.N) : Vec Ideal S1x128 .f32 := iblk1 V c 10 t
/-- A weight's block is its whole array at every point. -/
private theorem nShiftBlk_eq (c : Dev nD) (t : Fin cfg1.N) : nShiftBlk V c t = (V c main_v26 : S1x128.Idx → EReal) := by
  have e : win1_10.index t (0 : Fin 2) = 0 ∧ win1_10.index t (1 : Fin 2) = 0 :=
    (by decide +kernel : ∀ t : Fin grid1.N, win1_10.index t (0 : Fin 2) = 0 ∧ win1_10.index t (1 : Fin 2) = 0) t
  funext j
  show V c main_v26 (((cfg1.win 10).blk t).view.emb j) = _
  refine congrArg _ (funext fun a => Fin.ext ?_)
  match a with
  | ⟨0, _⟩ => show win1_10.index t (0 : Fin 2) * 1 + 1 * (j 0).val = (j 0).val; omega
  | ⟨1, _⟩ => show win1_10.index t (1 : Fin 2) * 128 + 1 * (j 1).val = (j 1).val; omega
/-- Entry (p, q) of output 11's block at point `t` sits at (2000·t + p, q) of its array. -/
private theorem out1_11_emb (t : Fin cfg1.N) (p : Fin 2000) (q : Fin 128) (h : 2000 * t.val + p.val < 50000) :
    ((cfg1.win 11).blk t).view.emb (ix2 p q) = (ix2 ⟨2000 * t.val + p.val, h⟩ q : S50000x128.Idx) := by
  have e0 : win1_11.index t (0 : Fin 2) = t.val := (nodeRowIdx t).2.2.2.2.1
  have e1 : win1_11.index t (1 : Fin 2) = 0 := (nodeRowIdx t).2.2.2.2.2
  refine funext fun a => Fin.ext ?_
  match a with
  | ⟨0, _⟩ => show win1_11.index t (0 : Fin 2) * 2000 + 1 * p.val = 2000 * t.val + p.val; omega
  | ⟨1, _⟩ => show win1_11.index t (1 : Fin 2) * 128 + 1 * q.val = q.val; omega

/-- Over any arrays: when row `p` of the two feature blocks is row `r` of the feature arrays and each weight block is its
    weight array, the output block's entry (p, q) is the node's new features at (r, q). -/
private theorem nodeOut_of_rows (X AG : S50000x128.Idx → EReal) (x0 x1 : Vec Ideal S2000x128 .f32) (x2 x3 : Vec Ideal S128x128 .f32) (x4 : Vec Ideal S1x128 .f32) (x5 : Vec Ideal S128x128 .f32) (x6 : Vec Ideal S1x128 .f32) (x7 : Vec Ideal S128x128 .f32) (x8 x9 x10 : Vec Ideal S1x128 .f32)
    (W2 W3 : S128x128.Idx → EReal) (W4 : S1x128.Idx → EReal) (W5 : S128x128.Idx → EReal) (W6 : S1x128.Idx → EReal) (W7 : S128x128.Idx → EReal) (W8 W9 W10 : S1x128.Idx → EReal)
    (p : Fin 2000) (q : Fin 128) (r : Fin 50000)
    (h0 : ∀ k, x0 (ix2 p k) = X (ix2 r k)) (h1 : ∀ k, x1 (ix2 p k) = AG (ix2 r k))
    (h2 : x2 = W2) (h3 : x3 = W3) (h4 : x4 = W4) (h5 : x5 = W5) (h6 : x6 = W6) (h7 : x7 = W7) (h8 : x8 = W8) (h9 : x9 = W9) (h10 : x10 = W10) :
    k1_pay1 (F := Ideal) x0 (k1_pay2 (F := Ideal) x0 x1 x2 x3 x4 x5 x6 x7) x8 x9 x10 (ix2 p q)
      = nodeOutF X AG (matAll W2) (matAll W3) (row1 W4) (matAll W5) (row1 W6) (matAll W7) (row1 W8) (row1 W9) (row1 W10) (ix2 r q) := by
  subst h2; subst h3; subst h4; subst h5; subst h6; subst h7; subst h8; subst h9; subst h10
  refine (NodeBlock.nodeOut_at x0 x1 x2 x3 x4 x5 x6 x7 x8 x9 x10 p q).trans ?_
  have r0 : rowOf x0 p = rowOf X r := funext h0
  have r1 : rowOf x1 p = rowOf AG r := funext h1
  rw [nodeOutF_ix2, r0, r1, h0 q]
  rfl

/-- What point `t` writes back to the node region's output is block `t` of the nodes' new features of the arrays as the region finds them. -/
private theorem nodeOut_flushed (c : Dev nD) (t : Fin cfg1.N) :
    (dat1 (F := Ideal) V c).flushed 11 t = ((cfg1.win 11).blk t).view.read (Elt Ideal) (nodeOutF (V c main_arg0) (V c main_v30) (matAll (V c main_v12)) (matAll (V c main_v13)) (row1 (V c main_v22))
          (matAll (V c main_arg13)) (row1 (V c main_v23)) (matAll (V c main_arg15)) (row1 (V c main_v24)) (row1 (V c main_v25))
          (row1 (V c main_v26))) := by
  show (cfg1.win 11).cut (grid1.coords t) ((dat1 (F := Ideal) V c).after 11 t) = _
  rw [after1_11]
  unfold out1_11
  rw [View.canon_unit_zero zeroOff]
  simp only [View.ld_unit_zero (S := S2000x128) zeroOff, View.ld_unit_zero (S := S128x128) zeroOff, View.ld_unit_zero (S := S1x128) zeroOff]
  refine ext_ix2 (n := 2000) (m := 128) _ _ fun p q => ?_
  have hp : 2000 * t.val + p.val < 50000 := by have := nodePts t; have := p.isLt; omega
  refine (nodeOut_of_rows (V c main_arg0) (V c main_v30) (nodeBlk V c t) (aggBlk V c t) (nWxBlk V c t) (nWaBlk V c t) (nB0Blk V c t) (nW1Blk V c t) (nB1Blk V c t) (nW2Blk V c t) (nB2Blk V c t) (nGainBlk V c t) (nShiftBlk V c t) (V c main_v12) (V c main_v13) (V c main_v22) (V c main_arg13) (V c main_v23) (V c main_arg15) (V c main_v24) (V c main_v25) (V c main_v26) p q ⟨2000 * t.val + p.val, hp⟩
    (fun k => nodeBlk_apply V c t p k hp) (fun k => aggBlk_apply V c t p k hp) (nWxBlk_eq V c t) (nWaBlk_eq V c t) (nB0Blk_eq V c t) (nW1Blk_eq V c t) (nB1Blk_eq V c t) (nW2Blk_eq V c t) (nB2Blk_eq V c t) (nGainBlk_eq V c t) (nShiftBlk_eq V c t)).trans ?_
  exact (congrArg (nodeOutF (V c main_arg0) (V c main_v30) (matAll (V c main_v12)) (matAll (V c main_v13)) (row1 (V c main_v22))
          (matAll (V c main_arg13)) (row1 (V c main_v23)) (matAll (V c main_arg15)) (row1 (V c main_v24)) (row1 (V c main_v25))
          (row1 (V c main_v26))) (out1_11_emb t p q hp)).symm

/-- An index of the array is in point `t`'s block of output 11 iff each coordinate is in the block's range on its axis. -/
private theorem nodeOut_mem (t : Fin cfg1.N) (i : S50000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v31).slice (win1_11.rect t)).set ↔ _
  rw [View.set_slice_whole, Rect.mem_set_unit]
  exact Iff.rfl

/-- The blocks tile the array: row `r` is in the block of point `r / 2000`, and every point writes back. -/
private theorem nodeOut_cover (i : S50000x128.Idx) :
    ∃ t : Fin cfg1.N, (cfg1.win 11).flush t = true ∧ i ∈ ((cfg1.win 11).blk t).view.set := by
  have hi0 : (i 0).val < 50000 := idx2_lt0 i
  have hi1 : (i 1).val < 128 := idx2_lt1 i
  have hN : grid1.N = 25 := N_1
  have ht : (i 0).val / 2000 < grid1.N := by omega
  have e0 : win1_11.index ⟨(i 0).val / 2000, ht⟩ (0 : Fin 2) = (i 0).val / 2000 := (nodeRowIdx ⟨(i 0).val / 2000, ht⟩).2.2.2.2.1
  have e1 : win1_11.index ⟨(i 0).val / 2000, ht⟩ (1 : Fin 2) = 0 := (nodeRowIdx ⟨(i 0).val / 2000, ht⟩).2.2.2.2.2
  refine ⟨⟨(i 0).val / 2000, ht⟩, flush1_11 _, ?_⟩
  rw [nodeOut_mem]
  intro a
  match a with
  | ⟨0, _⟩ => show win1_11.index ⟨(i 0).val / 2000, ht⟩ (0 : Fin 2) * 2000 ≤ (i 0).val ∧ (i 0).val < win1_11.index ⟨(i 0).val / 2000, ht⟩ (0 : Fin 2) * 2000 + 2000; omega
  | ⟨1, _⟩ => show win1_11.index ⟨(i 0).val / 2000, ht⟩ (1 : Fin 2) * 128 ≤ (i 1).val ∧ (i 1).val < win1_11.index ⟨(i 0).val / 2000, ht⟩ (1 : Fin 2) * 128 + 128; omega

/-! ## The three arrays -/

/-- The edge region's first output: every edge's new features. -/
theorem edgeFeatures (c : Dev nD) :
    (dat0 (F := Ideal) V c).arrAt 19 cfg0.N
      = edgeOutF (V c main_v4) (V c main_v5) (V c main_arg2) (matAll (V c main_v6)) (matAll (V c main_v7)) (matAll (V c main_v8))
          (row1 (V c main_v14)) (matAll (V c main_arg5)) (row1 (V c main_v15)) (matAll (V c main_arg7)) (row1 (V c main_v16))
          (row1 (V c main_v17)) (row1 (V c main_v18)) :=
  (dat0 (F := Ideal) V c).arrAt_eq_of_cover 19 _ (fun t _ => edgeOut_flushed V c t) edgeOut_cover

/-- The edge region's second output: every edge's message. -/
theorem edgeMessages (c : Dev nD) :
    (dat0 (F := Ideal) V c).arrAt 20 cfg0.N
      = messageF (V c main_v4) (V c main_v5) (V c main_arg2) (matAll (V c main_v6)) (matAll (V c main_v7)) (matAll (V c main_v8))
          (row1 (V c main_v14)) (matAll (V c main_arg5)) (row1 (V c main_v15)) (matAll (V c main_arg7)) (row1 (V c main_v16))
          (row1 (V c main_v17)) (row1 (V c main_v18))
          (matAll (V c main_v9)) (matAll (V c main_v10)) (matAll (V c main_v11)) (row1 (V c main_v19)) (row1 (V c main_v20))
          (V c main_v21 (ix2 (0 : Fin 1) (0 : Fin 1))) :=
  (dat0 (F := Ideal) V c).arrAt_eq_of_cover 20 _ (fun t _ => message_flushed V c t) message_cover

/-- The node region's output: every node's new features. -/
theorem nodeFeatures (c : Dev nD) :
    (dat1 (F := Ideal) V c).arrAt 11 cfg1.N
      = nodeOutF (V c main_arg0) (V c main_v30) (matAll (V c main_v12)) (matAll (V c main_v13)) (row1 (V c main_v22))
          (matAll (V c main_arg13)) (row1 (V c main_v23)) (matAll (V c main_arg15)) (row1 (V c main_v24)) (row1 (V c main_v25))
          (row1 (V c main_v26)) :=
  (dat1 (F := Ideal) V c).arrAt_eq_of_cover 11 _ (fun t _ => nodeOut_flushed V c t) nodeOut_cover

end Cert.KernelIdeal.RegionValues

end
-- ==== Proof.Take.lean ====
/-
  Taking rows of the node features at node indices.

  The kernel's program takes rows with a guard: it wraps a negative index by 50000, gathers, and then replaces the row
  by a fill word wherever the wrapped index is not in [0, 49999]. The reference wraps and gathers (a gather clamps its
  start index). When every index is a node index — a signed integer in [0, 50000) — no index is negative, so wrapping
  leaves it alone, the guard is 1 everywhere, and the guarded take IS the gather at the wrapped index column, the very
  term the reference has.
-/
import proofs.«423889_j55173149884914_1_alg».proof.Proof.Gen.KernelIdeal
import Idealize.ShloMosaic.PureOps.Ideal
import Idealize.ShloMosaic.Lib.ReduceAll
import Idealize.ShloMosaic.Lib.Affine
import Idealize.ShloMosaic.Lib.ValueIdx

noncomputable section

namespace Cert.KernelIdeal.Take

open Cert.KernelIdeal Cert.KernelIdeal.Gen Idealize.ShloMosaic Idealize.ShloMosaic.ValueIdx

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_ones f l fun n hn => h n (List.mem_cons_of_mem _ hn)

/-- An all-reduction by `and`, from 1, of an array of ones is 1. -/
theorem reduce_andi_ones {s t u : Shape} {axes : List (Fin s.rank)} (x : s.Idx → BitVec 1) (init : u.Idx → BitVec 1)
    (h : s.ReducesTo axes t) (hu : 0 < u.numel) (j : t.Idx) (hi : ∀ k, init k = 1#1) (hx : ∀ i, x i = 1#1) :
    Host.reduce IntOp.andi x init h hu j = 1#1 := by
  rw [Host.reduce_eq_foldl, hi]
  exact foldl_andi_ones x _ fun n _ => hx n

/-- The index column both programs gather at: a row of the edge list, negative entries wrapped by 50000, as a
    [500000,1] array. -/
def wrapIdx (d : IVec S500000 32) : IVec S500000x1 32 :=
  broadcastInDim S500000x1 ![0] bcast_S500000_S500000x1_0
    (select (cmpi .slt d (broadcastInDim S500000 ![] bcast_S_S500000 (constantI S_ 32 0#32)))
      (addi d (broadcastInDim S500000 ![] bcast_S_S500000 (constantI S_ 32 50000#32))) d)

/-- At a node index the wrapped entry is the entry. -/
theorem wrapIdx_apply (d : IVec S500000 32) (hd : ∀ e, 0 ≤ (d e).toInt ∧ (d e).toInt < 50000) (k : S500000x1.Idx) :
    0 ≤ (wrapIdx d k).toInt ∧ (wrapIdx d k).toInt ≤ 49999 := by
  have e : ∃ e, wrapIdx d k = Scalar.select (IntOp.cmpi .slt (d e) 0#32) (IntOp.addi (d e) 50000#32) (d e) := ⟨_, rfl⟩
  obtain ⟨e, he⟩ := e
  have hz : IntOp.cmpi .slt (d e) 0#32 = 0#1 := by
    refine eq_zero_of_ne_one fun h1 => ?_
    have := IntOp.cmpi_slt.1 h1
    have h0 : (0#32 : BitVec 32).toInt = 0 := by decide
    have := (hd e).1
    omega
  rw [he, hz, select_zero]
  have := hd e
  omega

/-- THE GUARDED TAKE IS THE GATHER, at node indices. -/
theorem take_eq_gather (x : FVec Ideal S50000x128 .f32) (d : IVec S500000 32) (hd : ∀ e, 0 ≤ (d e).toInt ∧ (d e).toInt < 50000) :
    select (broadcastInDim S500000x128 ![0] bcast_S500000_S500000x128_0
        (Host.reduce IntOp.andi
          (andi (cmpi .sge (wrapIdx d) (broadcastInDim S500000x1 ![] bcast_S_S500000x1 (constantI S_ 32 0#32)))
            (cmpi .sle (wrapIdx d) (broadcastInDim S500000x1 ![0, 1] bcast_S1x1_S500000x1_0_1
              (broadcastInDim S1x1 ![1] bcast_S1_S1x1_1 (constantI S1 32 49999#32)))))
          (constantI S_ 1 1#1) reducesTo_S500000x1_S500000_d1 h_S_))
      (Host.gather gather_S50000x128_S500000x1_S500000x128_1_0_n_n_0_1_1128 x (wrapIdx d))
      (broadcastInDim S500000x128 ![] bcast_S_S500000x128 (constant (F := Ideal) S_ .f32 0x7FC00000#32))
      = Host.gather gather_S50000x128_S500000x1_S500000x128_1_0_n_n_0_1_1128 x (wrapIdx d) := by
  funext i
  have hm : ∀ j : S500000.Idx, Host.reduce IntOp.andi
      (andi (cmpi .sge (wrapIdx d) (broadcastInDim S500000x1 ![] bcast_S_S500000x1 (constantI S_ 32 0#32)))
        (cmpi .sle (wrapIdx d) (broadcastInDim S500000x1 ![0, 1] bcast_S1x1_S500000x1_0_1
          (broadcastInDim S1x1 ![1] bcast_S1_S1x1_1 (constantI S1 32 49999#32)))))
      (constantI S_ 1 1#1) reducesTo_S500000x1_S500000_d1 h_S_ j = 1#1 := fun j =>
    reduce_andi_ones _ _ _ _ j (fun _ => rfl) fun k => by
      obtain ⟨h0, h1⟩ := wrapIdx_apply d hd k
      refine IntOp.andi_eq_one.2 ⟨IntOp.cmpi_sge.2 ?_, IntOp.cmpi_sle.2 ?_⟩
      · show (0#32 : BitVec 32).toInt ≤ (wrapIdx d k).toInt
        have : (0#32 : BitVec 32).toInt = 0 := by decide
        omega
      · show (wrapIdx d k).toInt ≤ (49999#32 : BitVec 32).toInt
        have : (49999#32 : BitVec 32).toInt = 49999 := by decide
        omega
  show Scalar.select (Host.reduce IntOp.andi _ _ reducesTo_S500000x1_S500000_d1 h_S_ _) _ _ = _
  rw [hm, select_one]

end Cert.KernelIdeal.Take

end
-- ==== Proof.Layout.lean ====
/-
  Slices and reshapes of the weight arrays, read through the spec's accessors.

  The kernel's program cuts each first-layer weight array into its 128-row parts before the region and stores every bias
  as a [1,128] array; the reference indexes the whole arrays. Rows o … o+127 of a weight array, sliced out, are the matrix
  `matAt W o`; a [128] bias reshaped to [1,128] is the same row; the gate's [128,1] output weights reshaped to [1,128]
  are that column as a row; its [1] bias reshaped to [1,1] is the same number.
-/
import proofs.«423889_j55173149884914_1_alg».proof.Proof.Arrays
import Idealize.ShloMosaic.Lib.Pipeline.Value
import Idealize.ShloMosaic.Lib.ValueLayout

noncomputable section

namespace Cert.MessagePassing

open Idealize.ShloMosaic Idealize.ShloMosaic.ValueIdx

/-- Rows `o … o+127` sliced out of a weight array. -/
theorem matAll_slice {n : Nat} (W : (⟨2, ![n, 128]⟩ : Shape).Idx → EReal) (o : Nat) (ho : o + 128 ≤ n)
    (h : (⟨2, ![n, 128]⟩ : Shape).Slices ![o, 0] ⟨2, ![128, 128]⟩) :
    matAll (extractStridedSlice ⟨2, ![128, 128]⟩ ![o, 0] W h) = matAt W o ho := by
  funext k j
  unfold matAll matAt
  exact extractStridedSlice_apply ![o, 0] W h (ix2 k j) (ix2 ⟨o + k.val, by omega⟩ j) (fun a => by
    match a with
    | ⟨0, _⟩ => rfl
    | ⟨1, _⟩ => show j.val = 0 + j.val; omega)

/-- A [128] bias stored as [1,128]. -/
theorem row1_reshape (b : (⟨1, ![128]⟩ : Shape).Idx → EReal) (h : (⟨1, ![128]⟩ : Shape).ShapeCasts ⟨2, ![1, 128]⟩) :
    row1 (shapeCast ⟨2, ![1, 128]⟩ b h) = vecOf b := by
  funext k
  unfold row1 vecOf
  exact shapeCast_apply b h (ix2 (0 : Fin 1) k) (ix1 k) (by
    rw [Shape.rowMajor_val_one, Shape.rowMajor_val_two]; show k.val = 0 * 128 + k.val; omega)

/-- The [128,1] output weights stored as [1,128]. -/
theorem row1_reshape_col (w : (⟨2, ![128, 1]⟩ : Shape).Idx → EReal) (h : (⟨2, ![128, 1]⟩ : Shape).ShapeCasts ⟨2, ![1, 128]⟩) :
    row1 (shapeCast ⟨2, ![1, 128]⟩ w h) = colOf w := by
  funext k
  unfold row1 colOf
  exact shapeCast_apply w h (ix2 (0 : Fin 1) k) (ix2 k (0 : Fin 1)) (by
    rw [Shape.rowMajor_val_two, Shape.rowMajor_val_two]; show k.val * 1 + 0 = 0 * 128 + k.val; omega)

/-- The [1] bias stored as [1,1]. -/
theorem reshape_one (b : (⟨1, ![1]⟩ : Shape).Idx → EReal) (h : (⟨1, ![1]⟩ : Shape).ShapeCasts ⟨2, ![1, 1]⟩) :
    shapeCast ⟨2, ![1, 1]⟩ b h (ix2 (0 : Fin 1) (0 : Fin 1)) = b (ix1 (0 : Fin 1)) :=
  shapeCast_apply b h (ix2 (0 : Fin 1) (0 : Fin 1)) (ix1 (0 : Fin 1)) (by
    rw [Shape.rowMajor_val_one, Shape.rowMajor_val_two]; show (0 : Nat) = 0 * 1 + 0; omega)

end Cert.MessagePassing

end
-- ==== Proof.KernelResults.lean ====
/-
  The kernel program's two results as functions of its inputs.

  Reading the last boundary's contents back through the two regions and the host stretches (NodeEntry, HostEntry), each
  region's output arrays being the whole-array mathematics of the arrays it finds (RegionValues): with every entry of the
  edge list a node index, the new edge features are `edgeOutF` of the gathered receiver rows, the gathered sender rows and
  the edge features, over the edge perceptron's weights read out of the launch arrays; and the new node features are
  `nodeOutF` of the node features and the scatter-added messages `messageF`, over the node perceptron's weights.
-/
import proofs.«423889_j55173149884914_1_alg».proof.Proof.HostEntry
import proofs.«423889_j55173149884914_1_alg».proof.Proof.NodeEntry
import proofs.«423889_j55173149884914_1_alg».proof.Proof.RegionValues
import proofs.«423889_j55173149884914_1_alg».proof.Proof.Take
import proofs.«423889_j55173149884914_1_alg».proof.Proof.Layout

set_option maxRecDepth 16384

noncomputable section

namespace Cert.KernelIdeal.Results

open Cert.KernelIdeal Cert.KernelIdeal.Gen Cert.MessagePassing Idealize.ShloMosaic Idealize.ShloMosaic.TcCoe Idealize.ShloMosaic.ValueIdx Idealize.SL.Sem

variable (m : (ℓ : Loc nD τ sig) → Buf (Elt Ideal) ℓ) (ρ : Dev nD → PrngReg)

/-- The receivers' rows and the senders' rows of the node features: the gather at the edge list's wrapped rows. -/
def recvRows (c : Dev nD) : FVec Ideal S500000x128 .f32 :=
  Host.gather gather_S50000x128_S500000x1_S500000x128_1_0_n_n_0_1_1128 (m ((c : Thread nD τ).loc main_arg0)) (Take.wrapIdx (HostEntry.recvRow m c))
def sendRows (c : Dev nD) : FVec Ideal S500000x128 .f32 :=
  Host.gather gather_S50000x128_S500000x1_S500000x128_1_0_n_n_0_1_1128 (m ((c : Thread nD τ).loc main_arg0)) (Take.wrapIdx (HostEntry.sendRow m c))

/-- Every entry of the edge list is a node index. -/
def NodeIndices (c : Dev nD) : Prop := ∀ i : S2x500000.Idx, 0 ≤ ((m ((c : Thread nD τ).loc main_arg1)) i).toInt ∧ ((m ((c : Thread nD τ).loc main_arg1)) i).toInt < 50000

theorem recvRow_range (c : Dev nD) (hr : NodeIndices m c) (e : S500000.Idx) :
    0 ≤ (HostEntry.recvRow m c e).toInt ∧ (HostEntry.recvRow m c e).toInt < 50000 := hr _
theorem sendRow_range (c : Dev nD) (hr : NodeIndices m c) (e : S500000.Idx) :
    0 ≤ (HostEntry.sendRow m c e).toInt ∧ (HostEntry.sendRow m c e).toInt < 50000 := hr _

theorem entry_recvRows (c : Dev nD) (hr : NodeIndices m c) : V4 m ρ c main_v4 = recvRows m c :=
  (HostEntry.entry_recvRows m ρ c).trans (Take.take_eq_gather _ _ (recvRow_range m c hr))
theorem entry_sendRows (c : Dev nD) (hr : NodeIndices m c) : V4 m ρ c main_v5 = sendRows m c :=
  (HostEntry.entry_sendRows m ρ c).trans (Take.take_eq_gather _ _ (sendRow_range m c hr))

/-- The messages, all edges. -/
def messages (c : Dev nD) : FVec Ideal S500000x128 .f32 :=
  messageF (recvRows m c) (sendRows m c) (m ((c : Thread nD τ).loc main_arg2))
          (matAt (m ((c : Thread nD τ).loc main_arg3)) 0 (by decide)) (matAt (m ((c : Thread nD τ).loc main_arg3)) 128 (by decide)) (matAt (m ((c : Thread nD τ).loc main_arg3)) 256 (by decide)) (vecOf (m ((c : Thread nD τ).loc main_arg4))) (matAll (m ((c : Thread nD τ).loc main_arg5)))
          (vecOf (m ((c : Thread nD τ).loc main_arg6))) (matAll (m ((c : Thread nD τ).loc main_arg7))) (vecOf (m ((c : Thread nD τ).loc main_arg8))) (vecOf (m ((c : Thread nD τ).loc main_arg9))) (vecOf (m ((c : Thread nD τ).loc main_arg10)))
          (matAt (m ((c : Thread nD τ).loc main_arg19)) 0 (by decide)) (matAt (m ((c : Thread nD τ).loc main_arg19)) 128 (by decide)) (matAt (m ((c : Thread nD τ).loc main_arg19)) 256 (by decide)) (vecOf (m ((c : Thread nD τ).loc main_arg20)))
          (colOf (m ((c : Thread nD τ).loc main_arg21))) ((m ((c : Thread nD τ).loc main_arg22)) (ix1 (0 : Fin 1)))

/-- The messages summed into their receivers' rows. -/
def summed (c : Dev nD) : FVec Ideal S50000x128 .f32 :=
  Host.scatterAdd scatter_S50000x128_S500000x1_S500000x128_1_0_0_1
    (broadcastInDim S50000x128 ![] bcast_S_S50000x128 (constant (F := Ideal) S_ .f32 0x00000000#32))
    (broadcastInDim S500000x1 ![0] bcast_S500000_S500000x1_0 (HostEntry.recvRow m c))
    (messages m c)

/-! ## Equal arguments give equal arrays -/

theorem edgeOutF_congr {XI XI' XJ XJ' EA EA' : (⟨2, ![500000, 128]⟩ : Shape).Idx → EReal} {Wa Wa' Wb Wb' Wc Wc' W₁ W₁' W₂ W₂' : Mat}
    {b₀ b₀' b₁ b₁' b₂ b₂' g g' β β' : Row}
    (h1 : XI = XI') (h2 : XJ = XJ') (h3 : EA = EA') (h4 : Wa = Wa') (h5 : Wb = Wb') (h6 : Wc = Wc') (h7 : b₀ = b₀')
    (h8 : W₁ = W₁') (h9 : b₁ = b₁') (h10 : W₂ = W₂') (h11 : b₂ = b₂') (h12 : g = g') (h13 : β = β') :
    edgeOutF XI XJ EA Wa Wb Wc b₀ W₁ b₁ W₂ b₂ g β = edgeOutF XI' XJ' EA' Wa' Wb' Wc' b₀' W₁' b₁' W₂' b₂' g' β' := by
  subst h1 h2 h3 h4 h5 h6 h7 h8 h9 h10 h11 h12 h13; rfl

theorem messageF_congr {XI XI' XJ XJ' EA EA' : (⟨2, ![500000, 128]⟩ : Shape).Idx → EReal} {Wa Wa' Wb Wb' Wc Wc' W₁ W₁' W₂ W₂' Ga Ga' Gb Gb' Gc Gc' : Mat}
    {b₀ b₀' b₁ b₁' b₂ b₂' g g' β β' d₀ d₀' w w' : Row} {d₁ d₁' : EReal}
    (h1 : XI = XI') (h2 : XJ = XJ') (h3 : EA = EA') (h4 : Wa = Wa') (h5 : Wb = Wb') (h6 : Wc = Wc') (h7 : b₀ = b₀')
    (h8 : W₁ = W₁') (h9 : b₁ = b₁') (h10 : W₂ = W₂') (h11 : b₂ = b₂') (h12 : g = g') (h13 : β = β')
    (h14 : Ga = Ga') (h15 : Gb = Gb') (h16 : Gc = Gc') (h17 : d₀ = d₀') (h18 : w = w') (h19 : d₁ = d₁') :
    messageF XI XJ EA Wa Wb Wc b₀ W₁ b₁ W₂ b₂ g β Ga Gb Gc d₀ w d₁
      = messageF XI' XJ' EA' Wa' Wb' Wc' b₀' W₁' b₁' W₂' b₂' g' β' Ga' Gb' Gc' d₀' w' d₁' := by
  subst h1 h2 h3 h4 h5 h6 h7 h8 h9 h10 h11 h12 h13 h14 h15 h16 h17 h18 h19; rfl

theorem nodeOutF_congr {X X' AG AG' : (⟨2, ![50000, 128]⟩ : Shape).Idx → EReal} {Wx Wx' WA WA' W₁ W₁' W₂ W₂' : Mat} {b₀ b₀' b₁ b₁' b₂ b₂' g g' β β' : Row}
    (h1 : X = X') (h2 : AG = AG') (h3 : Wx = Wx') (h4 : WA = WA') (h5 : b₀ = b₀') (h6 : W₁ = W₁') (h7 : b₁ = b₁')
    (h8 : W₂ = W₂') (h9 : b₂ = b₂') (h10 : g = g') (h11 : β = β') :
    nodeOutF X AG Wx WA b₀ W₁ b₁ W₂ b₂ g β = nodeOutF X' AG' Wx' WA' b₀' W₁' b₁' W₂' b₂' g' β' := by
  subst h1 h2 h3 h4 h5 h6 h7 h8 h9 h10 h11; rfl

/-- THE NEW EDGE FEATURES. -/
theorem edges (c : Dev nD) (hr : NodeIndices m c) :
    W7 m ρ c (Proc.devRef .tc main_v27_0)
      = edgeOutF (recvRows m c) (sendRows m c) (m ((c : Thread nD τ).loc main_arg2))
          (matAt (m ((c : Thread nD τ).loc main_arg3)) 0 (by decide)) (matAt (m ((c : Thread nD τ).loc main_arg3)) 128 (by decide)) (matAt (m ((c : Thread nD τ).loc main_arg3)) 256 (by decide)) (vecOf (m ((c : Thread nD τ).loc main_arg4))) (matAll (m ((c : Thread nD τ).loc main_arg5)))
          (vecOf (m ((c : Thread nD τ).loc main_arg6))) (matAll (m ((c : Thread nD τ).loc main_arg7))) (vecOf (m ((c : Thread nD τ).loc main_arg8))) (vecOf (m ((c : Thread nD τ).loc main_arg9))) (vecOf (m ((c : Thread nD τ).loc main_arg10))) :=
  (NodeEntry.result_edges m ρ c).trans <| (RegionValues.edgeFeatures (V4 m ρ) c).trans <|
    edgeOutF_congr (entry_recvRows m ρ c hr) (entry_sendRows m ρ c hr) (HostEntry.entry_edgeAttr m ρ c)
      ((congrArg matAll (HostEntry.entry_w0a m ρ c)).trans (matAll_slice _ 0 (by decide) _))
      ((congrArg matAll (HostEntry.entry_w0b m ρ c)).trans (matAll_slice _ 128 (by decide) _))
      ((congrArg matAll (HostEntry.entry_w0c m ρ c)).trans (matAll_slice _ 256 (by decide) _))
      ((congrArg row1 (HostEntry.entry_b0 m ρ c)).trans (row1_reshape _ _))
      (congrArg matAll (HostEntry.entry_w1 m ρ c))
      ((congrArg row1 (HostEntry.entry_b1 m ρ c)).trans (row1_reshape _ _))
      (congrArg matAll (HostEntry.entry_w2 m ρ c))
      ((congrArg row1 (HostEntry.entry_b2 m ρ c)).trans (row1_reshape _ _))
      ((congrArg row1 (HostEntry.entry_gain m ρ c)).trans (row1_reshape _ _))
      ((congrArg row1 (HostEntry.entry_offset m ρ c)).trans (row1_reshape _ _))

/-- The edge region's messages. -/
theorem messages_eq (c : Dev nD) (hr : NodeIndices m c) : (dat0 (V4 m ρ) c).arrAt 20 cfg0.N = messages m c :=
  (RegionValues.edgeMessages (V4 m ρ) c).trans <|
    messageF_congr (entry_recvRows m ρ c hr) (entry_sendRows m ρ c hr) (HostEntry.entry_edgeAttr m ρ c)
      ((congrArg matAll (HostEntry.entry_w0a m ρ c)).trans (matAll_slice _ 0 (by decide) _))
      ((congrArg matAll (HostEntry.entry_w0b m ρ c)).trans (matAll_slice _ 128 (by decide) _))
      ((congrArg matAll (HostEntry.entry_w0c m ρ c)).trans (matAll_slice _ 256 (by decide) _))
      ((congrArg row1 (HostEntry.entry_b0 m ρ c)).trans (row1_reshape _ _))
      (congrArg matAll (HostEntry.entry_w1 m ρ c))
      ((congrArg row1 (HostEntry.entry_b1 m ρ c)).trans (row1_reshape _ _))
      (congrArg matAll (HostEntry.entry_w2 m ρ c))
      ((congrArg row1 (HostEntry.entry_b2 m ρ c)).trans (row1_reshape _ _))
      ((congrArg row1 (HostEntry.entry_gain m ρ c)).trans (row1_reshape _ _))
      ((congrArg row1 (HostEntry.entry_offset m ρ c)).trans (row1_reshape _ _))
      ((congrArg matAll (HostEntry.entry_g0a m ρ c)).trans (matAll_slice _ 0 (by decide) _))
      ((congrArg matAll (HostEntry.entry_g0b m ρ c)).trans (matAll_slice _ 128 (by decide) _))
      ((congrArg matAll (HostEntry.entry_g0c m ρ c)).trans (matAll_slice _ 256 (by decide) _))
      ((congrArg row1 (HostEntry.entry_d0 m ρ c)).trans (row1_reshape _ _))
      ((congrArg row1 (HostEntry.entry_gw1 m ρ c)).trans (row1_reshape_col _ _))
      ((congrFun (HostEntry.entry_d1 m ρ c) (ix2 (0 : Fin 1) (0 : Fin 1))).trans (reshape_one _ _))

/-- The summed messages, as the node region finds them. -/
theorem summed_eq (c : Dev nD) (hr : NodeIndices m c) : V6 m ρ c main_v30 = summed m c := by
  rw [NodeEntry.entry_aggr, messages_eq m ρ c hr]
  rfl

/-- THE NEW NODE FEATURES. -/
theorem nodes (c : Dev nD) (hr : NodeIndices m c) :
    W7 m ρ c (Proc.devRef .tc main_v31)
      = nodeOutF (m ((c : Thread nD τ).loc main_arg0)) (summed m c) (matAt (m ((c : Thread nD τ).loc main_arg11)) 0 (by decide)) (matAt (m ((c : Thread nD τ).loc main_arg11)) 128 (by decide)) (vecOf (m ((c : Thread nD τ).loc main_arg12)))
          (matAll (m ((c : Thread nD τ).loc main_arg13))) (vecOf (m ((c : Thread nD τ).loc main_arg14))) (matAll (m ((c : Thread nD τ).loc main_arg15))) (vecOf (m ((c : Thread nD τ).loc main_arg16))) (vecOf (m ((c : Thread nD τ).loc main_arg17))) (vecOf (m ((c : Thread nD τ).loc main_arg18))) :=
  (NodeEntry.result_nodes m ρ c).trans <| (RegionValues.nodeFeatures (V6 m ρ) c).trans <|
    nodeOutF_congr (NodeEntry.entry_x m ρ c) (summed_eq m ρ c hr)
      ((congrArg matAll (NodeEntry.entry_w0x m ρ c)).trans (matAll_slice _ 0 (by decide) _))
      ((congrArg matAll (NodeEntry.entry_w0a m ρ c)).trans (matAll_slice _ 128 (by decide) _))
      ((congrArg row1 (NodeEntry.entry_b0 m ρ c)).trans (row1_reshape _ _))
      (congrArg matAll (NodeEntry.entry_w1 m ρ c))
      ((congrArg row1 (NodeEntry.entry_b1 m ρ c)).trans (row1_reshape _ _))
      (congrArg matAll (NodeEntry.entry_w2 m ρ c))
      ((congrArg row1 (NodeEntry.entry_b2 m ρ c)).trans (row1_reshape _ _))
      ((congrArg row1 (NodeEntry.entry_gain m ρ c)).trans (row1_reshape _ _))
      ((congrArg row1 (NodeEntry.entry_offset m ρ c)).trans (row1_reshape _ _))

end Cert.KernelIdeal.Results

end
-- ==== Proof.Concat.lean ====
/-
  A concatenation along the feature axis, read at a feature.

  Three [n,128] arrays laid side by side give an [n,384] array whose feature `f` of row `e` is the first array's feature
  `f` when f < 128, the second's feature f − 128 when 128 ≤ f < 256, the third's feature f − 256 from 256 on; two arrays
  side by side likewise over 256 features.
-/
import proofs.«423889_j55173149884914_1_alg».proof.Proof.Arrays
import Idealize.ShloMosaic.Lib.Pipeline.Value

noncomputable section

namespace Cert.MessagePassing

open Idealize.ShloMosaic Idealize.ShloMosaic.ValueIdx

variable {α : Type} {n : Nat}

/-- Feature `k` of three arrays side by side is the first array's feature `k`. -/
theorem concat3_at0 (a b c : (⟨2, ![n, 128]⟩ : Shape).Idx → α)
    (h : Shape.Concatenates (([⟨⟨2, ![n, 128]⟩, a⟩, ⟨⟨2, ![n, 128]⟩, b⟩, ⟨⟨2, ![n, 128]⟩, c⟩] : List ((s : Shape) × (s.Idx → α))).map (·.1)) ⟨2, ![n, 384]⟩ 1)
    (e : Fin n) (k : Fin 128) :
    concatenate ⟨2, ![n, 384]⟩ 1 [⟨⟨2, ![n, 128]⟩, a⟩, ⟨⟨2, ![n, 128]⟩, b⟩, ⟨⟨2, ![n, 128]⟩, c⟩] h (ix2 e ⟨k.val, by omega⟩) = a (ix2 e k) := by
  refine concatenate_apply_piece (t := ⟨2, ![n, 384]⟩) 1 _ h (ix2 e ⟨k.val, by omega⟩) 0 (by simp) ⟨2, ![n, 128]⟩ a rfl rfl 0 ?_ (ix2 e k) ?_ ?_
  · rfl
  · intro d hd
    match d with
    | ⟨0, _⟩ => rfl
    | ⟨1, _⟩ => exact absurd rfl hd
  · exact Nat.zero_add _
/-- Feature `128 + k` of three arrays side by side is the second array's feature `k`: one piece of extent 128 lies before it. -/
theorem concat3_at1 (a b c : (⟨2, ![n, 128]⟩ : Shape).Idx → α)
    (h : Shape.Concatenates (([⟨⟨2, ![n, 128]⟩, a⟩, ⟨⟨2, ![n, 128]⟩, b⟩, ⟨⟨2, ![n, 128]⟩, c⟩] : List ((s : Shape) × (s.Idx → α))).map (·.1)) ⟨2, ![n, 384]⟩ 1)
    (e : Fin n) (k : Fin 128) :
    concatenate ⟨2, ![n, 384]⟩ 1 [⟨⟨2, ![n, 128]⟩, a⟩, ⟨⟨2, ![n, 128]⟩, b⟩, ⟨⟨2, ![n, 128]⟩, c⟩] h (ix2 e ⟨128 + k.val, by omega⟩) = b (ix2 e k) := by
  refine concatenate_apply_piece (t := ⟨2, ![n, 384]⟩) 1 _ h (ix2 e ⟨128 + k.val, by omega⟩) 1 (by simp) ⟨2, ![n, 128]⟩ b rfl rfl 128 ?_ (ix2 e k) ?_ ?_
  · rfl
  · intro d hd
    match d with
    | ⟨0, _⟩ => rfl
    | ⟨1, _⟩ => exact absurd rfl hd
  · rfl
/-- Feature `256 + k` of three arrays side by side is the third array's feature `k`: two pieces of extent 128 lie before it. -/
theorem concat3_at2 (a b c : (⟨2, ![n, 128]⟩ : Shape).Idx → α)
    (h : Shape.Concatenates (([⟨⟨2, ![n, 128]⟩, a⟩, ⟨⟨2, ![n, 128]⟩, b⟩, ⟨⟨2, ![n, 128]⟩, c⟩] : List ((s : Shape) × (s.Idx → α))).map (·.1)) ⟨2, ![n, 384]⟩ 1)
    (e : Fin n) (k : Fin 128) :
    concatenate ⟨2, ![n, 384]⟩ 1 [⟨⟨2, ![n, 128]⟩, a⟩, ⟨⟨2, ![n, 128]⟩, b⟩, ⟨⟨2, ![n, 128]⟩, c⟩] h (ix2 e ⟨256 + k.val, by omega⟩) = c (ix2 e k) := by
  refine concatenate_apply_piece (t := ⟨2, ![n, 384]⟩) 1 _ h (ix2 e ⟨256 + k.val, by omega⟩) 2 (by simp) ⟨2, ![n, 128]⟩ c rfl rfl 256 ?_ (ix2 e k) ?_ ?_
  · rfl
  · intro d hd
    match d with
    | ⟨0, _⟩ => rfl
    | ⟨1, _⟩ => exact absurd rfl hd
  · rfl

/-- Feature `k` of two arrays side by side is the first array's feature `k`. -/
theorem concat2_at0 (a b : (⟨2, ![n, 128]⟩ : Shape).Idx → α)
    (h : Shape.Concatenates (([⟨⟨2, ![n, 128]⟩, a⟩, ⟨⟨2, ![n, 128]⟩, b⟩] : List ((s : Shape) × (s.Idx → α))).map (·.1)) ⟨2, ![n, 256]⟩ 1)
    (e : Fin n) (k : Fin 128) :
    concatenate ⟨2, ![n, 256]⟩ 1 [⟨⟨2, ![n, 128]⟩, a⟩, ⟨⟨2, ![n, 128]⟩, b⟩] h (ix2 e ⟨k.val, by omega⟩) = a (ix2 e k) := by
  refine concatenate_apply_piece (t := ⟨2, ![n, 256]⟩) 1 _ h (ix2 e ⟨k.val, by omega⟩) 0 (by simp) ⟨2, ![n, 128]⟩ a rfl rfl 0 ?_ (ix2 e k) ?_ ?_
  · rfl
  · intro d hd
    match d with
    | ⟨0, _⟩ => rfl
    | ⟨1, _⟩ => exact absurd rfl hd
  · exact Nat.zero_add _
/-- Feature `128 + k` of two arrays side by side is the second array's feature `k`. -/
theorem concat2_at1 (a b : (⟨2, ![n, 128]⟩ : Shape).Idx → α)
    (h : Shape.Concatenates (([⟨⟨2, ![n, 128]⟩, a⟩, ⟨⟨2, ![n, 128]⟩, b⟩] : List ((s : Shape) × (s.Idx → α))).map (·.1)) ⟨2, ![n, 256]⟩ 1)
    (e : Fin n) (k : Fin 128) :
    concatenate ⟨2, ![n, 256]⟩ 1 [⟨⟨2, ![n, 128]⟩, a⟩, ⟨⟨2, ![n, 128]⟩, b⟩] h (ix2 e ⟨128 + k.val, by omega⟩) = b (ix2 e k) := by
  refine concatenate_apply_piece (t := ⟨2, ![n, 256]⟩) 1 _ h (ix2 e ⟨128 + k.val, by omega⟩) 1 (by simp) ⟨2, ![n, 128]⟩ b rfl rfl 128 ?_ (ix2 e k) ?_ ?_
  · rfl
  · intro d hd
    match d with
    | ⟨0, _⟩ => rfl
    | ⟨1, _⟩ => exact absurd rfl hd
  · rfl

end Cert.MessagePassing

end
-- ==== Proof.RefEdge.lean ====
/-
  The reference's edge half, read at an edge `e` and a feature `q`.

  The reference concatenates the receiver's row, the sender's row and the edge's own row into 384 features and applies
  the edge perceptron and the gate to that row. Its first layers are products over the 384 concatenated features: each
  is the sum of the three parts' 128-feature products (`sum_concat3`), the concatenation read at a feature below 128,
  between 128 and 255, from 256 on being the first, second, third part at that feature less 0, 128, 256. After that every
  operation is the row-level mathematics, one operation at a time.
-/
import proofs.«423889_j55173149884914_1_alg».proof.Proof.Gen.ReferenceIdeal.Read
import proofs.«423889_j55173149884914_1_alg».proof.Proof.Arrays
import proofs.«423889_j55173149884914_1_alg».proof.Proof.Concat
import Idealize.ShloMosaic.Lib.Pipeline.Value
import Idealize.ShloMosaic.Lib.ValueIdx

noncomputable section

namespace Cert.ReferenceIdeal.RefEdge

open Cert.ReferenceIdeal Cert.ReferenceIdeal.Gen Cert.ReferenceIdeal.Read Cert.MessagePassing Idealize.ShloMosaic Idealize.ShloMosaic.ValueIdx

/-! ## The operations' index maps at a pair of coordinates

Each layout operation of the reference reads its operand at an index computed from the result's index. At edge `e` and
feature `q`: a per-feature row laid over all edges is read at `q`; a per-edge column laid over all features is read at
`e`; a product's left operand is read at (e, k) and its right operand at (k, q) for the contracted coordinate `k`; a row
sum of edge `e` runs over (e, k). -/

section Indices
variable (e : Fin 500000) (q : Fin 128)

private theorem li19 (k : Fin 384) : lidx_main_v19 (ix2 e q) k = ix2 e k :=
  funext fun a => by match a with | ⟨0, _⟩ => rfl | ⟨1, _⟩ => rfl
private theorem ri19 (k : Fin 384) : ridx_main_v19 (ix2 e q) k = ix2 k q :=
  funext fun a => by match a with | ⟨0, _⟩ => rfl | ⟨1, _⟩ => rfl
private theorem i21 : idx_main_v21 (ix2 e q) = ix2 (0 : Fin 1) q :=
  funext fun a => by match a with | ⟨0, _⟩ => rfl | ⟨1, _⟩ => rfl
private theorem i20 : idx_main_v20 (ix2 (0 : Fin 1) q) = ix1 q :=
  funext fun a => by match a with | ⟨0, _⟩ => rfl
private theorem li24 (k : Fin 128) : lidx_main_v24 (ix2 e q) k = ix2 e k :=
  funext fun a => by match a with | ⟨0, _⟩ => rfl | ⟨1, _⟩ => rfl
private theorem ri24 (k : Fin 128) : ridx_main_v24 (ix2 e q) k = ix2 k q :=
  funext fun a => by match a with | ⟨0, _⟩ => rfl | ⟨1, _⟩ => rfl
private theorem i26 : idx_main_v26 (ix2 e q) = ix2 (0 : Fin 1) q :=
  funext fun a => by match a with | ⟨0, _⟩ => rfl | ⟨1, _⟩ => rfl
private theorem i25 : idx_main_v25 (ix2 (0 : Fin 1) q) = ix1 q :=
  funext fun a => by match a with | ⟨0, _⟩ => rfl
private theorem li29 (k : Fin 128) : lidx_main_v29 (ix2 e q) k = ix2 e k :=
  funext fun a => by match a with | ⟨0, _⟩ => rfl | ⟨1, _⟩ => rfl
private theorem ri29 (k : Fin 128) : ridx_main_v29 (ix2 e q) k = ix2 k q :=
  funext fun a => by match a with | ⟨0, _⟩ => rfl | ⟨1, _⟩ => rfl
private theorem i31 : idx_main_v31 (ix2 e q) = ix2 (0 : Fin 1) q :=
  funext fun a => by match a with | ⟨0, _⟩ => rfl | ⟨1, _⟩ => rfl
private theorem i30 : idx_main_v30 (ix2 (0 : Fin 1) q) = ix1 q :=
  funext fun a => by match a with | ⟨0, _⟩ => rfl
private theorem i33 (k : Fin 128) : idx_main_v33 (ix1 e) k = ix2 e k :=
  funext fun a => by match a with | ⟨0, _⟩ => rfl | ⟨1, _⟩ => rfl
private theorem i34 : idx_main_v34 (ix2 e (0 : Fin 1)) = ix1 e :=
  funext fun a => by match a with | ⟨0, _⟩ => rfl
private theorem i37 : idx_main_v37 (ix2 e q) = ix2 e (0 : Fin 1) :=
  funext fun a => by match a with | ⟨0, _⟩ => rfl | ⟨1, _⟩ => rfl
private theorem i40 (k : Fin 128) : idx_main_v40 (ix1 e) k = ix2 e k :=
  funext fun a => by match a with | ⟨0, _⟩ => rfl | ⟨1, _⟩ => rfl
private theorem i41 : idx_main_v41 (ix2 e (0 : Fin 1)) = ix1 e :=
  funext fun a => by match a with | ⟨0, _⟩ => rfl
private theorem i44 : idx_main_v44 (ix2 e q) = ix2 e (0 : Fin 1) :=
  funext fun a => by match a with | ⟨0, _⟩ => rfl | ⟨1, _⟩ => rfl
private theorem i49 : idx_main_v49 (ix2 e q) = ix2 e (0 : Fin 1) :=
  funext fun a => by match a with | ⟨0, _⟩ => rfl | ⟨1, _⟩ => rfl
private theorem i52 : idx_main_v52 (ix2 e q) = ix2 (0 : Fin 1) q :=
  funext fun a => by match a with | ⟨0, _⟩ => rfl | ⟨1, _⟩ => rfl
private theorem i51 : idx_main_v51 (ix2 (0 : Fin 1) q) = ix1 q :=
  funext fun a => by match a with | ⟨0, _⟩ => rfl
private theorem i55 : idx_main_v55 (ix2 e q) = ix2 (0 : Fin 1) q :=
  funext fun a => by match a with | ⟨0, _⟩ => rfl | ⟨1, _⟩ => rfl
private theorem i54 : idx_main_v54 (ix2 (0 : Fin 1) q) = ix1 q :=
  funext fun a => by match a with | ⟨0, _⟩ => rfl

end Indices

/-! ## The perceptron, layer by layer -/

/-- The first layer before its rectifier, at edge `e`, coordinate `k`: the product over the 384 concatenated features is
    the sum of the three parts' products (`sum_concat3`), the concatenation read in its first, second, third part being
    the receiver's, the sender's, the edge's own row; the three parts of the weight array are its rows from 0, 128, 256. -/
private theorem layer1_ref (x0 : (⟨S50000x128, .f32⟩ : BufTy).Contents (Elt Ideal)) (x1 : (⟨S2x500000, .i32⟩ : BufTy).Contents (Elt Ideal)) (x2 : (⟨S500000x128, .f32⟩ : BufTy).Contents (Elt Ideal))
    (x3 : (⟨S384x128, .f32⟩ : BufTy).Contents (Elt Ideal)) (x4 : (⟨S128, .f32⟩ : BufTy).Contents (Elt Ideal)) (e : Fin 500000) (k : Fin 128) :
    val_main_v22 (F := Ideal) x0 x1 x2 x3 x4 (ix2 e k)
      = pre3 (rowOf (val_main_v10 (F := Ideal) x0 x1) e) (rowOf (val_main_v17 (F := Ideal) x0 x1) e) (rowOf x2 e)
          (matAt x3 0 (by decide)) (matAt x3 128 (by decide)) (matAt x3 256 (by decide)) (vecOf x4) k := by
  simp only [val_main_v22_apply, val_main_v21_apply, val_main_v20_apply, val_main_v19_apply, i21, i20, li19, ri19]
  rw [sum_concat3]
  unfold val_main_v18
  have c0 := fun j : Fin 128 => concat3_at0 (val_main_v10 (F := Ideal) x0 x1) (val_main_v17 (F := Ideal) x0 x1) x2
    concatenates_S500000x128_S500000x128_S500000x128_S500000x384_d1 e j
  have c1 := fun j : Fin 128 => concat3_at1 (val_main_v10 (F := Ideal) x0 x1) (val_main_v17 (F := Ideal) x0 x1) x2
    concatenates_S500000x128_S500000x128_S500000x128_S500000x384_d1 e j
  have c2 := fun j : Fin 128 => concat3_at2 (val_main_v10 (F := Ideal) x0 x1) (val_main_v17 (F := Ideal) x0 x1) x2
    concatenates_S500000x128_S500000x128_S500000x128_S500000x384_d1 e j
  simp only [c0, c1, c2]
  unfold pre3 dot rowOf matAt vecOf
  simp only [Nat.zero_add]
  rfl

/-- The second layer before its rectifier: the rectified first layer times the second matrix, plus the second bias. -/
private theorem layer2_ref (x0 : (⟨S50000x128, .f32⟩ : BufTy).Contents (Elt Ideal)) (x1 : (⟨S2x500000, .i32⟩ : BufTy).Contents (Elt Ideal)) (x2 : (⟨S500000x128, .f32⟩ : BufTy).Contents (Elt Ideal))
    (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (e : Fin 500000) (k : Fin 128) :
    val_main_v27 (F := Ideal) x0 x1 x2 x3 x4 x5 x6 (ix2 e k)
      = dot (fun k' => relu (pre3 (rowOf (val_main_v10 (F := Ideal) x0 x1) e) (rowOf (val_main_v17 (F := Ideal) x0 x1) e) (rowOf x2 e)
          (matAt x3 0 (by decide)) (matAt x3 128 (by decide)) (matAt x3 256 (by decide)) (vecOf x4) k')) (matAll x5) k + vecOf x6 k := by
  simp only [val_main_v27_apply, val_main_v26_apply, val_main_v25_apply, val_main_v24_apply, val_main_v23_apply,
    val_main_call0_v0_apply, val_main_call0_cst_apply, i26, i25, li24, ri24, layer1_ref]
  rfl

/-- The third layer: the rectified second layer times the third matrix, plus the third bias. -/
private theorem layer3_ref (x0 : (⟨S50000x128, .f32⟩ : BufTy).Contents (Elt Ideal)) (x1 : (⟨S2x500000, .i32⟩ : BufTy).Contents (Elt Ideal)) (x2 : (⟨S500000x128, .f32⟩ : BufTy).Contents (Elt Ideal))
    (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (e : Fin 500000) (j : Fin 128) :
    val_main_v32 (F := Ideal) x0 x1 x2 x3 x4 x5 x6 x7 x8 (ix2 e j)
      = dot (fun k => relu (dot (fun k' => relu (pre3 (rowOf (val_main_v10 (F := Ideal) x0 x1) e) (rowOf (val_main_v17 (F := Ideal) x0 x1) e) (rowOf x2 e)
          (matAt x3 0 (by decide)) (matAt x3 128 (by decide)) (matAt x3 256 (by decide)) (vecOf x4) k')) (matAll x5) k + vecOf x6 k)) (matAll x7) j + vecOf x8 j := by
  simp only [val_main_v32_apply, val_main_v31_apply, val_main_v30_apply, val_main_v29_apply, val_main_v28_apply,
    val_main_call1_v0_apply, val_main_call1_cst_apply, i31, i30, li29, ri29, layer2_ref]
  rfl

/-- The normalisation of edge `e`'s row of the third layer, whatever that row `h` is: the two row sums start from the zero
    word, which is 0; the mean and the reciprocal square root are per edge, the gain and the offset per feature. -/
private theorem norm_ref (x0 : (⟨S50000x128, .f32⟩ : BufTy).Contents (Elt Ideal)) (x1 : (⟨S2x500000, .i32⟩ : BufTy).Contents (Elt Ideal)) (x2 : (⟨S500000x128, .f32⟩ : BufTy).Contents (Elt Ideal))
    (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 x9 x10 : (⟨S128, .f32⟩ : BufTy).Contents (Elt Ideal)) (e : Fin 500000) (q : Fin 128)
    (h : Row) (hh : ∀ j : Fin 128, val_main_v32 (F := Ideal) x0 x1 x2 x3 x4 x5 x6 x7 x8 (ix2 e j) = h j) :
    val_main_v56 (F := Ideal) x0 x1 x2 x3 x4 x5 x6 x7 x8 x9 x10 (ix2 e q) = lnorm h (vecOf x9) (vecOf x10) q := by
  simp only [val_main_v56_apply, val_main_v55_apply, val_main_v54_apply, val_main_v53_apply, val_main_v52_apply, val_main_v51_apply,
    val_main_v50_apply, val_main_v49_apply, val_main_v48_apply, val_main_v47_apply, val_main_v46_apply, val_main_cst_6_apply,
    val_main_v45_apply, val_main_v44_apply, val_main_v43_apply, val_main_v42_apply, val_main_cst_5_apply, val_main_v41_apply,
    val_main_v40_apply, val_main_cst_4_apply, val_main_v39_apply, val_main_v38_apply, val_main_v37_apply, val_main_v36_apply,
    val_main_v35_apply, val_main_cst_3_apply, val_main_v34_apply, val_main_v33_apply, val_main_cst_apply,
    i55, i54, i52, i51, i49, i44, i37, i41, i34, i40, i33, hh]
  simp only [Ideal.ofBits_def, Ideal.ofBits_zero_f32, zero_add]
  rfl

/-- The edge update of edge `e`. -/
theorem eNew_ref (x0 : (⟨S50000x128, .f32⟩ : BufTy).Contents (Elt Ideal)) (x1 : (⟨S2x500000, .i32⟩ : BufTy).Contents (Elt Ideal)) (x2 : (⟨S500000x128, .f32⟩ : BufTy).Contents (Elt Ideal))
    (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 x9 x10 : (⟨S128, .f32⟩ : BufTy).Contents (Elt Ideal)) (e : Fin 500000) (q : Fin 128) :
    val_main_v56 (F := Ideal) x0 x1 x2 x3 x4 x5 x6 x7 x8 x9 x10 (ix2 e q)
      = eNew (rowOf (val_main_v10 (F := Ideal) x0 x1) e) (rowOf (val_main_v17 (F := Ideal) x0 x1) e) (rowOf x2 e)
          (matAt x3 0 (by decide)) (matAt x3 128 (by decide)) (matAt x3 256 (by decide)) (vecOf x4) (matAll x5) (vecOf x6)
          (matAll x7) (vecOf x8) (vecOf x9) (vecOf x10) q := by
  exact norm_ref x0 x1 x2 x3 x4 x5 x6 x7 x8 x9 x10 e q _ (fun j => layer3_ref x0 x1 x2 x3 x4 x5 x6 x7 x8 e j)

/-- The new edge features, all edges. -/
theorem edgeOut_ref (x0 : (⟨S50000x128, .f32⟩ : BufTy).Contents (Elt Ideal)) (x1 : (⟨S2x500000, .i32⟩ : BufTy).Contents (Elt Ideal)) (x2 : (⟨S500000x128, .f32⟩ : BufTy).Contents (Elt Ideal))
    (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 x9 x10 : (⟨S128, .f32⟩ : BufTy).Contents (Elt Ideal)) :
    val_main_v117 (F := Ideal) x0 x1 x2 x3 x4 x5 x6 x7 x8 x9 x10
      = edgeOutF (val_main_v10 (F := Ideal) x0 x1) (val_main_v17 (F := Ideal) x0 x1) x2
          (matAt x3 0 (by decide)) (matAt x3 128 (by decide)) (matAt x3 256 (by decide)) (vecOf x4) (matAll x5) (vecOf x6)
          (matAll x7) (vecOf x8) (vecOf x9) (vecOf x10) := by
  refine ext_ix2 _ _ fun e q => ?_
  rw [edgeOutF_ix2, val_main_v117_apply, eNew_ref]
  rfl

end Cert.ReferenceIdeal.RefEdge

end
-- ==== Proof.RefGate.lean ====
/-
  The reference's messages, read at an edge `e` and a feature `q`.

  The gate is a second two-layer perceptron of the same concatenated row with one output: a product over the 384
  concatenated features — again the sum of the three parts' products — a rectifier, a product with the [128,1] output
  weights, a bias, and the logistic function spelt as 1 / (1 + e^(−x)). The message is the gate, broadcast over the
  features, times the edge update.
-/
import proofs.«423889_j55173149884914_1_alg».proof.Proof.Gen.ReferenceIdeal.Read
import proofs.«423889_j55173149884914_1_alg».proof.Proof.Arrays
import proofs.«423889_j55173149884914_1_alg».proof.Proof.Concat
import proofs.«423889_j55173149884914_1_alg».proof.Proof.RefEdge
import Idealize.ShloMosaic.Lib.Pipeline.Value
import Idealize.ShloMosaic.Lib.ValueIdx

noncomputable section

namespace Cert.ReferenceIdeal.RefGate

open Cert.ReferenceIdeal Cert.ReferenceIdeal.Gen Cert.ReferenceIdeal.Read Cert.MessagePassing Idealize.ShloMosaic Idealize.ShloMosaic.ValueIdx

/-! ## Indices: the composed index functions of the products and broadcasts, at a pair of coordinates -/

/-- The first product reads the concatenated row of edge e at feature k. -/
private theorem lidx57 (e : Fin 500000) (j : Fin 128) (k : Fin 384) : lidx_main_v57 (ix2 e j) k = ix2 e k :=
  funext fun a => Fin.ext (by match a with | ⟨0, _⟩ => rfl | ⟨1, _⟩ => rfl)
/-- … and the weights at row k, column j. -/
private theorem ridx57 (e : Fin 500000) (j : Fin 128) (k : Fin 384) : ridx_main_v57 (ix2 e j) k = ix2 k j :=
  funext fun a => Fin.ext (by match a with | ⟨0, _⟩ => rfl | ⟨1, _⟩ => rfl)
/-- The bias of the first layer, broadcast twice, is read at the feature. -/
private theorem idx5859 (e : Fin 500000) (j : Fin 128) : idx_main_v58 (idx_main_v59 (ix2 e j)) = ix1 j :=
  funext fun a => Fin.ext (by match a with | ⟨0, _⟩ => rfl)
/-- The second product reads the rectified row of edge e at feature k. -/
private theorem lidx62 (e : Fin 500000) (z : Fin 1) (k : Fin 128) : lidx_main_v62 (ix2 e z) k = ix2 e k :=
  funext fun a => Fin.ext (by match a with | ⟨0, _⟩ => rfl | ⟨1, _⟩ => rfl)
/-- … and the output weights at row k of their one column. -/
private theorem ridx62 (e : Fin 500000) (k : Fin 128) : ridx_main_v62 (ix2 e (0 : Fin 1)) k = ix2 k (0 : Fin 1) :=
  funext fun a => Fin.ext (by match a with | ⟨0, _⟩ => rfl | ⟨1, _⟩ => rfl)
/-- The bias of the second layer, broadcast twice, is read at its one index. -/
private theorem idx6364 (e : Fin 500000) : idx_main_v63 (idx_main_v64 (ix2 e (0 : Fin 1))) = ix1 (0 : Fin 1) :=
  funext fun a => Fin.ext (by match a with | ⟨0, _⟩ => rfl)
/-- The gate, broadcast over the features, is read at the edge. -/
private theorem idx72 (e : Fin 500000) (q : Fin 128) : idx_main_v72 (ix2 e q) = ix2 e (0 : Fin 1) :=
  funext fun a => Fin.ext (by match a with | ⟨0, _⟩ => rfl | ⟨1, _⟩ => rfl)

/-! ## The concatenated row, part by part -/

/-- Feature k of the concatenated row of edge e is the first gathered row's feature k. -/
private theorem cat0 (x0 : (⟨S50000x128, .f32⟩ : BufTy).Contents (Elt Ideal)) (x1 : (⟨S2x500000, .i32⟩ : BufTy).Contents (Elt Ideal)) (x2 : (⟨S500000x128, .f32⟩ : BufTy).Contents (Elt Ideal)) (e : Fin 500000) (k : Fin 128) :
    val_main_v18 (F := Ideal) x0 x1 x2 (ix2 e ⟨k.val, by omega⟩) = val_main_v10 (F := Ideal) x0 x1 (ix2 e k) :=
  concat3_at0 _ _ _ concatenates_S500000x128_S500000x128_S500000x128_S500000x384_d1 e k
/-- Feature 128 + k is the second gathered row's feature k. -/
private theorem cat1 (x0 : (⟨S50000x128, .f32⟩ : BufTy).Contents (Elt Ideal)) (x1 : (⟨S2x500000, .i32⟩ : BufTy).Contents (Elt Ideal)) (x2 : (⟨S500000x128, .f32⟩ : BufTy).Contents (Elt Ideal)) (e : Fin 500000) (k : Fin 128) :
    val_main_v18 (F := Ideal) x0 x1 x2 (ix2 e ⟨128 + k.val, by omega⟩) = val_main_v17 (F := Ideal) x0 x1 (ix2 e k) :=
  concat3_at1 _ _ _ concatenates_S500000x128_S500000x128_S500000x128_S500000x384_d1 e k
/-- Feature 256 + k is the edge's own feature k. -/
private theorem cat2 (x0 : (⟨S50000x128, .f32⟩ : BufTy).Contents (Elt Ideal)) (x1 : (⟨S2x500000, .i32⟩ : BufTy).Contents (Elt Ideal)) (x2 : (⟨S500000x128, .f32⟩ : BufTy).Contents (Elt Ideal)) (e : Fin 500000) (k : Fin 128) :
    val_main_v18 (F := Ideal) x0 x1 x2 (ix2 e ⟨256 + k.val, by omega⟩) = x2 (ix2 e k) :=
  concat3_at2 _ _ _ concatenates_S500000x128_S500000x128_S500000x128_S500000x384_d1 e k

/-! ## The gate, layer by layer -/

/-- The first layer: the product over the 384 concatenated features is the sum of the three parts' products. -/
private theorem pre_ref (x0 : (⟨S50000x128, .f32⟩ : BufTy).Contents (Elt Ideal)) (x1 : (⟨S2x500000, .i32⟩ : BufTy).Contents (Elt Ideal)) (x2 : (⟨S500000x128, .f32⟩ : BufTy).Contents (Elt Ideal))
    (x19 : (⟨S384x128, .f32⟩ : BufTy).Contents (Elt Ideal)) (x20 : (⟨S128, .f32⟩ : BufTy).Contents (Elt Ideal)) (e : Fin 500000) (j : Fin 128) :
    val_main_v60 (F := Ideal) x0 x1 x2 x19 x20 (ix2 e j)
      = pre3 (rowOf (val_main_v10 (F := Ideal) x0 x1) e) (rowOf (val_main_v17 (F := Ideal) x0 x1) e) (rowOf x2 e)
          (matAt x19 0 (by decide)) (matAt x19 128 (by decide)) (matAt x19 256 (by decide)) (vecOf x20) j := by
  rw [val_main_v60_apply, val_main_v57_apply, val_main_v59_apply, val_main_v58_apply, idx5859, sum_concat3]
  have h0 : (∑ k : Fin 128, val_main_v18 (F := Ideal) x0 x1 x2 (lidx_main_v57 (ix2 e j) ⟨k.val, by omega⟩) * x19 (ridx_main_v57 (ix2 e j) ⟨k.val, by omega⟩))
      = dot (rowOf (val_main_v10 (F := Ideal) x0 x1) e) (matAt x19 0 (by decide)) j :=
    Finset.sum_congr rfl fun k _ => by
      rw [lidx57, ridx57, cat0]
      refine congrArg (fun t => val_main_v10 (F := Ideal) x0 x1 (ix2 e k) * x19 (ix2 t j)) (Fin.ext ?_)
      exact (Nat.zero_add _).symm
  have h1 : (∑ k : Fin 128, val_main_v18 (F := Ideal) x0 x1 x2 (lidx_main_v57 (ix2 e j) ⟨128 + k.val, by omega⟩) * x19 (ridx_main_v57 (ix2 e j) ⟨128 + k.val, by omega⟩))
      = dot (rowOf (val_main_v17 (F := Ideal) x0 x1) e) (matAt x19 128 (by decide)) j :=
    Finset.sum_congr rfl fun k _ => by
      rw [lidx57, ridx57, cat1]
      rfl
  have h2 : (∑ k : Fin 128, val_main_v18 (F := Ideal) x0 x1 x2 (lidx_main_v57 (ix2 e j) ⟨256 + k.val, by omega⟩) * x19 (ridx_main_v57 (ix2 e j) ⟨256 + k.val, by omega⟩))
      = dot (rowOf x2 e) (matAt x19 256 (by decide)) j :=
    Finset.sum_congr rfl fun k _ => by
      rw [lidx57, ridx57, cat2]
      rfl
  rw [h0, h1, h2]
  rfl

/-- The rectifier of the first layer. -/
private theorem hid_ref (x0 : (⟨S50000x128, .f32⟩ : BufTy).Contents (Elt Ideal)) (x1 : (⟨S2x500000, .i32⟩ : BufTy).Contents (Elt Ideal)) (x2 : (⟨S500000x128, .f32⟩ : BufTy).Contents (Elt Ideal))
    (x19 : (⟨S384x128, .f32⟩ : BufTy).Contents (Elt Ideal)) (x20 : (⟨S128, .f32⟩ : BufTy).Contents (Elt Ideal)) (e : Fin 500000) (k : Fin 128) :
    val_main_v61 (F := Ideal) x0 x1 x2 x19 x20 (ix2 e k)
      = relu (pre3 (rowOf (val_main_v10 (F := Ideal) x0 x1) e) (rowOf (val_main_v17 (F := Ideal) x0 x1) e) (rowOf x2 e)
          (matAt x19 0 (by decide)) (matAt x19 128 (by decide)) (matAt x19 256 (by decide)) (vecOf x20) k) := by
  rw [val_main_v61_apply, pre_ref, val_main_call2_v0_apply, val_main_call2_cst_apply]
  rfl

/-- The second layer, its bias, and the logistic function spelt as 1 / (1 + e^(−x)). -/
private theorem gate_ref (x0 : (⟨S50000x128, .f32⟩ : BufTy).Contents (Elt Ideal)) (x1 : (⟨S2x500000, .i32⟩ : BufTy).Contents (Elt Ideal)) (x2 : (⟨S500000x128, .f32⟩ : BufTy).Contents (Elt Ideal))
    (x19 : (⟨S384x128, .f32⟩ : BufTy).Contents (Elt Ideal)) (x20 : (⟨S128, .f32⟩ : BufTy).Contents (Elt Ideal)) (x21 : (⟨S128x1, .f32⟩ : BufTy).Contents (Elt Ideal)) (x22 : (⟨S1, .f32⟩ : BufTy).Contents (Elt Ideal)) (e : Fin 500000) :
    val_main_v71 (F := Ideal) x0 x1 x2 x19 x20 x21 x22 (ix2 e (0 : Fin 1))
      = gate (rowOf (val_main_v10 (F := Ideal) x0 x1) e) (rowOf (val_main_v17 (F := Ideal) x0 x1) e) (rowOf x2 e)
          (matAt x19 0 (by decide)) (matAt x19 128 (by decide)) (matAt x19 256 (by decide)) (vecOf x20) (colOf x21) (x22 (ix1 (0 : Fin 1))) := by
  rw [val_main_v71_apply, val_main_v70_apply, val_main_cst_8_apply, val_main_v69_apply, val_main_v68_apply, val_main_cst_7_apply,
    val_main_v67_apply, val_main_v66_apply, val_main_v65_apply, val_main_v62_apply, val_main_v64_apply, val_main_v63_apply, idx6364]
  have hs : (∑ k : Fin 128, val_main_v61 (F := Ideal) x0 x1 x2 x19 x20 (lidx_main_v62 (ix2 e (0 : Fin 1)) k) * x21 (ridx_main_v62 (ix2 e (0 : Fin 1)) k))
      = ∑ k : Fin 128, relu (pre3 (rowOf (val_main_v10 (F := Ideal) x0 x1) e) (rowOf (val_main_v17 (F := Ideal) x0 x1) e) (rowOf x2 e)
          (matAt x19 0 (by decide)) (matAt x19 128 (by decide)) (matAt x19 256 (by decide)) (vecOf x20) k) * colOf x21 k :=
    Finset.sum_congr rfl fun k _ => by
      rw [lidx62, ridx62, hid_ref]
      rfl
  rw [hs]
  exact logistic_spelt _

/-- The messages, all edges. -/
theorem message_ref (x0 : (⟨S50000x128, .f32⟩ : BufTy).Contents (Elt Ideal)) (x1 : (⟨S2x500000, .i32⟩ : BufTy).Contents (Elt Ideal)) (x2 : (⟨S500000x128, .f32⟩ : BufTy).Contents (Elt Ideal))
    (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 x9 x10 : (⟨S128, .f32⟩ : BufTy).Contents (Elt Ideal))
    (x19 : (⟨S384x128, .f32⟩ : BufTy).Contents (Elt Ideal)) (x20 : (⟨S128, .f32⟩ : BufTy).Contents (Elt Ideal)) (x21 : (⟨S128x1, .f32⟩ : BufTy).Contents (Elt Ideal)) (x22 : (⟨S1, .f32⟩ : BufTy).Contents (Elt Ideal)) :
    val_main_v73 (F := Ideal) x0 x1 x2 x3 x4 x5 x6 x7 x8 x9 x10 x19 x20 x21 x22
      = messageF (val_main_v10 (F := Ideal) x0 x1) (val_main_v17 (F := Ideal) x0 x1) x2
          (matAt x3 0 (by decide)) (matAt x3 128 (by decide)) (matAt x3 256 (by decide)) (vecOf x4) (matAll x5) (vecOf x6)
          (matAll x7) (vecOf x8) (vecOf x9) (vecOf x10)
          (matAt x19 0 (by decide)) (matAt x19 128 (by decide)) (matAt x19 256 (by decide)) (vecOf x20) (colOf x21)
          (x22 (ix1 (0 : Fin 1))) := by
  refine ext_ix2 _ _ fun e q => ?_
  rw [messageF_ix2, val_main_v73_apply, val_main_v72_apply, idx72, gate_ref, RefEdge.eNew_ref]
  rfl

end Cert.ReferenceIdeal.RefGate

end
-- ==== Proof.RefNode.lean ====
/-
  The reference's node half, read at a node `r` and a feature `q`.

  The reference concatenates a node's row and its row of summed messages into 256 features and applies the node
  perceptron to that row; its first layer is a product over the 256 concatenated features, the sum of the two parts'
  128-feature products (`sum_concat2`). The summed messages enter as one array, whatever it holds.
-/
import proofs.«423889_j55173149884914_1_alg».proof.Proof.Gen.ReferenceIdeal.Read
import proofs.«423889_j55173149884914_1_alg».proof.Proof.Arrays
import proofs.«423889_j55173149884914_1_alg».proof.Proof.Concat
import Idealize.ShloMosaic.Lib.Pipeline.Value
import Idealize.ShloMosaic.Lib.ValueIdx

noncomputable section

namespace Cert.ReferenceIdeal.RefNode

open Cert.ReferenceIdeal Cert.ReferenceIdeal.Gen Cert.ReferenceIdeal.Read Cert.MessagePassing Idealize.ShloMosaic Idealize.ShloMosaic.ValueIdx

/-! ## The layers at one node, one coordinate -/

section Layers

variable (x0 : (⟨S50000x128, .f32⟩ : BufTy).Contents (Elt Ideal)) (x1 : (⟨S2x500000, .i32⟩ : BufTy).Contents (Elt Ideal)) (x2 : (⟨S500000x128, .f32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S384x128, .f32⟩ : BufTy).Contents (Elt Ideal)) (x20 : (⟨S128, .f32⟩ : BufTy).Contents (Elt Ideal)) (x21 : (⟨S128x1, .f32⟩ : BufTy).Contents (Elt Ideal)) (x22 : (⟨S1, .f32⟩ : BufTy).Contents (Elt Ideal))

/-- The first layer at node `r`, coordinate `k`: the product over the 256 concatenated features is the sum of the two parts'
    products, the first part against rows 0 … 127 of the weights, the second against rows 128 … 255, plus the bias. -/
private theorem firstLayer (r : Fin 50000) (k : Fin 128) :
    val_main_v81 (F := Ideal) x0 x1 x2 x3 x4 x5 x6 x7 x8 x9 x10 x11 x12 x19 x20 x21 x22 (ix2 r k)
      = pre2 (rowOf x0 r) (rowOf (val_main_v76 (F := Ideal) x0 x1 x2 x3 x4 x5 x6 x7 x8 x9 x10 x19 x20 x21 x22) r) (matAt x11 0 (by decide)) (matAt x11 128 (by decide)) (vecOf x12) k := by
  rw [val_main_v81_apply, val_main_v78_apply, val_main_v80_apply, val_main_v79_apply, sum_concat2, Ideal.addf_def]
  unfold pre2 dot
  refine congrArg₂ (· + ·) (congrArg₂ (· + ·) (Finset.sum_congr rfl fun k' _ => congrArg₂ (· * ·) ?_ ?_)
    (Finset.sum_congr rfl fun k' _ => congrArg₂ (· * ·) ?_ ?_)) ?_
  · have e : lidx_main_v78 (ix2 r k) ⟨k'.val, by omega⟩ = ix2 r ⟨k'.val, by omega⟩ := funext fun a => by match a with | ⟨0, _⟩ => rfl | ⟨1, _⟩ => rfl
    exact (congrArg (val_main_v77 (F := Ideal) x0 x1 x2 x3 x4 x5 x6 x7 x8 x9 x10 x19 x20 x21 x22) e).trans
      (concat2_at0 x0 (val_main_v76 (F := Ideal) x0 x1 x2 x3 x4 x5 x6 x7 x8 x9 x10 x19 x20 x21 x22) concatenates_S50000x128_S50000x128_S50000x256_d1 r k')
  · exact congrArg x11 (funext fun a => Fin.ext (by match a with | ⟨0, _⟩ => exact (Nat.zero_add _).symm | ⟨1, _⟩ => rfl))
  · have e : lidx_main_v78 (ix2 r k) ⟨128 + k'.val, by omega⟩ = ix2 r ⟨128 + k'.val, by omega⟩ := funext fun a => by match a with | ⟨0, _⟩ => rfl | ⟨1, _⟩ => rfl
    exact (congrArg (val_main_v77 (F := Ideal) x0 x1 x2 x3 x4 x5 x6 x7 x8 x9 x10 x19 x20 x21 x22) e).trans
      (concat2_at1 x0 (val_main_v76 (F := Ideal) x0 x1 x2 x3 x4 x5 x6 x7 x8 x9 x10 x19 x20 x21 x22) concatenates_S50000x128_S50000x128_S50000x256_d1 r k')
  · exact congrArg x11 (funext fun a => by match a with | ⟨0, _⟩ => rfl | ⟨1, _⟩ => rfl)
  · exact congrArg x12 (funext fun a => by match a with | ⟨0, _⟩ => rfl)

/-- The second layer at node `r`, coordinate `k`, from the first layer's row `P`: rectify, multiply by the weights, add the bias. -/
private theorem secondLayer (P : Row) (r : Fin 50000) (hP : ∀ k', val_main_v81 (F := Ideal) x0 x1 x2 x3 x4 x5 x6 x7 x8 x9 x10 x11 x12 x19 x20 x21 x22 (ix2 r k') = P k') (k : Fin 128) :
    val_main_v86 (F := Ideal) x0 x1 x2 x3 x4 x5 x6 x7 x8 x9 x10 x11 x12 x13 x14 x19 x20 x21 x22 (ix2 r k) = dot (fun k' => relu (P k')) (matAll x13) k + vecOf x14 k := by
  rw [val_main_v86_apply, val_main_v83_apply, val_main_v85_apply, val_main_v84_apply, Ideal.addf_def]
  unfold dot
  refine congrArg₂ (· + ·) (Finset.sum_congr rfl fun k' _ => congrArg₂ (· * ·) ?_ ?_) ?_
  · have e : lidx_main_v83 (ix2 r k) k' = ix2 r k' := funext fun a => by match a with | ⟨0, _⟩ => rfl | ⟨1, _⟩ => rfl
    rw [e, val_main_v82_apply, val_main_call3_v0_apply, hP k']
    rfl
  · exact congrArg x13 (funext fun a => by match a with | ⟨0, _⟩ => rfl | ⟨1, _⟩ => rfl)
  · exact congrArg x14 (funext fun a => by match a with | ⟨0, _⟩ => rfl)

/-- The third layer at node `r`, coordinate `k`, from the second layer's row `P`: rectify, multiply by the weights, add the bias. -/
private theorem thirdLayer (P : Row) (r : Fin 50000) (hP : ∀ k', val_main_v86 (F := Ideal) x0 x1 x2 x3 x4 x5 x6 x7 x8 x9 x10 x11 x12 x13 x14 x19 x20 x21 x22 (ix2 r k') = P k') (k : Fin 128) :
    val_main_v91 (F := Ideal) x0 x1 x2 x3 x4 x5 x6 x7 x8 x9 x10 x11 x12 x13 x14 x15 x16 x19 x20 x21 x22 (ix2 r k) = dot (fun k' => relu (P k')) (matAll x15) k + vecOf x16 k := by
  rw [val_main_v91_apply, val_main_v88_apply, val_main_v90_apply, val_main_v89_apply, Ideal.addf_def]
  unfold dot
  refine congrArg₂ (· + ·) (Finset.sum_congr rfl fun k' _ => congrArg₂ (· * ·) ?_ ?_) ?_
  · have e : lidx_main_v88 (ix2 r k) k' = ix2 r k' := funext fun a => by match a with | ⟨0, _⟩ => rfl | ⟨1, _⟩ => rfl
    rw [e, val_main_v87_apply, val_main_call4_v0_apply, hP k']
    rfl
  · exact congrArg x15 (funext fun a => by match a with | ⟨0, _⟩ => rfl | ⟨1, _⟩ => rfl)
  · exact congrArg x16 (funext fun a => by match a with | ⟨0, _⟩ => rfl)

/-- The mean of node `r`'s third-layer row `H`: its sum (from the zero word) over 128. -/
private theorem rowMean (H : Row) (r : Fin 50000) (hH : ∀ j, val_main_v91 (F := Ideal) x0 x1 x2 x3 x4 x5 x6 x7 x8 x9 x10 x11 x12 x13 x14 x15 x16 x19 x20 x21 x22 (ix2 r j) = H j) :
    val_main_v95 (F := Ideal) x0 x1 x2 x3 x4 x5 x6 x7 x8 x9 x10 x11 x12 x13 x14 x15 x16 x19 x20 x21 x22 (ix2 r (0 : Fin 1)) = mean H := by
  rw [val_main_v95_apply, val_main_v93_apply, val_main_v92_apply, val_main_v94_apply, Ideal.hostDivf_def,
    val_main_cst_10_apply, Ideal.ofBits_def, Ideal.ofBits_zero_f32, zero_add]
  unfold mean
  refine congrArg₂ Ideal.div (Finset.sum_congr rfl fun k _ => ?_) rfl
  have e : idx_main_v92 (idx_main_v93 (ix2 r (0 : Fin 1))) k = ix2 r k := funext fun a => by match a with | ⟨0, _⟩ => rfl | ⟨1, _⟩ => rfl
  rw [e]
  exact hH k

/-- The row less its mean, as the variance reads it. -/
private theorem centredA (H : Row) (r : Fin 50000) (hH : ∀ j, val_main_v91 (F := Ideal) x0 x1 x2 x3 x4 x5 x6 x7 x8 x9 x10 x11 x12 x13 x14 x15 x16 x19 x20 x21 x22 (ix2 r j) = H j) (j : Fin 128) :
    val_main_v97 (F := Ideal) x0 x1 x2 x3 x4 x5 x6 x7 x8 x9 x10 x11 x12 x13 x14 x15 x16 x19 x20 x21 x22 (ix2 r j) = H j - mean H := by
  have e : idx_main_v96 (ix2 r j) = ix2 r (0 : Fin 1) := funext fun a => by match a with | ⟨0, _⟩ => rfl | ⟨1, _⟩ => rfl
  rw [val_main_v97_apply, val_main_v96_apply, e, hH j, rowMean x0 x1 x2 x3 x4 x5 x6 x7 x8 x9 x10 x11 x12 x13 x14 x15 x16 x19 x20 x21 x22 H r hH, Ideal.subf_def]

/-- The row less its mean, as the normalised output reads it. -/
private theorem centredB (H : Row) (r : Fin 50000) (hH : ∀ j, val_main_v91 (F := Ideal) x0 x1 x2 x3 x4 x5 x6 x7 x8 x9 x10 x11 x12 x13 x14 x15 x16 x19 x20 x21 x22 (ix2 r j) = H j) (j : Fin 128) :
    val_main_v104 (F := Ideal) x0 x1 x2 x3 x4 x5 x6 x7 x8 x9 x10 x11 x12 x13 x14 x15 x16 x19 x20 x21 x22 (ix2 r j) = H j - mean H := by
  have e : idx_main_v103 (ix2 r j) = ix2 r (0 : Fin 1) := funext fun a => by match a with | ⟨0, _⟩ => rfl | ⟨1, _⟩ => rfl
  rw [val_main_v104_apply, val_main_v103_apply, e, hH j, rowMean x0 x1 x2 x3 x4 x5 x6 x7 x8 x9 x10 x11 x12 x13 x14 x15 x16 x19 x20 x21 x22 H r hH, Ideal.subf_def]

/-- The reciprocal square root of the variance plus ε. -/
private theorem rowScale (H : Row) (r : Fin 50000) (hH : ∀ j, val_main_v91 (F := Ideal) x0 x1 x2 x3 x4 x5 x6 x7 x8 x9 x10 x11 x12 x13 x14 x15 x16 x19 x20 x21 x22 (ix2 r j) = H j) :
    val_main_v107 (F := Ideal) x0 x1 x2 x3 x4 x5 x6 x7 x8 x9 x10 x11 x12 x13 x14 x15 x16 x19 x20 x21 x22 (ix2 r (0 : Fin 1))
      = Ideal.rsqrt (Ideal.div (∑ k : Fin 128, (H k - mean H) * (H k - mean H)) widthLit + epsLit) := by
  rw [val_main_v107_apply, val_main_v106_apply, val_main_v102_apply, val_main_v100_apply, val_main_v99_apply, val_main_v101_apply,
    val_main_v105_apply, Ideal.hostUnary_rsqrt_def, Ideal.addf_def, Ideal.hostDivf_def,
    val_main_cst_12_apply, Ideal.ofBits_def, Ideal.ofBits_zero_f32, zero_add]
  refine congrArg Ideal.rsqrt (congrArg₂ (· + ·) (congrArg₂ Ideal.div (Finset.sum_congr rfl fun k _ => ?_) rfl) rfl)
  have e : idx_main_v99 (idx_main_v100 (ix2 r (0 : Fin 1))) k = ix2 r k := funext fun a => by match a with | ⟨0, _⟩ => rfl | ⟨1, _⟩ => rfl
  rw [e, val_main_v98_apply, centredA x0 x1 x2 x3 x4 x5 x6 x7 x8 x9 x10 x11 x12 x13 x14 x15 x16 x19 x20 x21 x22 H r hH k, Ideal.mulf_def]

/-- The node's new features at (r, q): its features plus the normalised third-layer row with gain and offset. -/
private theorem residual (H : Row) (r : Fin 50000) (hH : ∀ j, val_main_v91 (F := Ideal) x0 x1 x2 x3 x4 x5 x6 x7 x8 x9 x10 x11 x12 x13 x14 x15 x16 x19 x20 x21 x22 (ix2 r j) = H j) (q : Fin 128) :
    val_main_v116 (F := Ideal) x0 x1 x2 x3 x4 x5 x6 x7 x8 x9 x10 x11 x12 x13 x14 x15 x16 x17 x18 x19 x20 x21 x22 (ix2 r q) = x0 (ix2 r q) + lnorm H (vecOf x17) (vecOf x18) q := by
  have e : idx_main_v108 (ix2 r q) = ix2 r (0 : Fin 1) := funext fun a => by match a with | ⟨0, _⟩ => rfl | ⟨1, _⟩ => rfl
  rw [val_main_v116_apply, val_main_v115_apply, val_main_v112_apply, val_main_v109_apply, val_main_v108_apply, e,
    centredB x0 x1 x2 x3 x4 x5 x6 x7 x8 x9 x10 x11 x12 x13 x14 x15 x16 x19 x20 x21 x22 H r hH q, rowScale x0 x1 x2 x3 x4 x5 x6 x7 x8 x9 x10 x11 x12 x13 x14 x15 x16 x19 x20 x21 x22 H r hH,
    val_main_v111_apply, val_main_v110_apply, val_main_v114_apply, val_main_v113_apply,
    Ideal.addf_def, Ideal.addf_def, Ideal.mulf_def, Ideal.mulf_def]
  unfold lnorm
  refine congrArg₂ (· + ·) rfl (congrArg₂ (· + ·) (congrArg₂ (· * ·) rfl ?_) ?_)
  · exact congrArg x17 (funext fun a => by match a with | ⟨0, _⟩ => rfl)
  · exact congrArg x18 (funext fun a => by match a with | ⟨0, _⟩ => rfl)

end Layers

/-! ## The array -/

/-- The new node features, all nodes. -/
theorem nodeOut_ref (x0 : (⟨S50000x128, .f32⟩ : BufTy).Contents (Elt Ideal)) (x1 : (⟨S2x500000, .i32⟩ : BufTy).Contents (Elt Ideal)) (x2 : (⟨S500000x128, .f32⟩ : BufTy).Contents (Elt Ideal))
    (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 x9 x10 : (⟨S128, .f32⟩ : BufTy).Contents (Elt Ideal))
    (x11 : (⟨S256x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal))
    (x15 : (⟨S128x128, .f32⟩ : BufTy).Contents (Elt Ideal)) (x16 x17 x18 : (⟨S128, .f32⟩ : BufTy).Contents (Elt Ideal))
    (x19 : (⟨S384x128, .f32⟩ : BufTy).Contents (Elt Ideal)) (x20 : (⟨S128, .f32⟩ : BufTy).Contents (Elt Ideal)) (x21 : (⟨S128x1, .f32⟩ : BufTy).Contents (Elt Ideal)) (x22 : (⟨S1, .f32⟩ : BufTy).Contents (Elt Ideal)) :
    val_main_v116 (F := Ideal) x0 x1 x2 x3 x4 x5 x6 x7 x8 x9 x10 x11 x12 x13 x14 x15 x16 x17 x18 x19 x20 x21 x22
      = nodeOutF x0 (val_main_v76 (F := Ideal) x0 x1 x2 x3 x4 x5 x6 x7 x8 x9 x10 x19 x20 x21 x22)
          (matAt x11 0 (by decide)) (matAt x11 128 (by decide)) (vecOf x12) (matAll x13) (vecOf x14) (matAll x15) (vecOf x16)
          (vecOf x17) (vecOf x18) := by
  refine ext_ix2 (n := 50000) (m := 128) (α := EReal) _ _ fun r q => ?_
  rw [nodeOutF_ix2]
  exact residual x0 x1 x2 x3 x4 x5 x6 x7 x8 x9 x10 x11 x12 x13 x14 x15 x16 x17 x18 x19 x20 x21 x22 (fun j => dot (fun k => relu ((fun k => dot (fun k' => relu ((pre2 (rowOf x0 r) (rowOf (val_main_v76 (F := Ideal) x0 x1 x2 x3 x4 x5 x6 x7 x8 x9 x10 x19 x20 x21 x22) r) (matAt x11 0 (by decide)) (matAt x11 128 (by decide)) (vecOf x12)) k')) (matAll x13) k + vecOf x14 k) k)) (matAll x15) j + vecOf x16 j) r
    (fun j => thirdLayer x0 x1 x2 x3 x4 x5 x6 x7 x8 x9 x10 x11 x12 x13 x14 x15 x16 x19 x20 x21 x22 (fun k => dot (fun k' => relu ((pre2 (rowOf x0 r) (rowOf (val_main_v76 (F := Ideal) x0 x1 x2 x3 x4 x5 x6 x7 x8 x9 x10 x19 x20 x21 x22) r) (matAt x11 0 (by decide)) (matAt x11 128 (by decide)) (vecOf x12)) k')) (matAll x13) k + vecOf x14 k) r
      (fun k => secondLayer x0 x1 x2 x3 x4 x5 x6 x7 x8 x9 x10 x11 x12 x13 x14 x19 x20 x21 x22 (pre2 (rowOf x0 r) (rowOf (val_main_v76 (F := Ideal) x0 x1 x2 x3 x4 x5 x6 x7 x8 x9 x10 x19 x20 x21 x22) r) (matAt x11 0 (by decide)) (matAt x11 128 (by decide)) (vecOf x12)) r
        (fun k' => firstLayer x0 x1 x2 x3 x4 x5 x6 x7 x8 x9 x10 x11 x12 x19 x20 x21 x22 r k') k) j) q

end Cert.ReferenceIdeal.RefNode

end
-- ==== Proof.Bridge.lean ====
/-
  The reference's results at the kernel program's inputs.

  Read at the same input arrays, the reference's receivers' rows and senders' rows are the kernel program's (one gather
  at one wrapped index column: the two programs print the same operations), its scatter-add is the kernel program's
  scatter-add, and so its two results are the same whole-array functions of the inputs that the kernel program's
  results are.
-/
import proofs.«423889_j55173149884914_1_alg».proof.Proof.KernelResults
import proofs.«423889_j55173149884914_1_alg».proof.Proof.RefEdge
import proofs.«423889_j55173149884914_1_alg».proof.Proof.RefGate
import proofs.«423889_j55173149884914_1_alg».proof.Proof.RefNode

set_option maxRecDepth 16384

noncomputable section

namespace Cert.Bridge

open Cert.KernelIdeal Cert.KernelIdeal.Gen Cert.KernelIdeal.Results Cert.MessagePassing
open Idealize.ShloMosaic Idealize.ShloMosaic.TcCoe Idealize.ShloMosaic.ValueIdx Idealize.SL.Sem

variable (m : (ℓ : Loc nD τ sig) → Buf (Elt Ideal) ℓ)

/-- The reference's new edge features. -/
theorem ref_edges (c : Dev nD) :
    Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      = edgeOutF (recvRows m c) (sendRows m c) (m ((c : Thread nD τ).loc main_arg2))
          (matAt (m ((c : Thread nD τ).loc main_arg3)) 0 (by decide)) (matAt (m ((c : Thread nD τ).loc main_arg3)) 128 (by decide)) (matAt (m ((c : Thread nD τ).loc main_arg3)) 256 (by decide)) (vecOf (m ((c : Thread nD τ).loc main_arg4))) (matAll (m ((c : Thread nD τ).loc main_arg5)))
          (vecOf (m ((c : Thread nD τ).loc main_arg6))) (matAll (m ((c : Thread nD τ).loc main_arg7))) (vecOf (m ((c : Thread nD τ).loc main_arg8))) (vecOf (m ((c : Thread nD τ).loc main_arg9))) (vecOf (m ((c : Thread nD τ).loc main_arg10))) :=
  Cert.ReferenceIdeal.RefEdge.edgeOut_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The reference's messages are the kernel program's. -/
theorem ref_messages (c : Dev nD) :
    Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg19)) (m ((c : Thread nD τ).loc main_arg20)) (m ((c : Thread nD τ).loc main_arg21)) (m ((c : Thread nD τ).loc main_arg22)) = messages m c :=
  Cert.ReferenceIdeal.RefGate.message_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg19)) (m ((c : Thread nD τ).loc main_arg20)) (m ((c : Thread nD τ).loc main_arg21)) (m ((c : Thread nD τ).loc main_arg22))

/-- The reference's summed messages are the kernel program's. -/
theorem ref_summed (c : Dev nD) :
    Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg19)) (m ((c : Thread nD τ).loc main_arg20)) (m ((c : Thread nD τ).loc main_arg21)) (m ((c : Thread nD τ).loc main_arg22)) = summed m c := by
  unfold Cert.ReferenceIdeal.Read.val_main_v76
  rw [ref_messages m c]
  rfl

/-- The reference's new node features. -/
theorem ref_nodes (c : Dev nD) :
    Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
      = nodeOutF (m ((c : Thread nD τ).loc main_arg0)) (summed m c) (matAt (m ((c : Thread nD τ).loc main_arg11)) 0 (by decide)) (matAt (m ((c : Thread nD τ).loc main_arg11)) 128 (by decide)) (vecOf (m ((c : Thread nD τ).loc main_arg12)))
          (matAll (m ((c : Thread nD τ).loc main_arg13))) (vecOf (m ((c : Thread nD τ).loc main_arg14))) (matAll (m ((c : Thread nD τ).loc main_arg15))) (vecOf (m ((c : Thread nD τ).loc main_arg16))) (vecOf (m ((c : Thread nD τ).loc main_arg17))) (vecOf (m ((c : Thread nD τ).loc main_arg18))) :=
  (Cert.ReferenceIdeal.RefNode.nodeOut_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))).trans
    (nodeOutF_congr rfl (ref_summed m c) rfl rfl rfl rfl rfl rfl rfl rfl rfl)

end Cert.Bridge

end
-- ==== Proof.lean ====
/-
  The certificate: a message-passing block of a graph network, computed by two tiled kernels around host gathers and a
  host scatter-add, equals its plain reference at the extended reals whenever the edge list holds node indices.

  The three frames are the generated ones (the reference's is its generated run with the results dropped). The idealized
  kernel is the kernel's own text read at the extended reals, so nothing is owed for that step. For the value: with
  every entry of the edge list in [0, 50000) (IndexRange, from the precondition) the kernel program's two results are
  `nodeOutF` and `edgeOutF` of its inputs (KernelResults, over NamedRun's run); the reference's two results are the same
  two functions of its inputs (RefNode, RefEdge over the generated run), the receivers' and senders' rows being one
  gather at one wrapped index column in both programs and the summed messages one scatter-add of equal messages.
  No finiteness is used: the two programs differ only in how a first layer's sum over a concatenation is grouped.
-/
import proofs.«423889_j55173149884914_1_alg».proof.Defs
import proofs.«423889_j55173149884914_1_alg».proof.Proof.Gen.Kernel
import proofs.«423889_j55173149884914_1_alg».proof.Proof.Gen.Kernel.Skeleton
import proofs.«423889_j55173149884914_1_alg».proof.Proof.Gen.Kernel.Launch
import proofs.«423889_j55173149884914_1_alg».proof.Proof.Gen.Kernel.Points
import proofs.«423889_j55173149884914_1_alg».proof.Proof.Gen.Kernel.Frame
import proofs.«423889_j55173149884914_1_alg».proof.Proof.Gen.KernelIdeal
import proofs.«423889_j55173149884914_1_alg».proof.Proof.Gen.KernelIdeal.Skeleton
import proofs.«423889_j55173149884914_1_alg».proof.Proof.Gen.KernelIdeal.Launch
import proofs.«423889_j55173149884914_1_alg».proof.Proof.Gen.KernelIdeal.Points
import proofs.«423889_j55173149884914_1_alg».proof.Proof.Gen.KernelIdeal.Frame
import proofs.«423889_j55173149884914_1_alg».proof.Proof.Gen.ReferenceIdeal
import proofs.«423889_j55173149884914_1_alg».proof.Proof.Gen.ReferenceIdeal.Run
import proofs.«423889_j55173149884914_1_alg».proof.Proof.Gen.ReferenceIdeal.Read
import proofs.«423889_j55173149884914_1_alg».proof.Proof.Gen.Pre_finite_inputs
import proofs.«423889_j55173149884914_1_alg».proof.Proof.NamedRun
import proofs.«423889_j55173149884914_1_alg».proof.Proof.IndexRange
import proofs.«423889_j55173149884914_1_alg».proof.Proof.KernelResults
import proofs.«423889_j55173149884914_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Cert.MessagePassing

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From the precondition: every entry of the kernel program's edge list is a node index. -/
theorem nodeIndices (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Results.NodeIndices m c :=
  fun i => Cert.IndexRange.in_range (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (hpre c) i

/-- The two programs, run from memories that agree on the inputs, end with equal results. -/
theorem algebraic : Cert.algebraic_KernelIdeal_ReferenceIdeal := by
  intro m ρ m' ρ' hpre hagree
  refine ⟨_, _, (θ_run Cert.KernelIdeal.defs _ _).mono (fun r h c =>
      ⟨(h c).1.trans (Cert.KernelIdeal.Results.nodes m ρ c (nodeIndices m hpre c)),
       (h c).2.1.trans (Cert.KernelIdeal.Results.edges m ρ c (nodeIndices m hpre c)), (h c).2.2⟩)
      (Cert.KernelIdeal.NamedRun.run_named (F := Ideal) m ρ), ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18, h19, h20, h21, h22⟩ := hagree c
    rw [Cert.ReferenceIdeal.Read.val_main_v116_eq, h0, h1, h2, h3, h4, h5, h6, h7, h8, h9, h10, h11, h12, h13, h14, h15, h16, h17, h18, h19, h20, h21, h22]
    exact Cert.Bridge.ref_nodes m c
  · obtain ⟨h0, h1, h2, h3, h4, h5, h6, h7, h8, h9, h10, -⟩ := hagree c
    rw [Cert.ReferenceIdeal.Read.val_main_v117_eq, h0, h1, h2, h3, h4, h5, h6, h7, h8, h9, h10]
    exact Cert.Bridge.ref_edges m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
